-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v35)) (v4 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v35) = v3 c
          ∧ r.2.mem ((c.tc : Thread Cert.KernelIdeal.nD Cert.KernelIdeal.τ).loc Cert.KernelIdeal.main_v37) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S50257x2048 : Shape := ⟨2, ![50257, 2048]⟩
abbrev S4x1024 : Shape := ⟨2, ![4, 1024]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S50257x2048 : S_.BroadcastsInDim S50257x2048 (![] : Fin 0 → Fin S50257x2048.rank)
  reducesTo_S50257x2048_S_d0_1 : S50257x2048.ReducesTo [0, 1] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x1024x2048 .f32) (main_arg1 : FVec F S50257x2048 .f32) (main_arg2 : IVec S4x1024 32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S50257x2048 .f32 := Host.absf main_arg1
  let main_cst_0 : FVec F S_ .f32 := constant S_ .f32 0x7F800000#32
  let main_v5 : FVec F S50257x2048 .f32 := broadcastInDim S50257x2048 ![] bcast_S_S50257x2048 main_cst_0
  let main_v6 : IVec S50257x2048 1 := cmpf .olt main_v4 main_v5
  let main_c_1 : IVec S_ 1 := constantI S_ 1 1#1
  let main_v7 : IVec S_ 1 := (fun x v => Host.reduce IntOp.andi x v reducesTo_S50257x2048_S_d0_1 h_S_) main_v6 main_c_1
  let main_v8 : IVec S_ 1 := andi main_v3 main_v7
  let main_c_2 : IVec S_ 32 := constantI S_ 32 0#32
  let main_v9 : IVec S4x1024 32 := broadcastInDim S4x1024 ![] bcast_S_S4x1024 main_c_2
  let main_v10 : IVec S4x1024 1 := cmpi .sge main_arg2 main_v9
  let main_c_3 : IVec S_ 1 := constantI S_ 1 1#1
  let main_v11 : IVec S_ 1 := (fun x v => Host.reduce IntOp.andi x v reducesTo_S4x1024_S_d0_1 h_S_) main_v10 main_c_3
  let main_v12 : IVec S_ 1 := andi main_v8 main_v11
  let main_c_4 : IVec S_ 32 := constantI S_ 32 50257#32
  let main_v13 : IVec S4x1024 32 := broadcastInDim S4x1024 ![] bcast_S_S4x1024 main_c_4
  let main_v14 : IVec S4x1024 1 := cmpi .slt main_arg2 main_v13
  let main_c_5 : IVec S_ 1 := constantI S_ 1 1#1
  let main_v15 : IVec S_ 1 := (fun x v => Host.reduce IntOp.andi x v reducesTo_S4x1024_S_d0_1 h_S_) main_v14 main_c_5
  fn_part1 (F := F) main_v12 main_v15
-- ==== Kernel.lean ====
abbrev S4x1024x2048 : Shape := ⟨3, ![4, 1024, 2048]⟩
abbrev S50257x2048 : Shape := ⟨2, ![50257, 2048]⟩
abbrev S4x1024 : Shape := ⟨2, ![4, 1024]⟩
abbrev S4096x2048 : Shape := ⟨2, ![4096, 2048]⟩
abbrev S4096x1 : Shape := ⟨2, ![4096, 1]⟩
abbrev S_ : Shape := ⟨0, ![]⟩
abbrev S50688x2048 : Shape := ⟨2, ![50688, 2048]⟩
abbrev S1024x2048 : Shape := ⟨2, ![1024, 2048]⟩
abbrev S512x2048 : Shape := ⟨2, ![512, 2048]⟩
abbrev S1024x1 : Shape := ⟨2, ![1024, 1]⟩
abbrev S1024x512 : Shape := ⟨2, ![1024, 512]⟩
abbrev S1024 : Shape := ⟨1, ![1024]⟩
abbrev S4096 : Shape := ⟨1, ![4096]⟩
abbrev S4 : Shape := ⟨1, ![4]⟩
abbrev S2 : Shape := ⟨1, ![2]⟩

abbrev nBuf : Space → Nat
  | .hbm => 71
  | .vmem => 11
  | .smem => 0
  | _ => 0

abbrev bufTy : (tb : Table) → Fin (tcTables nBuf tb) → BufTy
  | .hbm, ⟨0, _⟩ => ⟨S4x1024x2048, .f32⟩
  | .hbm, ⟨1, _⟩ => ⟨S50257x2048, .f32⟩
  | .hbm, ⟨2, _⟩ => ⟨S4x1024, .i32⟩
  | .hbm, ⟨3, _⟩ => ⟨S4096x2048, .f32⟩
  | .hbm, ⟨4, _⟩ => ⟨S4096x1, .i32⟩
  | .hbm, ⟨5, _⟩ => ⟨S_, .i32⟩
  | .hbm, ⟨6, _⟩ => ⟨S_, .f32⟩
  | .hbm, ⟨7, _⟩ => ⟨S50688x2048, .f32⟩
  | .hbm, ⟨8, _⟩ => ⟨S4096x1, .f32⟩
  | .hbm, ⟨9, _⟩ => ⟨S4096, .f32⟩
  | .hbm, ⟨10, _⟩ => ⟨S4x1024, .f32⟩
  | .hbm, ⟨11, _⟩ => ⟨S_, .i32⟩
  | .hbm, ⟨12, _⟩ => ⟨S4x1024, .i32⟩
  | .hbm, ⟨13, _⟩ => ⟨S4x1024, .i1⟩
  | .hbm, ⟨14, _⟩ => ⟨S4x1024, .f32⟩
  | .hbm, ⟨15, _⟩ => ⟨S4x1024, .f32⟩
  | .hbm, ⟨16, _⟩ => ⟨S_, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S2, .f32⟩
  | .hbm, ⟨25, _⟩ => ⟨S2, .f32⟩
  | .hbm, ⟨26, _⟩ => ⟨S2, .f32⟩
  | .hbm, ⟨27, _⟩ => ⟨S2, .f32⟩
  | .hbm, ⟨28, _⟩ => ⟨S2, .f32⟩
  | .hbm, ⟨29, _⟩ => ⟨S2, .f32⟩
  | .hbm, ⟨30, _⟩ => ⟨S2, .f32⟩
  | .hbm, ⟨31, _⟩ => ⟨S2, .f32⟩
  | .hbm, ⟨32, _⟩ => ⟨S2, .f32⟩
  | .hbm, ⟨33, _⟩ => ⟨S2, .f32⟩
  | .hbm, ⟨34, _⟩ => ⟨S2, .f32⟩
  | .hbm, ⟨35, _⟩ => ⟨S2, .f32⟩
  | .hbm, ⟨36, _⟩ => ⟨S_, .f32⟩
  | .hbm, ⟨37, _⟩ => ⟨S2, .f32⟩
  | .hbm, ⟨38, _⟩ => ⟨S2, .f32⟩
  | .hbm, ⟨39, _⟩ => ⟨S2, .f32⟩
  | .hbm, ⟨40, _⟩ => ⟨S2, .f32⟩
  | .hbm, ⟨41, _⟩ => ⟨S2, .i1⟩
  | .hbm, ⟨42, _⟩ => ⟨S2, .f32⟩
  | .hbm, ⟨43, _⟩ => ⟨S2, .f32⟩
  | .hbm, ⟨44, _⟩ => ⟨S2, .f32⟩
  | .hbm, ⟨45, _⟩ => ⟨S2, .f32⟩
  | .hbm, ⟨46, _⟩ => ⟨S2, .f32⟩
  | .hbm, ⟨47, _⟩ => ⟨S2, .f32⟩
  | .hbm, ⟨48, _⟩ => ⟨S2, .f32⟩
  | .hbm, ⟨49, _⟩ => ⟨S2, .f32⟩
  | .hbm, ⟨50, _⟩ => ⟨S2, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S2, .f32⟩
  | .hbm, ⟨59, _⟩ => ⟨S2, .f32⟩
  | .hbm, ⟨60, _⟩ => ⟨S_, .f32⟩
  | .hbm, ⟨61, _⟩ => ⟨S2, .f32⟩
  | .hbm, ⟨62, _⟩ => ⟨S2, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_cst_8 : Ref sig .tc := ⟨.hbm, 63, rfl⟩
abbrev main_v34 : Ref sig .tc := ⟨.hbm, 64, rfl⟩
abbrev main_cst_9 : Ref sig .tc := ⟨.hbm, 65, rfl⟩
abbrev main_v35 : Ref sig .tc := ⟨.hbm, 66, rfl⟩
abbrev main_cst_10 : Ref sig .tc := ⟨.hbm, 67, rfl⟩
abbrev main_v36 : Ref sig .tc := ⟨.hbm, 68, rfl⟩
abbrev main_cst_11 : Ref sig .tc := ⟨.hbm, 69, rfl⟩
abbrev main_v37 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 99], ![false, false]⟩

def k0_cond2 (i : grid0.Coords) : BitVec 1 :=
  let arg1 : BitVec 32 := BitVec.ofNat 32 (i 1).val
  let c98_i32 : BitVec 32 := 98#32
  let v52 : BitVec 1 := Scalar.cmpi .eq arg1 c98_i32
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x1024x2048_S4096x2048 : S4x1024x2048.ShapeCasts S4096x2048
  shapeCasts_S4x1024_S4096x1 : S4x1024.ShapeCasts S4096x1
  pads_S50257x2048_S50688x2048_04310_000 : S50257x2048.Pads (![0, 0] : Fin 2 → Nat) ![431, 0] ![0, 0] S50688x2048
  h_S_ : 0 < S_.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  shapeCasts_S4096x1_S4096 : S4096x1.ShapeCasts S4096
  shapeCasts_S4096_S4x1024 : S4096.ShapeCasts S4x1024
  bcast_S_S4x1024 : S_.BroadcastsInDim S4x1024 (![] : Fin 0 → Fin S4x1024.rank)
  reducesTo_S4x1024_S4_d1 : S4x1024.ReducesTo [1] S4
  bcast_S_S4 : S_.BroadcastsInDim S4 (![] : Fin 0 → Fin S4.rank)
  slices_S4_S2_0 : S4.Slices ![0] S2
  slices_S4_S2_2 : S4.Slices ![2] S2
  bcast_S_S2 : S_.BroadcastsInDim S2 (![] : Fin 0 → Fin S2.rank)
  reducesTo_S2_S_d0 : S2.ReducesTo [0] S_
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S50688x2048.size a
  hwx0_1 : ∀ i : grid0.Coords, EltTy.bits .f32 = 32 ∨ (Rect.block (s := S50688x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x1024x2048 : Shape := ⟨3, ![4, 1024, 2048]⟩
abbrev S50257x2048 : Shape := ⟨2, ![50257, 2048]⟩
abbrev S4x1024 : Shape := ⟨2, ![4, 1024]⟩
abbrev S4x1024x50257 : Shape := ⟨3, ![4, 1024, 50257]⟩
abbrev S_ : Shape := ⟨0, ![]⟩
abbrev S4x1024x1 : Shape := ⟨3, ![4, 1024, 1]⟩
abbrev S4x1024x1x1 : Shape := ⟨4, ![4, 1024, 1, 1]⟩
abbrev S1 : Shape := ⟨1, ![1]⟩
abbrev S1x1x1x1 : Shape := ⟨4, ![1, 1, 1, 1]⟩
abbrev S4 : Shape := ⟨1, ![4]⟩
abbrev S2 : Shape := ⟨1, ![2]⟩

abbrev nBuf : Space → Nat
  | .hbm => 103
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S50257x2048, .f32⟩
  | .hbm, ⟨2, _⟩ => ⟨S4x1024, .i32⟩
  | .hbm, ⟨3, _⟩ => ⟨S4x1024x50257, .f32⟩
  | .hbm, ⟨4, _⟩ => ⟨S_, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S4x1024x1, .f32⟩
  | .hbm, ⟨10, _⟩ => ⟨S4x1024x50257, .f32⟩
  | .hbm, ⟨11, _⟩ => ⟨S4x1024x50257, .f32⟩
  | .hbm, ⟨12, _⟩ => ⟨S4x1024x50257, .f32⟩
  | .hbm, ⟨13, _⟩ => ⟨S_, .f32⟩
  | .hbm, ⟨14, _⟩ => ⟨S4x1024, .f32⟩
  | .hbm, ⟨15, _⟩ => ⟨S4x1024x1, .f32⟩
  | .hbm, ⟨16, _⟩ => ⟨S4x1024x1, .f32⟩
  | .hbm, ⟨17, _⟩ => ⟨S4x1024x50257, .f32⟩
  | .hbm, ⟨18, _⟩ => ⟨S4x1024x50257, .f32⟩
  | .hbm, ⟨19, _⟩ => ⟨S4x1024x1, .i32⟩
  | .hbm, ⟨20, _⟩ => ⟨S_, .i32⟩
  | .hbm, ⟨21, _⟩ => ⟨S4x1024x1, .i32⟩
  | .hbm, ⟨22, _⟩ => ⟨S4x1024x1, .i1⟩
  | .hbm, ⟨23, _⟩ => ⟨S_, .i32⟩
  | .hbm, ⟨24, _⟩ => ⟨S4x1024x1, .i32⟩
  | .hbm, ⟨25, _⟩ => ⟨S4x1024x1, .i32⟩
  | .hbm, ⟨26, _⟩ => ⟨S4x1024x1, .i32⟩
  | .hbm, ⟨27, _⟩ => ⟨S4x1024x1x1, .i32⟩
  | .hbm, ⟨28, _⟩ => ⟨S1, .i32⟩
  | .hbm, ⟨29, _⟩ => ⟨S_, .i32⟩
  | .hbm, ⟨30, _⟩ => ⟨S4x1024x1x1, .i32⟩
  | .hbm, ⟨31, _⟩ => ⟨S4x1024x1x1, .i1⟩
  | .hbm, ⟨32, _⟩ => ⟨S1x1x1x1, .i32⟩
  | .hbm, ⟨33, _⟩ => ⟨S4x1024x1x1, .i32⟩
  | .hbm, ⟨34, _⟩ => ⟨S4x1024x1x1, .i1⟩
  | .hbm, ⟨35, _⟩ => ⟨S4x1024x1x1, .i1⟩
  | .hbm, ⟨36, _⟩ => ⟨S_, .i1⟩
  | .hbm, ⟨37, _⟩ => ⟨S4x1024x1, .i1⟩
  | .hbm, ⟨38, _⟩ => ⟨S4x1024x1, .f32⟩
  | .hbm, ⟨39, _⟩ => ⟨S_, .f32⟩
  | .hbm, ⟨40, _⟩ => ⟨S4x1024x1, .f32⟩
  | .hbm, ⟨41, _⟩ => ⟨S4x1024x1, .f32⟩
  | .hbm, ⟨42, _⟩ => ⟨S4x1024, .f32⟩
  | .hbm, ⟨43, _⟩ => ⟨S_, .i32⟩
  | .hbm, ⟨44, _⟩ => ⟨S4x1024, .i32⟩
  | .hbm, ⟨45, _⟩ => ⟨S4x1024, .i1⟩
  | .hbm, ⟨46, _⟩ => ⟨S4x1024, .f32⟩
  | .hbm, ⟨47, _⟩ => ⟨S4x1024, .f32⟩
  | .hbm, ⟨48, _⟩ => ⟨S_, .f32⟩
  | .hbm, ⟨49, _⟩ => ⟨S4, .f32⟩
  | .hbm, ⟨50, _⟩ => ⟨S_, .f32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S2, .f32⟩
  | .hbm, ⟨57, _⟩ => ⟨S2, .f32⟩
  | .hbm, ⟨58, _⟩ => ⟨S2, .f32⟩
  | .hbm, ⟨59, _⟩ => ⟨S2, .f32⟩
  | .hbm, ⟨60, _⟩ => ⟨S2, .f32⟩
  | .hbm, ⟨61, _⟩ => ⟨S2, .f32⟩
  | .hbm, ⟨62, _⟩ => ⟨S2, .f32⟩
  | .hbm, ⟨63, _⟩ => ⟨S2, .f32⟩
  | .hbm, ⟨64, _⟩ => ⟨S2, .f32⟩
  | .hbm, ⟨65, _⟩ => ⟨S2, .f32⟩
  | .hbm, ⟨66, _⟩ => ⟨S2, .f32⟩
  | .hbm, ⟨67, _⟩ => ⟨S2, .f32⟩
  | .hbm, ⟨68, _⟩ => ⟨S_, .f32⟩
  | .hbm, ⟨69, _⟩ => ⟨S2, .f32⟩
  | .hbm, ⟨70, _⟩ => ⟨S2, .f32⟩
  | .hbm, ⟨71, _⟩ => ⟨S2, .f32⟩
  | .hbm, ⟨72, _⟩ => ⟨S2, .f32⟩
  | .hbm, ⟨73, _⟩ => ⟨S2, .i1⟩
  | .hbm, ⟨74, _⟩ => ⟨S2, .f32⟩
  | .hbm, ⟨75, _⟩ => ⟨S2, .f32⟩
  | .hbm, ⟨76, _⟩ => ⟨S2, .f32⟩
  | .hbm, ⟨77, _⟩ => ⟨S2, .f32⟩
  | .hbm, ⟨78, _⟩ => ⟨S2, .f32⟩
  | .hbm, ⟨79, _⟩ => ⟨S2, .f32⟩
  | .hbm, ⟨80, _⟩ => ⟨S2, .f32⟩
  | .hbm, ⟨81, _⟩ => ⟨S2, .f32⟩
  | .hbm, ⟨82, _⟩ => ⟨S2, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S2, .f32⟩
  | .hbm, ⟨91, _⟩ => ⟨S2, .f32⟩
  | .hbm, ⟨92, _⟩ => ⟨S_, .f32⟩
  | .hbm, ⟨93, _⟩ => ⟨S2, .f32⟩
  | .hbm, ⟨94, _⟩ => ⟨S2, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v3 : Ref sig .tc := ⟨.hbm, 41, rfl⟩
abbrev main_v4 : Ref sig .tc := ⟨.hbm, 42, rfl⟩
abbrev main_c : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst : Ref sig .tc := ⟨.hbm, 48, rfl⟩
abbrev main_v9 : Ref sig .tc := ⟨.hbm, 49, rfl⟩
abbrev main_cst_0 : Ref sig .tc := ⟨.hbm, 50, rfl⟩
abbrev main_v10 : Ref sig .tc := ⟨.hbm, 51, rfl⟩
abbrev main_cst_1 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_call2_v0 : Ref sig .tc := ⟨.hbm, 67, rfl⟩
abbrev main_call2_call0_cst : Ref sig .tc := ⟨.hbm, 68, rfl⟩
abbrev main_call2_call0_v0 : Ref sig .tc := ⟨.hbm, 69, rfl⟩
abbrev main_call2_call0_v1 : Ref sig .tc := ⟨.hbm, 70, rfl⟩
abbrev main_call2_call0_v2 : Ref sig .tc := ⟨.hbm, 71, rfl⟩
abbrev main_call2_call0_v3 : Ref sig .tc := ⟨.hbm, 72, rfl⟩
abbrev main_call2_call0_v4 : Ref sig .tc := ⟨.hbm, 73, rfl⟩
abbrev main_call2_call0_v5 : Ref sig .tc := ⟨.hbm, 74, rfl⟩
abbrev main_call2_call0_v6 : Ref sig .tc := ⟨.hbm, 75, rfl⟩
abbrev main_call2_call0_v7 : Ref sig .tc := ⟨.hbm, 76, rfl⟩
abbrev main_call2_call0_v8 : Ref sig .tc := ⟨.hbm, 77, rfl⟩
abbrev main_call2_call0_v9 : Ref sig .tc := ⟨.hbm, 78, rfl⟩
abbrev main_call2_call0_v10 : Ref sig .tc := ⟨.hbm, 79, rfl⟩
abbrev main_call2_call0_v11 : Ref sig .tc := ⟨.hbm, 80, rfl⟩
abbrev main_call2_v1 : Ref sig .tc := ⟨.hbm, 81, rfl⟩
abbrev main_v25 : Ref sig .tc := ⟨.hbm, 82, rfl⟩
abbrev main_cst_2 : Ref sig .tc := ⟨.hbm, 83, rfl⟩
abbrev main_v26 : Ref sig .tc := ⟨.hbm, 84, rfl⟩
abbrev main_cst_3 : Ref sig .tc := ⟨.hbm, 85, rfl⟩
abbrev main_v27 : Ref sig .tc := ⟨.hbm, 86, rfl⟩
abbrev main_cst_4 : Ref sig .tc := ⟨.hbm, 87, rfl⟩
abbrev main_v28 : Ref sig .tc := ⟨.hbm, 88, rfl⟩
abbrev main_cst_5 : Ref sig .tc := ⟨.hbm, 89, rfl⟩
abbrev main_v29 : Ref sig .tc := ⟨.hbm, 90, rfl⟩
abbrev main_v30 : Ref sig .tc := ⟨.hbm, 91, rfl⟩
abbrev main_cst_6 : Ref sig .tc := ⟨.hbm, 92, rfl⟩
abbrev main_v31 : Ref sig .tc := ⟨.hbm, 93, rfl⟩
abbrev main_v32 : Ref sig .tc := ⟨.hbm, 94, rfl⟩
abbrev main_cst_7 : Ref sig .tc := ⟨.hbm, 95, rfl⟩
abbrev main_v33 : Ref sig .tc := ⟨.hbm, 96, rfl⟩
abbrev main_cst_8 : Ref sig .tc := ⟨.hbm, 97, rfl⟩
abbrev main_v34 : Ref sig .tc := ⟨.hbm, 98, rfl⟩
abbrev main_cst_9 : Ref sig .tc := ⟨.hbm, 99, rfl⟩
abbrev main_v35 : Ref sig .tc := ⟨.hbm, 100, rfl⟩
abbrev main_cst_10 : Ref sig .tc := ⟨.hbm, 101, rfl⟩
abbrev main_v36 : Ref sig .tc := ⟨.hbm, 102, rfl⟩

abbrev nD : Nat := 1
abbrev τ : Topo := Topo.v7x

variable {F : FTy → Type} [FloatOps F]

class Facts₀ : Prop where
  reducesTo_S4x1024x50257_S4x1024_d2 : S4x1024x50257.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x50257_0_1_2 : S4x1024x1.BroadcastsInDim S4x1024x50257 (![0, 1, 2] : Fin 3 → Fin S4x1024x50257.rank)
  bcast_S_S4x1024x1 : S_.BroadcastsInDim S4x1024x1 (![] : Fin 0 → Fin S4x1024x1.rank)
  shapeCasts_S4x1024x1_S4x1024x1x1 : S4x1024x1.ShapeCasts S4x1024x1x1
  bcast_S_S4x1024x1x1 : S_.BroadcastsInDim S4x1024x1x1 (![] : Fin 0 → Fin S4x1024x1x1.rank)
  bcast_S1_S1x1x1x1_3 : S1.BroadcastsInDim S1x1x1x1 (![3] : Fin 1 → Fin S1x1x1x1.rank)
  bcast_S1x1x1x1_S4x1024x1x1_0_1_2_3 : S1x1x1x1.BroadcastsInDim S4x1024x1x1 (![0, 1, 2, 3] : Fin 4 → Fin S4x1024x1x1.rank)
  reducesTo_S4x1024x1x1_S4x1024x1_d3 : S4x1024x1x1.ReducesTo [3] S4x1024x1
  shapeCasts_S4x1024x1_S4x1024 : S4x1024x1.ShapeCasts S4x1024
  reducesTo_S4x1024_S4_d1 : S4x1024.ReducesTo [1] S4
  bcast_S_S4 : S_.BroadcastsInDim S4 (![] : Fin 0 → Fin S4.rank)
  slices_S4_S2_0 : S4.Slices ![0] S2
  slices_S4_S2_2 : S4.Slices ![2] S2
  bcast_S_S2 : S_.BroadcastsInDim S2 (![] : Fin 0 → Fin S2.rank)
  reducesTo_S2_S_d0 : S2.ReducesTo [0] S_
  dot_S4x1024x2048_S50257x2048_S4x1024x50257_2_1_01_0_n_n_wf : DotDims.WF S4x1024x2048 S50257x2048 S4x1024x50257 [2] [1] [0, 1] [0] [] []
  gather_S4x1024x50257_S4x1024x1x1_S4x1024x1_n_2_01_01_2_3_111_wf : GatherDims.WF S4x1024x50257 S4x1024x1x1 S4x1024x1 [] [2] [0, 1] [2] [0, 1] 3 ![1, 1, 1]

variable [Facts₀]

def dot_S4x1024x2048_S50257x2048_S4x1024x50257_2_1_01_0_n_n : DotDims S4x1024x2048 S50257x2048 S4x1024x50257 where
  lhsContracting := [2]
  rhsContracting := [1]
  lhsNonContracting := [0, 1]
  rhsNonContracting := [0]
  lhsBatch := []
  rhsBatch := []
  wf := dot_S4x1024x2048_S50257x2048_S4x1024x50257_2_1_01_0_n_n_wf
def gather_S4x1024x50257_S4x1024x1x1_S4x1024x1_n_2_01_01_2_3_111 : GatherDims S4x1024x50257 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x50257_S4x1024x1x1_S4x1024x1_n_2_01_01_2_3_111_wf

class Facts : Prop extends Facts₀ where

variable [Facts]
-- ==== Proof.PreFacts.lean ====
/-
  What the precondition says, entry by entry: every token feature and every vocabulary weight is a real number
  (neither infinity), and every target is a column number of the vocabulary, `0 ≤ target < 50257` as a signed word —
  so its unsigned value is below 50257 too.
-/
import proofs.«418200_j4621384810879_1_alg».proof.Defs
import proofs.«418200_j4621384810879_1_alg».proof.Proof.Gen.Pre_finite_inputs
import proofs.«418200_j4621384810879_1_alg».proof.Proof.Gen.KernelIdeal
import Idealize.ShloMosaic.Lib.ReduceAll
import Idealize.ShloMosaic.Lib.StableHlo.Predicate

noncomputable section

namespace Cert.PreFacts

open Idealize.ShloMosaic Idealize.SL.Sem

/-- A shape of rank zero has exactly one index. -/
private instance : Subsingleton Cert.Pre_finite_inputs.S_.Idx := ⟨fun a b => funext fun d => d.elim0⟩

/-- The pattern `0x7F800000` (sign 0, exponent all ones, fraction 0) denotes `+∞`. -/
private theorem inf_eq_top : (FloatOps.ofBits (F := Ideal) .f32 0x7F800000#32 : Ideal .f32) = (⊤ : EReal) := by
  show Ideal.ofBits .f32 0x7F800000#32 = ⊤
  simp [Ideal.ofBits, Ideal.ieee]

/-- `|a| < +∞` on the extended reals leaves only the reals: `|⊥| = |⊤| = ⊤`, and `⊤ < ⊤` is false. -/
private theorem real_of_abs_lt_inf (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [inf_eq_top] at h
  change Ideal.cmp .olt (max a (-a)) ⊤ = 1#1 at h
  induction a using EReal.rec with
  | bot => exact absurd h (by simp [Ideal.cmp])
  | coe r => exact ⟨r, rfl⟩
  | top => exact absurd h (by simp [Ideal.cmp])

/-- A 32-bit word that is, read signed, at least 0 and below 50257 has its sign bit clear, so its unsigned value is
    its signed value, below 50257. -/
private theorem nat_of_range (a : BitVec 32) (h0 : IntOp.cmpi .sge a 0#32 = 1#1) (h1 : IntOp.cmpi .slt a 50257#32 = 1#1) :
    a.toNat < 50257 := by
  simp only [IntOp.cmpi, StableHlo.Predicate.ofBool_eq_one_iff, BitVec.sle, BitVec.slt, decide_eq_true_eq] at h0 h1
  have e0 : (0#32 : BitVec 32).toInt = 0 := by decide
  have e1 : (50257#32 : BitVec 32).toInt = 50257 := by decide
  rw [e0] at h0
  rw [e1] at h1
  have ha := BitVec.toInt_eq_toNat_cond a
  have := a.isLt
  by_cases hc : 2 * a.toNat < 2 ^ 32
  · rw [if_pos hc] at ha; omega
  · rw [if_neg hc] at ha; omega

/-- The printed precondition, all ones, entry by entry. -/
theorem of_fn (x : FVec Ideal Cert.Pre_finite_inputs.S4x1024x2048 .f32) (w : FVec Ideal Cert.Pre_finite_inputs.S50257x2048 .f32)
    (t : IVec Cert.Pre_finite_inputs.S4x1024 32)
    (h : Cert.Pre_finite_inputs.fn (F := Ideal) x w t = (fun _ => 1#1)) :
    (∀ i, ∃ a : ℝ, x i = (a : EReal)) ∧ (∀ i, ∃ a : ℝ, w i = (a : EReal)) ∧ (∀ i, (t i).toNat < 50257) := by
  -- the predicate's one entry is the conjunction of four reductions by `and`, each over every axis of its mask
  have h0 := congrFun h (fun a => a.elim0)
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  -- a reduction by `and` over every axis that is 1 had a 1 at every entry of its mask
  refine ⟨fun i => ?_, fun i => ?_, fun i => ?_⟩
  · exact real_of_abs_lt_inf (x i) (Host.reduce_andi_all _ _ _ _ _ h1 i)
  · exact real_of_abs_lt_inf (w i) (Host.reduce_andi_all _ _ _ _ _ h2 i)
  · exact nat_of_range (t i) (Host.reduce_andi_all _ _ _ _ _ h3 i) (Host.reduce_andi_all _ _ _ _ _ h4 i)

end Cert.PreFacts

end
-- ==== Proof.KernelPieces.lean ====
/-
  What each control case of the streaming-softmax body leaves in the three carried scratch vectors (running maximum,
  running sum, target logit) and, at the last vocabulary tile, in the output block — each identified with the body's
  pure payload of the values it loads. Every store of the body covers its whole [1024,1] buffer through the
  zero-offset rectangle, so the contents left are the LAST store's payload; every load reads either the block the
  point was handed or what an earlier covering store of the same body left.

    case A (first tile): the scratch vectors are reset (-∞, 0, 0), read back, then updated;
    case B (a middle tile): updated from what the point before left (xs0, xs1, xs2);
    case C (the last tile): as B, and the output is computed from the three updated vectors read back.
-/
import proofs.«418200_j4621384810879_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

/-- The offsets of every rectangle the body loads or stores through are zero. -/
theorem hz : (![0, 0] : Fin 2 → Nat) = fun _ => 0 := funext fun a => by fin_cases a <;> rfl

/-- First tile, running maximum: the reset value `k0_pay4` is stored and read back, so the update is the tile's row maximum joined with the reset value. -/
theorem sA0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x2048 .f32) (x1 : Vec F S512x2048 .f32) (x2 : Vec F S1024x1 .i32) :
    sout0_A_0 c i arg2 harg2 arg3 harg3 arg4 harg4 arg5 harg5 arg6 harg6 arg7 harg7 arg8 harg8 hc0 hc1 x0 x1 x2 = k0_pay1 (k0_pay9 i x0 x1 k0_pay4) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg6.read_unread, harg7.read_unread, harg8.read_unread,
    View.ld_unit_zero (S := S1024x2048) hz, View.ld_unit_zero (S := S512x2048) hz, View.ld_unit_zero (S := S1024x1) hz,
    View.readCov_unit_zero (S := S1024x1) _ hz]

/-- First tile, running sum: the rescaled reset sum `k0_pay5` (against the reset maximum `k0_pay4`) plus the tile's row sum of exponentials. -/
theorem sA1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x2048 .f32) (x1 : Vec F S512x2048 .f32) (x2 : Vec F S1024x1 .i32) :
    sout0_A_1 c i arg2 harg2 arg3 harg3 arg4 harg4 arg5 harg5 arg6 harg6 arg7 harg7 arg8 harg8 hc0 hc1 x0 x1 x2 = k0_pay10 i x0 x1 k0_pay4 k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg6.read_unread, harg7.read_unread, harg8.read_unread,
    View.ld_unit_zero (S := S1024x2048) hz, View.ld_unit_zero (S := S512x2048) hz, View.ld_unit_zero (S := S1024x1) hz,
    View.readCov_unit_zero (S := S1024x1) _ hz]

/-- First tile, target logit: the reset value `k0_pay6` plus the tile's contribution at the target column. -/
theorem sA2 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x2048 .f32) (x1 : Vec F S512x2048 .f32) (x2 : Vec F S1024x1 .i32) :
    sout0_A_2 c i arg2 harg2 arg3 harg3 arg4 harg4 arg5 harg5 arg6 harg6 arg7 harg7 arg8 harg8 hc0 hc1 x0 x1 x2 = k0_pay2 (k0_pay7 i) (k0_pay8 i x0 x1) x2 k0_pay6 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg6.read_unread, harg7.read_unread, harg8.read_unread,
    View.ld_unit_zero (S := S1024x2048) hz, View.ld_unit_zero (S := S512x2048) hz, View.ld_unit_zero (S := S1024x1) hz,
    View.readCov_unit_zero (S := S1024x1) _ hz]

/-- Middle tile, running maximum: the carried maximum `xs0` joined with the tile's row maximum. -/
theorem sB0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x2048 .f32) (x1 : Vec F S512x2048 .f32) (x2 : Vec F S1024x1 .i32) (xs0 : Vec F S1024x1 .f32) (xs1 : Vec F S1024x1 .f32) (xs2 : Vec F S1024x1 .f32) :
    sout0_B_0 c i arg2 harg2 arg3 harg3 arg4 harg4 arg5 harg5 arg6 harg6 arg7 harg7 arg8 harg8 hc0 hc1 x0 x1 x2 xs0 xs1 xs2 = k0_pay1 (k0_pay9 i x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S1024x1) hz]
  simp only [View.readAt_eq_ld, harg2.read_unread, harg3.read_unread, harg4.read_unread, harg6.read_unread, harg7.read_unread, harg8.read_unread,
    View.ld_unit_zero (S := S1024x2048) hz, View.ld_unit_zero (S := S512x2048) hz, View.ld_unit_zero (S := S1024x1) hz]

/-- Middle tile, running sum: the carried sum `xs1` rescaled from the carried maximum `xs0` to the new one, plus the tile's row sum of exponentials. -/
theorem sB1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x2048 .f32) (x1 : Vec F S512x2048 .f32) (x2 : Vec F S1024x1 .i32) (xs0 : Vec F S1024x1 .f32) (xs1 : Vec F S1024x1 .f32) (xs2 : Vec F S1024x1 .f32) :
    sout0_B_1 c i arg2 harg2 arg3 harg3 arg4 harg4 arg5 harg5 arg6 harg6 arg7 harg7 arg8 harg8 hc0 hc1 x0 x1 x2 xs0 xs1 xs2 = k0_pay10 i x0 x1 xs0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S1024x1) hz]
  simp only [View.readAt_eq_ld, harg2.read_unread, harg3.read_unread, harg4.read_unread, harg6.read_unread, harg7.read_unread, harg8.read_unread,
    View.ld_unit_zero (S := S1024x2048) hz, View.ld_unit_zero (S := S512x2048) hz, View.ld_unit_zero (S := S1024x1) hz]

/-- Middle tile, target logit: the carried value `xs2` plus the tile's contribution at the target column. -/
theorem sB2 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x2048 .f32) (x1 : Vec F S512x2048 .f32) (x2 : Vec F S1024x1 .i32) (xs0 : Vec F S1024x1 .f32) (xs1 : Vec F S1024x1 .f32) (xs2 : Vec F S1024x1 .f32) :
    sout0_B_2 c i arg2 harg2 arg3 harg3 arg4 harg4 arg5 harg5 arg6 harg6 arg7 harg7 arg8 harg8 hc0 hc1 x0 x1 x2 xs0 xs1 xs2 = k0_pay2 (k0_pay7 i) (k0_pay8 i x0 x1) x2 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S1024x1) hz]
  simp only [View.readAt_eq_ld, harg2.read_unread, harg3.read_unread, harg4.read_unread, harg6.read_unread, harg7.read_unread, harg8.read_unread,
    View.ld_unit_zero (S := S1024x2048) hz, View.ld_unit_zero (S := S512x2048) hz, View.ld_unit_zero (S := S1024x1) hz]

/-- Last tile, running maximum: as at a middle tile. -/
theorem sC0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x2048 .f32) (x1 : Vec F S512x2048 .f32) (x2 : Vec F S1024x1 .i32) (xs0 : Vec F S1024x1 .f32) (xs1 : Vec F S1024x1 .f32) (xs2 : Vec F S1024x1 .f32) :
    sout0_C_0 c i arg2 harg2 arg3 harg3 arg4 harg4 arg5 harg5 arg6 harg6 arg7 harg7 arg8 harg8 hc0 hc1 x0 x1 x2 xs0 xs1 xs2 = k0_pay1 (k0_pay9 i x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1024x1) hz]
  simp only [View.readAt_eq_ld, harg2.read_unread, harg3.read_unread, harg4.read_unread, harg6.read_unread, harg7.read_unread, harg8.read_unread,
    View.ld_unit_zero (S := S1024x2048) hz, View.ld_unit_zero (S := S512x2048) hz, View.ld_unit_zero (S := S1024x1) hz]

/-- Last tile, running sum: as at a middle tile. -/
theorem sC1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x2048 .f32) (x1 : Vec F S512x2048 .f32) (x2 : Vec F S1024x1 .i32) (xs0 : Vec F S1024x1 .f32) (xs1 : Vec F S1024x1 .f32) (xs2 : Vec F S1024x1 .f32) :
    sout0_C_1 c i arg2 harg2 arg3 harg3 arg4 harg4 arg5 harg5 arg6 harg6 arg7 harg7 arg8 harg8 hc0 hc1 x0 x1 x2 xs0 xs1 xs2 = k0_pay10 i x0 x1 xs0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1024x1) hz]
  simp only [View.readAt_eq_ld, harg2.read_unread, harg3.read_unread, harg4.read_unread, harg6.read_unread, harg7.read_unread, harg8.read_unread,
    View.ld_unit_zero (S := S1024x2048) hz, View.ld_unit_zero (S := S512x2048) hz, View.ld_unit_zero (S := S1024x1) hz]

/-- Last tile, target logit: as at a middle tile. -/
theorem sC2 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x2048 .f32) (x1 : Vec F S512x2048 .f32) (x2 : Vec F S1024x1 .i32) (xs0 : Vec F S1024x1 .f32) (xs1 : Vec F S1024x1 .f32) (xs2 : Vec F S1024x1 .f32) :
    sout0_C_2 c i arg2 harg2 arg3 harg3 arg4 harg4 arg5 harg5 arg6 harg6 arg7 harg7 arg8 harg8 hc0 hc1 x0 x1 x2 xs0 xs1 xs2 = k0_pay2 (k0_pay7 i) (k0_pay8 i x0 x1) x2 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1024x1) hz]
  simp only [View.readAt_eq_ld, harg2.read_unread, harg3.read_unread, harg4.read_unread, harg6.read_unread, harg7.read_unread, harg8.read_unread,
    View.ld_unit_zero (S := S1024x2048) hz, View.ld_unit_zero (S := S512x2048) hz, View.ld_unit_zero (S := S1024x1) hz]

/-- Last tile, output: the three scratch vectors just updated are read back and combined, target logit minus (maximum plus logarithm of the sum). -/
theorem oC3 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x2048 .f32) (x1 : Vec F S512x2048 .f32) (x2 : Vec F S1024x1 .i32) (xs0 : Vec F S1024x1 .f32) (xs1 : Vec F S1024x1 .f32) (xs2 : Vec F S1024x1 .f32) :
    out0_C_3 c i arg2 harg2 arg3 harg3 arg4 harg4 arg5 harg5 arg6 harg6 arg7 harg7 arg8 harg8 hc0 hc1 x0 x1 x2 xs0 xs1 xs2 = k0_pay3 (k0_pay1 (k0_pay9 i x0 x1 xs0)) (k0_pay10 i x0 x1 xs0 xs0 xs1) (k0_pay2 (k0_pay7 i) (k0_pay8 i x0 x1) x2 xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1024x1) hz]
  simp only [View.readAt_eq_ld, harg2.read_unread, harg3.read_unread, harg4.read_unread, harg6.read_unread, harg7.read_unread, harg8.read_unread,
    View.ld_unit_zero (S := S1024x2048) hz, View.ld_unit_zero (S := S512x2048) hz, View.ld_unit_zero (S := S1024x1) hz,
    View.readCov_unit_zero (S := S1024x1) _ hz]

end Cert.KernelIdeal.Pieces

end
-- ==== Proof.Spec.lean ====
/-
  The mathematics of this certificate, with no program in sight.

  A row of logits is read as a function `g : ℕ → EReal` of the vocabulary column: the inner product of a token's
  hidden vector with a vocabulary row for a column below 50257, and `⊥` (minus infinity) from there on — which is
  how the kernel's vocabulary padding reads once its mask fill denotes `-∞`.

  * `logProb g tg` is the log-softmax of the row at column `tg`, as the reference spells it:
    `(g tg - max g) - log (∑ exp (g j - max g))` over the 50257 true columns.
  * `scan g tg v` is the running triple (maximum, rescaled sum of exponentials, target logit) after vocabulary
    tiles `0 … v` of 512 columns each, as a streaming ("online") softmax keeps it; `flashOut g tg` is what it
    gives after the last of the 99 tiles: `t - (m + log l)`.
-/
import Idealize.ShloMosaic.PureOps.Ideal
import Idealize.ShloMosaic.Lib.ValueIdx

noncomputable section

namespace Cert.FlashLogprob

open Idealize.ShloMosaic Idealize.ShloMosaic.ValueIdx

/-- The logit of token `(b, r)` against vocabulary row `j`: the inner product over the 2048 hidden features. -/
def logit (x : (⟨3, ![4, 1024, 2048]⟩ : Shape).Idx → EReal) (w : (⟨2, ![50257, 2048]⟩ : Shape).Idx → EReal)
    (b : Fin 4) (r : Fin 1024) (j : Fin 50257) : EReal :=
  ∑ h : Fin 2048, x (ix3 b r h) * w (ix2 j h)

/-- Token `(b, r)`'s row of logits as a function of the column number: `⊥` past the vocabulary's end. -/
def col (x : (⟨3, ![4, 1024, 2048]⟩ : Shape).Idx → EReal) (w : (⟨2, ![50257, 2048]⟩ : Shape).Idx → EReal)
    (b : Fin 4) (r : Fin 1024) (n : ℕ) : EReal :=
  if h : n < 50257 then logit x w b r ⟨n, h⟩ else ⊥

/-- The row's maximum over the true columns, folded from `⊥`. -/
def rowMax (g : ℕ → EReal) : EReal := (Finset.univ : Finset (Fin 50257)).fold max ⊥ (fun j => g j.val)

/-- The row's sum of exponentials, shifted by its maximum. -/
def rowSum (g : ℕ → EReal) : EReal := ∑ j : Fin 50257, Ideal.exp (g j.val - rowMax g)

/-- The log-softmax of the row at column `tg`. -/
def logProb (g : ℕ → EReal) (tg : ℕ) : EReal := (g tg - rowMax g) - Ideal.log (rowSum g)

/-- The per-token log-probability of the target. -/
def perTok (x : (⟨3, ![4, 1024, 2048]⟩ : Shape).Idx → EReal) (w : (⟨2, ![50257, 2048]⟩ : Shape).Idx → EReal)
    (tgt : (⟨2, ![4, 1024]⟩ : Shape).Idx → BitVec 32) (b : Fin 4) (r : Fin 1024) : EReal :=
  logProb (col x w b r) (tgt (ix2 b r)).toNat

/-- The same as an array over `[4, 1024]`. -/
def perTokArr (x : (⟨3, ![4, 1024, 2048]⟩ : Shape).Idx → EReal) (w : (⟨2, ![50257, 2048]⟩ : Shape).Idx → EReal)
    (tgt : (⟨2, ![4, 1024]⟩ : Shape).Idx → BitVec 32) : (⟨2, ![4, 1024]⟩ : Shape).Idx → EReal :=
  fun i => perTok x w tgt ⟨(i 0).val, idx2_lt0 i⟩ ⟨(i 1).val, idx2_lt1 i⟩

theorem perTokArr_ix2 (x : (⟨3, ![4, 1024, 2048]⟩ : Shape).Idx → EReal) (w : (⟨2, ![50257, 2048]⟩ : Shape).Idx → EReal)
    (tgt : (⟨2, ![4, 1024]⟩ : Shape).Idx → BitVec 32) (b : Fin 4) (r : Fin 1024) :
    perTokArr x w tgt (ix2 b r) = perTok x w tgt b r := rfl

/-! ## The streaming form, one vocabulary tile of 512 columns at a time -/

/-- The maximum of tile `v`'s 512 columns, folded from `⊥`. -/
def tileMax (g : ℕ → EReal) (v : ℕ) : EReal := (Finset.univ : Finset (Fin 512)).fold max ⊥ (fun q => g (512 * v + q.val))

/-- The running maximum after tile `v`, from the one before it. -/
def stepM (g : ℕ → EReal) (v : ℕ) (mo : EReal) : EReal := max mo (tileMax g v)

/-- The running sum of exponentials after tile `v`: the old sum rescaled to the new maximum, plus the tile's. -/
def stepL (g : ℕ → EReal) (v : ℕ) (mo lo : EReal) : EReal :=
  Ideal.exp (mo - stepM g v mo) * lo + ∑ q : Fin 512, Ideal.exp (g (512 * v + q.val) - stepM g v mo)

/-- The target's logit picked up so far: tile `v` adds the column that is the target, if it holds it. -/
def stepT (g : ℕ → EReal) (tg : ℕ) (v : ℕ) (tOld : EReal) : EReal :=
  tOld + ∑ q : Fin 512, (if 512 * v + q.val = tg then g (512 * v + q.val) else 0)

/-- The triple (maximum, sum, target logit) after tiles `0 … v`, started from `(⊥, 0, 0)`. -/
def scan (g : ℕ → EReal) (tg : ℕ) : ℕ → EReal × EReal × EReal
  | 0 => (stepM g 0 ⊥, stepL g 0 ⊥ 0, stepT g tg 0 0)
  | v + 1 => (stepM g (v + 1) (scan g tg v).1, stepL g (v + 1) (scan g tg v).1 (scan g tg v).2.1,
      stepT g tg (v + 1) (scan g tg v).2.2)

/-- What the streaming form returns after the last of the 99 tiles. -/
def flashOut (g : ℕ → EReal) (tg : ℕ) : EReal :=
  (scan g tg 98).2.2 - ((scan g tg 98).1 + Ideal.log (scan g tg 98).2.1)

end Cert.FlashLogprob

end
-- ==== Proof.TileStep.lean ====
/-
  One vocabulary tile of the kernel's body, read at a row, at the extended reals.

  The body's stored values are pure functions of its loads: the tile's masked scores (the 1024 × 512 block of inner
  products, `⊥` on the padded columns), the new running maximum, the new running sum of exponentials, the new target
  logit, and at the last tile the result `t - (m + log l)`. Read at row `p` they are the streaming-softmax steps
  `stepM`, `stepL`, `stepT` of the row's column function.
-/
import proofs.«418200_j4621384810879_1_alg».proof.Proof.Gen.KernelIdeal.Skeleton
import proofs.«418200_j4621384810879_1_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Tile

open Idealize.ShloMosaic Idealize.ShloMosaic.ValueIdx Cert.KernelIdeal Cert.KernelIdeal.Gen Cert.FlashLogprob

/-! ## The column forms `[a] → [a, 1]` and `[a, 1] → [a, b]` -/

section Layout
variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The score block's contraction -/

theorem lhs_tile_0 (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide),
    dif_pos (show (0 : Fin S1024x2048.rank) ∈ dot_S1024x2048_S512x2048_S1024x512_1_1_0_0_n_n.lhsNonContracting by decide)]
  rfl

theorem lhs_tile_1 (i : S1024x512.Idx) (q : dot_S1024x2048_S512x2048_S1024x512_1_1_0_0_n_n.contr.Idx) :
    (dot_S1024x2048_S512x2048_S1024x512_1_1_0_0_n_n.lhsIdx i q 1).val = (q ⟨0, by decide⟩).val :=
  dot_S1024x2048_S512x2048_S1024x512_1_1_0_0_n_n.lhsIdx_val_of_single rfl i q

theorem rhs_tile_0 (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide),
    dif_pos (show (0 : Fin S512x2048.rank) ∈ dot_S1024x2048_S512x2048_S1024x512_1_1_0_0_n_n.rhsNonContracting by decide)]
  rfl

theorem rhs_tile_1 (i : S1024x512.Idx) (q : dot_S1024x2048_S512x2048_S1024x512_1_1_0_0_n_n.contr.Idx) :
    (dot_S1024x2048_S512x2048_S1024x512_1_1_0_0_n_n.rhsIdx i q 1).val = (q ⟨0, by decide⟩).val :=
  dot_S1024x2048_S512x2048_S1024x512_1_1_0_0_n_n.rhsIdx_val_of_single rfl i q

/-- The product block at (row p, lane q): the inner product of row p of the left block with row q of the right one. -/
theorem matmul_tile_apply (a : FVec Ideal S1024x2048 .bf16) (b : FVec Ideal S512x2048 .bf16) (p : Fin 1024) (q : Fin 512) :
    matmul dot_S1024x2048_S512x2048_S1024x512_1_1_0_0_n_n none a b (constant (F := Ideal) S1024x512 .f32 0x00000000#32) (ix2 p q)
      = ∑ h : Fin 2048, a (ix2 p h) * b (ix2 q h) := by
  simp only [matmul]
  rw [Ideal.matmul_constant_zero_apply,
    ← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 p q)
      ((contrEquiv1 dot_S1024x2048_S512x2048_S1024x512_1_1_0_0_n_n 2048 rfl rfl).symm k) = ix2 p k :=
    funext fun a => Fin.ext (by
      match a with
      | ⟨0, _⟩ => exact lhs_tile_0 _ _
      | ⟨1, _⟩ => exact (lhs_tile_1 _ _).trans hk)
  have er : dot_S1024x2048_S512x2048_S1024x512_1_1_0_0_n_n.rhsIdx (ix2 p q)
      ((contrEquiv1 dot_S1024x2048_S512x2048_S1024x512_1_1_0_0_n_n 2048 rfl rfl).symm k) = ix2 q k :=
    funext fun a => Fin.ext (by
      match a with
      | ⟨0, _⟩ => exact rhs_tile_0 _ _
      | ⟨1, _⟩ => exact (rhs_tile_1 _ _).trans hk)
  rw [el, er]

/-! ## The column numbers of the tile -/

theorem colWord_apply (i : grid0.Coords) (p : Fin 1024) (q : Fin 512) :
    k0_pay7 i (ix2 p q) = BitVec.ofNat 32 (i 1).val * 512#32 + BitVec.ofNat 32 q.val := by
  unfold k0_pay7
  show IntOp.addi (IntOp.muli _ _) (iota .tc S1024x512 32 [1] _ (ix2 p q)) = _
  rw [iota_single_apply]
  rfl

theorem colWord_toNat (i : grid0.Coords) (p : Fin 1024) (q : Fin 512) :
    (k0_pay7 i (ix2 p q)).toNat = 512 * (i 1).val + q.val := by
  rw [colWord_apply]
  have h1 : (i 1).val < 99 := (i 1).isLt
  have h2 := q.isLt
  simp only [BitVec.toNat_add, BitVec.toNat_mul, BitVec.toNat_ofNat]
  omega

/-! ## Reading a one-bit choice and the reductions along the lanes -/

/-- A choice on a one-bit word whose being set is the proposition `P` is the choice on `P`. -/
theorem select_eq_ite {α : Type} (c : BitVec 1) (P : Prop) [Decidable P] (h : c = 1#1 ↔ P) (a b : α) :
    Scalar.select c a b = if P then a else b := by
  unfold Scalar.select
  by_cases hp : P
  · rw [if_pos hp]; exact if_pos (h.mpr hp)
  · rw [if_neg hp]; exact if_neg (fun hc => hp (h.mp hc))

theorem expv_apply {s : Shape} {φ : FTy} (a : FVec Ideal s φ) (j : s.Idx) : exp a j = Ideal.exp (a j) := rfl

/-- The reduced row index `p` with lane `k` put back is `(p, k)`. -/
theorem lift_row (h : S1024x512.Reduces [1] S1024) (p : Fin 1024) (k : Fin (S1024x512.size 1)) :
    h.lift (ix1 p) k = ix2 p (⟨k.val, k.isLt⟩ : Fin 512) := by
  funext c; apply Fin.ext
  match c with
  | ⟨0, _⟩ => rfl
  | ⟨1, _⟩ => rfl

/-- The lane maximum of a block at row `p`, folded from `⊥`. -/
theorem rowMax_apply (src : FVec Ideal S1024x512 .f32) (h : S1024x512.Reduces [1] S1024) (hφ : FKind.Formats FTy.f32)
    (hacc : (0xFF800000#32 : BitVec FTy.f32.bits) = FKind.maximumf.neutral .f32 hφ) (p : Fin 1024) :
    multiReduction (F := Ideal) .maximumf [1] S1024 src 0xFF800000#32 h hφ hacc (ix1 p)
      = (Finset.univ : Finset (Fin 512)).fold max (⊥ : EReal) (fun q => src (ix2 p q)) := by
  refine (Ideal.multiReduction_maximumf_single src _ h hφ hacc (ix1 p)).trans ?_
  have hb : (FloatOps.ofBits (F := Ideal) .f32 0xFF800000#32) = (⊥ : EReal) := by
    show Ideal.ofBits .f32 0xFF800000#32 = ⊥
    simp [Ideal.ofBits, Ideal.ieee]
  rw [hb]
  exact congrArg (fun f => Finset.fold max (⊥ : EReal) f (Finset.univ : Finset (Fin 512)))
    (funext fun k => congrArg src (lift_row h p k))

/-- The lane sum of a block at row `p`. -/
theorem rowSum_apply (src : FVec Ideal S1024x512 .f32) (h : S1024x512.Reduces [1] S1024) (hφ : FKind.Formats FTy.f32)
    (hacc : (0x00000000#32 : BitVec FTy.f32.bits) = FKind.add.neutral .f32 hφ) (p : Fin 1024) :
    multiReduction (F := Ideal) .add [1] S1024 src 0x00000000#32 h hφ hacc (ix1 p) = ∑ q : Fin 512, src (ix2 p q) := by
  refine (Ideal.multiReduction_add_single src _ h hφ hacc (ix1 p)).trans ?_
  exact Finset.sum_congr rfl fun k _ => congrArg src (lift_row h p k)

/-- The running maximum the tile computes at row `p`, over the tile's scores. -/
theorem pay9_apply (i : grid0.Coords) (x0 : Vec Ideal S1024x2048 .f32) (x1 : Vec Ideal S512x2048 .f32)
    (ms : Vec Ideal S1024x1 .f32) (p : Fin 1024) :
    k0_pay9 (F := Ideal) i x0 x1 ms (ix2 p (0 : Fin 1))
      = max (ms (ix2 p (0 : Fin 1)))
          ((Finset.univ : Finset (Fin 512)).fold max (⊥ : EReal) (fun q => k0_pay8 (F := Ideal) i x0 x1 (ix2 p q))) := by
  unfold k0_pay9
  simp only [maximumf_apply, shapeCast_a_a1_apply]
  exact congrArg (max _) (rowMax_apply _ _ _ _ p)

theorem cmpiv_apply {s : Shape} {w : Nat} (pr : CmpIPredicate) (a b : IVec s w) (j : s.Idx) :
    cmpi pr a b j = IntOp.cmpi pr (a j) (b j) := rfl

/-- The mask fill denotes minus infinity. -/
theorem negBig : Named.named (F := Ideal) κ "neg_big" (φ := .f32) 0xFF333332#32 = (⊥ : EReal) :=
  IdealRules.named_const.ideal_named_scalar _ _ _ _ rfl

/-- The tile's scores at (row p, lane q): the inner product of the row of the token block with row q of the
    vocabulary block when the column `512·v + q` is a true one, `⊥` on the padding. -/
theorem scores_apply (i : grid0.Coords) (x0 : Vec Ideal S1024x2048 .f32) (x1 : Vec Ideal S512x2048 .f32)
    (p : Fin 1024) (q : Fin 512) :
    k0_pay8 (F := Ideal) i x0 x1 (ix2 p q)
      = if 512 * (i 1).val + q.val < 50257 then ∑ h : Fin 2048, x0 (ix2 p h) * x1 (ix2 q h) else ⊥ := by
  have hlt : (k0_pay7 i (ix2 p q)).toNat < 2 ^ 31 := by
    rw [colWord_toNat]
    have h1 : (i 1).val < 99 := (i 1).isLt
    have h2 := q.isLt
    omega
  have hc : IntOp.cmpi .slt (k0_pay7 i (ix2 p q)) 50257#32 = 1#1 ↔ 512 * (i 1).val + q.val < 50257 := by
    rw [StableHlo.Predicate.slt_iff_toNat hlt (by decide), colWord_toNat]
    rfl
  unfold k0_pay8
  simp only [select_apply, cmpiv_apply, broadcast_apply, shapeCast_self]
  rw [select_eq_ite _ _ hc, matmul_tile_apply, negBig]
  rfl

/-- The new running maximum at row p. -/
theorem newMax_apply (i : grid0.Coords) (x0 : Vec Ideal S1024x2048 .f32) (x1 : Vec Ideal S512x2048 .f32)
    (ms : Vec Ideal S1024x1 .f32) (g : ℕ → EReal) (p : Fin 1024)
    (hg : ∀ q : Fin 512, k0_pay8 (F := Ideal) i x0 x1 (ix2 p q) = g (512 * (i 1).val + q.val)) :
    k0_pay1 (F := Ideal) (k0_pay9 (F := Ideal) i x0 x1 ms) (ix2 p (0 : Fin 1)) = stepM g (i 1).val (ms (ix2 p (0 : Fin 1))) := by
  unfold k0_pay1
  rw [shapeCast_self, pay9_apply,
    show (fun q : Fin 512 => k0_pay8 (F := Ideal) i x0 x1 (ix2 p q)) = fun q : Fin 512 => g (512 * (i 1).val + q.val) from funext hg]
  rfl

/-- The new running sum of exponentials at row p. -/
theorem newSum_apply (i : grid0.Coords) (x0 : Vec Ideal S1024x2048 .f32) (x1 : Vec Ideal S512x2048 .f32)
    (ms ls : Vec Ideal S1024x1 .f32) (g : ℕ → EReal) (p : Fin 1024)
    (hg : ∀ q : Fin 512, k0_pay8 (F := Ideal) i x0 x1 (ix2 p q) = g (512 * (i 1).val + q.val)) :
    k0_pay10 (F := Ideal) i x0 x1 ms ms ls (ix2 p (0 : Fin 1))
      = stepL g (i 1).val (ms (ix2 p (0 : Fin 1))) (ls (ix2 p (0 : Fin 1))) := by
  have hM : k0_pay9 (F := Ideal) i x0 x1 ms (ix2 p (0 : Fin 1)) = stepM g (i 1).val (ms (ix2 p (0 : Fin 1))) := by
    rw [pay9_apply,
      show (fun q : Fin 512 => k0_pay8 (F := Ideal) i x0 x1 (ix2 p q)) = fun q : Fin 512 => g (512 * (i 1).val + q.val) from funext hg]
    rfl
  unfold k0_pay10 stepL
  rw [shapeCast_self]
  simp only [addf_apply, mulf_apply, subf_apply, expv_apply, shapeCast_a_a1_apply]
  rw [hM]
  refine congrArg (_ + ·) ((rowSum_apply _ _ _ _ p).trans ?_)
  refine Finset.sum_congr rfl fun q _ => ?_
  simp only [expv_apply, subf_apply, broadcastTo_a1_ab_apply, hM, hg]

/-- The new target logit at row p: the tile adds the score of the lane whose column number is the row's target. -/
theorem newTgt_apply (i : grid0.Coords) (x0 : Vec Ideal S1024x2048 .f32) (x1 : Vec Ideal S512x2048 .f32)
    (x2 : Vec Ideal S1024x1 .i32) (ts : Vec Ideal S1024x1 .f32) (g : ℕ → EReal) (p : Fin 1024)
    (hg : ∀ q : Fin 512, k0_pay8 (F := Ideal) i x0 x1 (ix2 p q) = g (512 * (i 1).val + q.val))
    (tg : ℕ) (htg : (x2 (ix2 p (0 : Fin 1))).toNat = tg) :
    k0_pay2 (F := Ideal) (k0_pay7 i) (k0_pay8 (F := Ideal) i x0 x1) x2 ts (ix2 p (0 : Fin 1))
      = stepT g tg (i 1).val (ts (ix2 p (0 : Fin 1))) := by
  have hsel : ∀ q : Fin 512, Scalar.select (IntOp.cmpi .eq (k0_pay7 i (ix2 p q)) (x2 (ix2 p (0 : Fin 1))))
      (k0_pay8 (F := Ideal) i x0 x1 (ix2 p q)) (Ideal.ofBits .f32 0x00000000#32)
      = if 512 * (i 1).val + q.val = tg then g (512 * (i 1).val + q.val) else 0 := by
    intro q
    have hc : IntOp.cmpi .eq (k0_pay7 i (ix2 p q)) (x2 (ix2 p (0 : Fin 1))) = 1#1 ↔ 512 * (i 1).val + q.val = tg := by
      rw [StableHlo.Predicate.cmpi_eq_iff, ← BitVec.toNat_inj, colWord_toNat, htg]
    rw [select_eq_ite _ _ hc, hg q, Ideal.ofBits_zero_f32]
  unfold k0_pay2 stepT
  simp only [shapeCast_self, addf_apply, shapeCast_a_a1_apply]
  refine congrArg (_ + ·) ((rowSum_apply _ _ _ _ p).trans ?_)
  refine Finset.sum_congr rfl fun q _ => ?_
  simp only [select_apply, cmpiv_apply, broadcast_apply, broadcastTo_a1_ab_apply]
  exact hsel q

/-- The result stored at the last tile, at row p. -/
theorem out_apply (mv lv tv : Vec Ideal S1024x1 .f32) (p : Fin 1024) :
    k0_pay3 (F := Ideal) mv lv tv (ix2 p (0 : Fin 1))
      = tv (ix2 p (0 : Fin 1)) - (mv (ix2 p (0 : Fin 1)) + Ideal.log (lv (ix2 p (0 : Fin 1)))) := by
  rfl

/-- The start values the first tile stores: `⊥` for the maximum, `0` for the sum and the target logit. -/
theorem resetM_apply (p : Fin 1024) : k0_pay4 (F := Ideal) (ix2 p (0 : Fin 1)) = ⊥ := by
  unfold k0_pay4
  rw [shapeCast_self]
  show Ideal.ofBits .f32 0xFF800000#32 = ⊥
  simp [Ideal.ofBits, Ideal.ieee]

theorem resetL_apply (p : Fin 1024) : k0_pay5 (F := Ideal) (ix2 p (0 : Fin 1)) = 0 := by
  unfold k0_pay5
  rw [shapeCast_self]
  exact Ideal.ofBits_zero_f32

theorem resetT_apply (p : Fin 1024) : k0_pay6 (F := Ideal) (ix2 p (0 : Fin 1)) = 0 := by
  unfold k0_pay6
  rw [shapeCast_self]
  exact Ideal.ofBits_zero_f32

end Cert.KernelIdeal.Tile

end
-- ==== Proof.KernelHost.lean ====
/-
  What the region finds and what each grid point loads.

  Before the launch the program flattens the tokens `[4, 1024, 2048] → [4096, 2048]` (row `1024·b + r` is token
  `(b, r)`), flattens the targets `[4, 1024] → [4096, 1]`, and pads the vocabulary matrix `[50257, 2048] → [50688, 2048]`
  with 431 zero rows. Grid point `t` of the `4 × 99` grid is row tile `t / 99` and vocabulary tile `t % 99`: it loads
  token rows `1024·(t/99) …`, vocabulary rows `512·(t%99) …` and the row tile's targets.
-/
import proofs.«418200_j4621384810879_1_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.KernelIdeal.HostIn

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The three argument arrays, at their literal types. -/
abbrev xarg (c : Dev nD) : S4x1024x2048.Idx → EReal := m ((c.tc : Thread nD τ).loc main_arg0)
abbrev warg (c : Dev nD) : S50257x2048.Idx → EReal := m ((c.tc : Thread nD τ).loc main_arg1)
abbrev targ (c : Dev nD) : S4x1024.Idx → BitVec 32 := m ((c.tc : Thread nD τ).loc main_arg2)

/-- The three arrays the region stages, as it finds them, at their literal types. -/
abbrev xflat (c : Dev nD) : S4096x2048.Idx → EReal := V m c main_v0
abbrev wpad (c : Dev nD) : S50688x2048.Idx → EReal := V m c main_v2
abbrev tflat (c : Dev nD) : S4096x1.Idx → BitVec 32 := V m c main_v1

/-- The three input blocks of grid point `t`, at their literal types. -/
abbrev xblk (c : Dev nD) (t : Fin cfg0.N) : S1024x2048.Idx → EReal := iblk m c 0 t
abbrev wblk (c : Dev nD) (t : Fin cfg0.N) : S512x2048.Idx → EReal := iblk m c 1 t
abbrev tblk (c : Dev nD) (t : Fin cfg0.N) : S1024x1.Idx → BitVec 32 := iblk m c 2 t

/-- What the host wrote into the flattened token array: the argument recast. -/
private theorem xflat_eq (c : Dev nD) :
    (V m c main_v0 : S4096x2048.Idx → EReal)
      = shapeCast S4096x2048 (m ((c.tc : Thread nD τ).loc main_arg0) : S4x1024x2048.Idx → EReal) shapeCasts_S4x1024x2048_S4096x2048 := by
  dsimp only [Gen.V, Gen.V0]
  simp only [Gen.hostOps0, Gen.hostOps0_1, List.flatten_cons, List.flatten_nil, List.append_nil, List.cons_append, List.nil_append]
  after_results
  rfl

/-- The flattened tokens: row `1024·b + r` is token `(b, r)`. -/
theorem xflat_apply (c : Dev nD) (b : Fin 4) (r : Fin 1024) (h : Fin 2048) (n : Fin 4096) (hn : n.val = 1024 * b.val + r.val) :
    xflat m c (ix2 n h) = xarg m c (ix3 b r h) := by
  show (V m c main_v0 : S4096x2048.Idx → EReal) (ix2 n h) = _
  rw [xflat_eq]
  refine shapeCast_apply (s := S4x1024x2048) (t := S4096x2048) _ _ _ _ ?_
  rw [Shape.rowMajor_val_three, Shape.rowMajor_val_two]
  show (b.val * 1024 + r.val) * 2048 + h.val = n.val * 2048 + h.val
  omega

/-- What the host wrote into the flattened target array: the argument recast. -/
private theorem tflat_eq (c : Dev nD) :
    (V m c main_v1 : S4096x1.Idx → BitVec 32)
      = shapeCast S4096x1 (m ((c.tc : Thread nD τ).loc main_arg2) : S4x1024.Idx → BitVec 32) shapeCasts_S4x1024_S4096x1 := by
  dsimp only [Gen.V, Gen.V0]
  simp only [Gen.hostOps0, Gen.hostOps0_1, List.flatten_cons, List.flatten_nil, List.append_nil, List.cons_append, List.nil_append]
  after_results
  rfl

/-- The flattened targets. -/
theorem tflat_apply (c : Dev nD) (b : Fin 4) (r : Fin 1024) (n : Fin 4096) (hn : n.val = 1024 * b.val + r.val) :
    tflat m c (ix2 n (0 : Fin 1)) = targ m c (ix2 b r) := by
  show (V m c main_v1 : S4096x1.Idx → BitVec 32) (ix2 n (0 : Fin 1)) = _
  rw [tflat_eq]
  refine shapeCast_apply (s := S4x1024) (t := S4096x1) _ _ _ _ ?_
  rw [Shape.rowMajor_val_two, Shape.rowMajor_val_two]
  show b.val * 1024 + r.val = n.val * 1 + 0
  omega

/-- What the host wrote into the padded vocabulary matrix: the argument with rows of the converted integer zero below it. -/
private theorem wpad_eq (c : Dev nD) :
    (V m c main_v2 : S50688x2048.Idx → EReal)
      = pad S50688x2048 ![0, 0] ![431, 0] ![0, 0] (m ((c.tc : Thread nD τ).loc main_arg1) : S50257x2048.Idx → EReal)
          (sitofp (F := Ideal) .f32 (constantI S_ 32 0#32) : S_.Idx → EReal) pads_S50257x2048_S50688x2048_04310_000 h_S_ := by
  dsimp only [Gen.V, Gen.V0]
  simp only [Gen.hostOps0, Gen.hostOps0_1, List.flatten_cons, List.flatten_nil, List.append_nil, List.cons_append, List.nil_append]
  after_results
  rfl

/-- The padded vocabulary matrix: the true rows, then zero rows. -/
theorem wpad_apply (c : Dev nD) (j : Fin 50688) (h : Fin 2048) :
    wpad m c (ix2 j h) = if hj : j.val < 50257 then warg m c (ix2 (⟨j.val, hj⟩ : Fin 50257) h) else 0 := by
  show (V m c main_v2 : S50688x2048.Idx → EReal) (ix2 j h) = _
  rw [wpad_eq]
  by_cases hj : j.val < 50257
  · rw [dif_pos hj]
    exact pad_apply_of_inside (s := S50257x2048) (t := S50688x2048) _ _ _ _ _ _ _ _ (ix2 (⟨j.val, hj⟩ : Fin 50257) h) (by
      intro a
      match a with
      | ⟨0, _⟩ => show j.val = 0 + j.val * (0 + 1); omega
      | ⟨1, _⟩ => show h.val = 0 + h.val * (0 + 1); omega)
  · rw [dif_neg hj]
    refine (pad_apply_of_not_inside (s := S50257x2048) (t := S50688x2048) _ _ _ _ _ _ _ _ (0 : Fin 2) (by
      intro hin
      have e : (j.val - 0) / (0 + 1) < 50257 := hin.2.2
      omega)).trans ?_
    show (Scalar.sitofp .f32 0#32 : Ideal .f32) = 0
    exact sitofp_zero

/-- Grid point `t` is row tile `t / 99`, vocabulary tile `t % 99`. -/
theorem coords0 (t : Fin cfg0.N) : ((grid0.coords t) 0).val = t.val / 99 :=
  (by decide +kernel : ∀ t : Fin grid0.N, ((grid0.coords t) 0).val = t.val / 99) t

theorem coords1 (t : Fin cfg0.N) : ((grid0.coords t) 1).val = t.val % 99 :=
  (by decide +kernel : ∀ t : Fin grid0.N, ((grid0.coords t) 1).val = t.val % 99) t

/-- The printed index maps of the three input windows, decided over the grid: the token and target windows follow the
    row tile, the vocabulary window the vocabulary tile; each spans its array's second axis whole. -/
private theorem idx_facts : ∀ t : Fin cfg0.N, win0_0.index t (0 : Fin 2) = t.val / 99 ∧ win0_0.index t (1 : Fin 2) = 0
    ∧ win0_1.index t (0 : Fin 2) = t.val % 99 ∧ win0_1.index t (1 : Fin 2) = 0
    ∧ win0_2.index t (0 : Fin 2) = t.val / 99 ∧ win0_2.index t (1 : Fin 2) = 0 :=
  (by decide +kernel : ∀ t : Fin grid0.N, _)

/-- The token block of point `t`: rows `1024·(t/99) + p`. -/
theorem xblk_apply (c : Dev nD) (t : Fin cfg0.N) (p : Fin 1024) (h : Fin 2048) (n : Fin 4096) (hn : n.val = 1024 * (t.val / 99) + p.val) :
    xblk m c t (ix2 p h) = xflat m c (ix2 n h) := by
  show V m c main_v0 (((cfg0.win 0).blk t).view.emb (ix2 p h)) = V m c main_v0 (ix2 n h)
  obtain ⟨e0, e1, -⟩ := idx_facts t
  refine congrArg _ (funext fun a => Fin.ext ?_)
  match a with
  | ⟨0, _⟩ => show win0_0.index t (0 : Fin 2) * 1024 + 1 * p.val = n.val; omega
  | ⟨1, _⟩ => show win0_0.index t (1 : Fin 2) * 2048 + 1 * h.val = h.val; omega

/-- The vocabulary block of point `t`: rows `512·(t%99) + q`. -/
theorem wblk_apply (c : Dev nD) (t : Fin cfg0.N) (q : Fin 512) (h : Fin 2048) (j : Fin 50688) (hj : j.val = 512 * (t.val % 99) + q.val) :
    wblk m c t (ix2 q h) = wpad m c (ix2 j h) := by
  show V m c main_v2 (((cfg0.win 1).blk t).view.emb (ix2 q h)) = V m c main_v2 (ix2 j h)
  obtain ⟨-, -, e0, e1, -⟩ := idx_facts t
  refine congrArg _ (funext fun a => Fin.ext ?_)
  match a with
  | ⟨0, _⟩ => show win0_1.index t (0 : Fin 2) * 512 + 1 * q.val = j.val; omega
  | ⟨1, _⟩ => show win0_1.index t (1 : Fin 2) * 2048 + 1 * h.val = h.val; omega

/-- The target block of point `t`: rows `1024·(t/99) + p`. -/
theorem tblk_apply (c : Dev nD) (t : Fin cfg0.N) (p : Fin 1024) (n : Fin 4096) (hn : n.val = 1024 * (t.val / 99) + p.val) :
    tblk m c t (ix2 p (0 : Fin 1)) = tflat m c (ix2 n (0 : Fin 1)) := by
  show V m c main_v1 (((cfg0.win 2).blk t).view.emb (ix2 p (0 : Fin 1))) = V m c main_v1 (ix2 n (0 : Fin 1))
  obtain ⟨-, -, -, -, e0, e1⟩ := idx_facts t
  refine congrArg _ (funext fun a => Fin.ext ?_)
  match a with
  | ⟨0, _⟩ => show win0_2.index t (0 : Fin 2) * 1024 + 1 * p.val = n.val; omega
  | ⟨1, _⟩ => show win0_2.index t (1 : Fin 2) * 1 + 1 * (0 : Fin 1).val = (0 : Fin 1).val; omega

end Cert.KernelIdeal.HostIn

end
-- ==== Proof.OnlineSoftmax.lean ====
/-
  The streaming softmax is the softmax.

  For a row `g` that is a real number on the 50257 true columns and `⊥` on the padding, the running triple kept
  tile by tile — the maximum so far, the sum of exponentials rescaled to it, the target's logit — ends, after the
  99th tile, at the row's maximum, its sum of exponentials shifted by that maximum, and the target's logit; so
  `t - (m + log l)` is the log-softmax at the target. The rescaling law is `exp (a - b) * exp (c - a) = exp (c - b)`
  on the reals, with `exp ⊥ = 0` for the padding and for the start value `⊥` of the maximum.
-/
import proofs.«418200_j4621384810879_1_alg».proof.Proof.Spec
import Mathlib.Data.EReal.Operations
import Mathlib.Data.Finset.Lattice.Fold
import Mathlib.Order.Interval.Finset.Nat
import Mathlib.Algebra.BigOperators.Group.Finset.Basic
import Mathlib.Algebra.BigOperators.Group.Finset.Piecewise
import Mathlib.Data.Fintype.BigOperators
import Mathlib.Analysis.Complex.Exponential

noncomputable section

namespace Cert.FlashLogprob

open Idealize.ShloMosaic

/-! ## Sums and maxima over an initial segment of the columns -/

/-- A finite sum of reals, read in the extended reals, is the real sum. -/
private theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A maximum folded from `⊥` over `Fin n` is the supremum over the first `n` naturals. -/
private theorem fold_eq_sup (n : ℕ) (f : ℕ → EReal) :
    (Finset.univ : Finset (Fin n)).fold max ⊥ (fun q => f q.val) = (Finset.range n).sup f := by
  show (Finset.univ : Finset (Fin n)).sup (fun q => f q.val) = (Finset.range n).sup f
  apply le_antisymm
  · apply Finset.sup_le
    intro q _
    exact Finset.le_sup (f := f) (Finset.mem_range.2 q.isLt)
  · apply Finset.sup_le
    intro j hj
    exact Finset.le_sup (f := fun q : Fin n => f q.val) (Finset.mem_univ ⟨j, Finset.mem_range.1 hj⟩)

/-- The supremum over `n + m` columns is the larger of the one over the first `n` and the one over the next `m`. -/
private theorem sup_range_add (f : ℕ → EReal) (n m : ℕ) :
    (Finset.range (n + m)).sup f = max ((Finset.range n).sup f) ((Finset.range m).sup (fun q => f (n + q))) := by
  rw [Finset.range_add_eq_union, Finset.sup_union, Finset.sup_map]
  rfl

/-- One more tile of 512 columns, for sums. -/
private theorem sum_tile (h : ℕ → EReal) (n : ℕ) :
    ∑ j ∈ Finset.range n, h j + ∑ q : Fin 512, h (n + q.val) = ∑ j ∈ Finset.range (n + 512), h j := by
  rw [Finset.sum_range_add, Fin.sum_univ_eq_sum_range (fun q => h (n + q)) 512]

/-- One more tile of 512 columns, for maxima. -/
private theorem sup_tile (g : ℕ → EReal) (v n : ℕ) (hn : n = 512 * v) :
    max ((Finset.range n).sup g) (tileMax g v) = (Finset.range (n + 512)).sup g := by
  subst hn
  rw [sup_range_add, tileMax, fold_eq_sup 512 (fun q => g (512 * v + q))]

/-! ## The exponential of a difference -/

private theorem exp_nonneg (x : EReal) : 0 ≤ Ideal.exp x := by
  induction x using EReal.rec with
  | bot => exact le_refl _
  | top => exact le_top
  | coe r => exact EReal.coe_nonneg.2 (Real.exp_pos r).le

/-- Moving the reference point of one exponential from `m` to `m'`. -/
private theorem rescale_one (x : EReal) (hx : x ≠ ⊤) (m m' : ℝ) :
    Ideal.exp ((m : EReal) - (m' : EReal)) * Ideal.exp (x - (m : EReal)) = Ideal.exp (x - (m' : EReal)) := by
  induction x using EReal.rec with
  | bot => simp [EReal.bot_sub]
  | top => exact absurd rfl hx
  | coe r =>
    rw [← EReal.coe_sub, ← EReal.coe_sub, ← EReal.coe_sub, Ideal.exp_coe, Ideal.exp_coe, Ideal.exp_coe, ← EReal.coe_mul,
      ← Real.exp_add]
    congr 2
    ring

/-- Moving the reference point of a sum of exponentials from `m` to `m'`. -/
private theorem rescale_sum (g : ℕ → EReal) (hg : ∀ j, g j ≠ ⊤) (m m' : ℝ) (s : Finset ℕ) :
    Ideal.exp ((m : EReal) - (m' : EReal)) * ∑ j ∈ s, Ideal.exp (g j - (m : EReal))
      = ∑ j ∈ s, Ideal.exp (g j - (m' : EReal)) := by
  classical
  induction s using Finset.induction_on with
  | empty => simp
  | insert a s ha ih =>
    rw [Finset.sum_insert ha, Finset.sum_insert ha,
      EReal.left_distrib_of_nonneg (exp_nonneg _) (Finset.sum_nonneg (fun j _ => exp_nonneg _)), ih,
      rescale_one _ (hg a)]

/-! ## The running triple, tile by tile -/

/-- A supremum of the row over a nonempty initial segment is a real number: it is attained, no entry is `⊤`, and
    column 0 is real. -/
private theorem sup_real (g : ℕ → EReal) (hg : ∀ j, g j ≠ ⊤) (h0 : g 0 ≠ ⊥) (n : ℕ) (hn : 0 < n) :
    ∃ m : ℝ, (Finset.range n).sup g = (m : EReal) := by
  obtain ⟨j, _, e⟩ := Finset.exists_mem_eq_sup (Finset.range n) ⟨0, Finset.mem_range.2 hn⟩ g
  have h1 : (Finset.range n).sup g ≠ ⊤ := e ▸ hg j
  have h2 : (Finset.range n).sup g ≠ ⊥ := by
    intro hb
    have : g 0 ≤ ⊥ := hb ▸ Finset.le_sup (f := g) (Finset.mem_range.2 hn)
    exact h0 (le_bot_iff.1 this)
  exact ⟨_, (EReal.coe_toReal h1 h2).symm⟩

private theorem scan_zero (g : ℕ → EReal) (tg : ℕ) :
    scan g tg 0 = (stepM g 0 ⊥, stepL g 0 ⊥ 0, stepT g tg 0 0) := rfl

private theorem scan_succ (g : ℕ → EReal) (tg v : ℕ) :
    scan g tg (v + 1) = (stepM g (v + 1) (scan g tg v).1, stepL g (v + 1) (scan g tg v).1 (scan g tg v).2.1,
      stepT g tg (v + 1) (scan g tg v).2.2) := rfl

/-- The first tile's sum: the start value `0` of the sum makes its rescaling factor irrelevant. -/
private theorem stepL_zero (g : ℕ → EReal) (M : EReal) (hM : stepM g 0 ⊥ = M) :
    stepL g 0 ⊥ 0 = ∑ j ∈ Finset.range (512 * 0 + 512), Ideal.exp (g j - M) := by
  rw [stepL, hM, mul_zero, zero_add, ← sum_tile (fun j => Ideal.exp (g j - M)) (512 * 0), Nat.mul_zero,
    Finset.range_zero, Finset.sum_empty, zero_add]

/-- A later tile's sum: the old sum is moved from the old maximum `m` to the new one `m'`, then the tile is added. -/
private theorem stepL_succ (g : ℕ → EReal) (hg : ∀ j, g j ≠ ⊤) (v : ℕ) (m m' : ℝ)
    (hM : stepM g v (m : EReal) = (m' : EReal)) :
    stepL g v (m : EReal) (∑ j ∈ Finset.range (512 * v), Ideal.exp (g j - (m : EReal)))
      = ∑ j ∈ Finset.range (512 * v + 512), Ideal.exp (g j - (m' : EReal)) := by
  rw [stepL, hM, rescale_sum g hg m m', sum_tile (fun j => Ideal.exp (g j - (m' : EReal)))]

/-- The target's logit: one more tile of the indicator sum. -/
private theorem stepT_eq (g : ℕ → EReal) (tg v : ℕ) :
    stepT g tg v (∑ j ∈ Finset.range (512 * v), (if j = tg then g j else 0))
      = ∑ j ∈ Finset.range (512 * v + 512), (if j = tg then g j else 0) := by
  rw [stepT, sum_tile (fun j => if j = tg then g j else 0)]

/-- What the triple is after tiles `0 … v`: the maximum of the columns seen, the sum of their exponentials shifted
    by that maximum, and the sum of the target's indicator times the logit. -/
private def Inv (g : ℕ → EReal) (tg : ℕ) (v : ℕ) : Prop :=
  (scan g tg v).1 = (Finset.range (512 * v + 512)).sup g ∧
  (scan g tg v).2.1 = ∑ j ∈ Finset.range (512 * v + 512), Ideal.exp (g j - (scan g tg v).1) ∧
  (scan g tg v).2.2 = ∑ j ∈ Finset.range (512 * v + 512), (if j = tg then g j else 0)

private theorem inv_zero (g : ℕ → EReal) (tg : ℕ) : Inv g tg 0 := by
  rw [Inv, scan_zero]
  refine ⟨?_, stepL_zero g _ rfl, ?_⟩
  · show max ⊥ (tileMax g 0) = _
    rw [← sup_tile g 0 0 rfl, Finset.range_zero, Finset.sup_empty]
  · have h := stepT_eq g tg 0
    rw [Nat.mul_zero, Finset.range_zero, Finset.sum_empty] at h
    exact h

private theorem inv_succ (g : ℕ → EReal) (hg : ∀ j, g j ≠ ⊤) (h0 : g 0 ≠ ⊥) (tg : ℕ) (v : ℕ) (ih : Inv g tg v) :
    Inv g tg (v + 1) := by
  obtain ⟨hM, hL, hT⟩ := ih
  have e : 512 * v + 512 = 512 * (v + 1) := by ring
  obtain ⟨m, hm⟩ := sup_real g hg h0 (512 * v + 512) (by omega)
  obtain ⟨m', hm'⟩ := sup_real g hg h0 (512 * (v + 1) + 512) (by omega)
  have hM' : stepM g (v + 1) (scan g tg v).1 = (Finset.range (512 * (v + 1) + 512)).sup g := by
    rw [stepM, hM, e, sup_tile g (v + 1) _ rfl]
  rw [hm] at hM
  rw [hM, e] at hL
  rw [e] at hT
  rw [Inv, scan_succ, hL, hT, hM]
  refine ⟨(hM ▸ hM' : stepM g (v + 1) (m : EReal) = _), ?_, stepT_eq g tg (v + 1)⟩
  have hs : stepM g (v + 1) (m : EReal) = (m' : EReal) := (hM ▸ hM' : stepM g (v + 1) (m : EReal) = _).trans hm'
  show stepL g (v + 1) (m : EReal) _ = ∑ j ∈ _, Ideal.exp (g j - stepM g (v + 1) (m : EReal))
  rw [hs]
  exact stepL_succ g hg (v + 1) m m' hs

private theorem inv_all (g : ℕ → EReal) (hg : ∀ j, g j ≠ ⊤) (h0 : g 0 ≠ ⊥) (tg : ℕ) (v : ℕ) : Inv g tg v := by
  induction v with
  | zero => exact inv_zero g tg
  | succ v ih => exact inv_succ g hg h0 tg v ih

/-! ## The row's own maximum and sum, and the padding -/

/-- The padding does not move the maximum. -/
private theorem sup_pad (g : ℕ → EReal) (hpad : ∀ j, 50257 ≤ j → g j = ⊥) :
    (Finset.range (512 * 98 + 512)).sup g = rowMax g := by
  have e : 512 * 98 + 512 = 50257 + 431 := by norm_num
  rw [e, sup_range_add, rowMax, fold_eq_sup 50257 g,
    (Finset.sup_eq_bot_iff (fun q => g (50257 + q)) (Finset.range 431)).2 (fun q _ => hpad _ (Nat.le_add_right _ _))]
  exact max_bot_right _

/-- The padding adds nothing to a sum whose terms vanish on it. -/
private theorem sum_pad (h : ℕ → EReal) (hpad : ∀ j, 50257 ≤ j → h j = 0) :
    ∑ j ∈ Finset.range (512 * 98 + 512), h j = ∑ j : Fin 50257, h j.val := by
  have e : 512 * 98 + 512 = 50257 + 431 := by norm_num
  rw [e, Finset.sum_range_add, Finset.sum_eq_zero (fun q _ => hpad _ (Nat.le_add_right _ _)), add_zero,
    Fin.sum_univ_eq_sum_range h 50257]

/-! ## The three statements -/

/-- A row of logits of finite inputs is real on the true columns … -/
theorem col_real (x : (⟨3, ![4, 1024, 2048]⟩ : Shape).Idx → EReal) (w : (⟨2, ![50257, 2048]⟩ : Shape).Idx → EReal)
    (hx : ∀ i, ∃ a : ℝ, x i = (a : EReal)) (hw : ∀ i, ∃ a : ℝ, w i = (a : EReal)) (b : Fin 4) (r : Fin 1024)
    (j : ℕ) (hj : j < 50257) : ∃ a : ℝ, col x w b r j = (a : EReal) := by
  choose ax hax using hx
  choose aw haw using hw
  refine ⟨∑ h : Fin 2048, ax (ValueIdx.ix3 b r h) * aw (ValueIdx.ix2 ⟨j, hj⟩ h), ?_⟩
  rw [col, dif_pos hj, logit, ← sum_coe]
  refine Finset.sum_congr rfl (fun h _ => ?_)
  rw [hax, haw, EReal.coe_mul]

/-- … and `⊥` on the padding. -/
theorem col_pad (x : (⟨3, ![4, 1024, 2048]⟩ : Shape).Idx → EReal) (w : (⟨2, ![50257, 2048]⟩ : Shape).Idx → EReal)
    (b : Fin 4) (r : Fin 1024) (j : ℕ) (hj : 50257 ≤ j) : col x w b r j = ⊥ := by
  rw [col, dif_neg (Nat.not_lt.2 hj)]

/-- The streaming form returns the log-softmax at the target. -/
theorem flashOut_eq (g : ℕ → EReal) (hfin : ∀ j, j < 50257 → ∃ a : ℝ, g j = (a : EReal)) (hpad : ∀ j, 50257 ≤ j → g j = ⊥)
    (tg : ℕ) (htg : tg < 50257) : flashOut g tg = logProb g tg := by
  have hg : ∀ j, g j ≠ ⊤ := by
    intro j
    rcases Nat.lt_or_ge j 50257 with h | h
    · obtain ⟨a, ha⟩ := hfin j h
      rw [ha]; exact EReal.coe_ne_top a
    · rw [hpad j h]; exact bot_ne_top
  have h0 : g 0 ≠ ⊥ := by
    obtain ⟨a, ha⟩ := hfin 0 (by norm_num)
    rw [ha]; exact EReal.coe_ne_bot a
  obtain ⟨hM, hL, hT⟩ := inv_all g hg h0 tg 98
  obtain ⟨m, hm⟩ := sup_real g hg h0 (512 * 98 + 512) (by norm_num)
  have hM' : (scan g tg 98).1 = rowMax g := hM.trans (sup_pad g hpad)
  have hmr : rowMax g = (m : EReal) := hM'.symm.trans (hM.trans hm)
  have hL' : (scan g tg 98).2.1 = rowSum g := by
    rw [hL, hM', rowSum]
    refine sum_pad (fun j => Ideal.exp (g j - rowMax g)) (fun j hj => ?_)
    show Ideal.exp (g j - rowMax g) = 0
    rw [hpad j hj, EReal.bot_sub, Ideal.exp_bot]
  have hT' : (scan g tg 98).2.2 = g tg := by
    rw [hT, Finset.sum_ite_eq', if_pos (Finset.mem_range.2 (by omega))]
  rw [flashOut, logProb, hM', hL', hT', hmr, sub_eq_add_neg, sub_eq_add_neg, sub_eq_add_neg,
    EReal.neg_add (Or.inl (EReal.coe_ne_bot m)) (Or.inl (EReal.coe_ne_top m)), sub_eq_add_neg, add_assoc]

end Cert.FlashLogprob

end
-- ==== Proof.KernelScan.lean ====
/-
  The scratch vectors carried across the vocabulary tiles are the streaming softmax's running triple.

  Grid point `t` is row tile `t / 99` and vocabulary tile `t % 99`. At row `p` of row tile `b` the tile's scores are
  the row's column function `col x w b p` at columns `512·(t % 99) + q`; so what the body leaves in the three scratch
  vectors after point `t` is `scan (col x w b p) tg (t % 99)` — by induction on the point: the first tile of a row
  tile starts from the reset values `(⊥, 0, 0)`, every later one from what the point before left. At the last tile
  the stored result is `flashOut`, which is the log-softmax at the target; the four written-back blocks tile the
  output array.
-/
import proofs.«418200_j4621384810879_1_alg».proof.Proof.Gen.KernelIdeal.Frame
import proofs.«418200_j4621384810879_1_alg».proof.Proof.KernelPieces
import proofs.«418200_j4621384810879_1_alg».proof.Proof.TileStep
import proofs.«418200_j4621384810879_1_alg».proof.Proof.KernelHost
import proofs.«418200_j4621384810879_1_alg».proof.Proof.OnlineSoftmax
import proofs.«418200_j4621384810879_1_alg».proof.Proof.Spec
import Idealize.ShloMosaic.Lib.Pipeline.Value

noncomputable section

namespace Cert.KernelIdeal.Scan

open Idealize.ShloMosaic Idealize.ShloMosaic.TcCoe Idealize.ShloMosaic.ValueIdx Idealize.SL.Sem
open Cert.KernelIdeal Cert.KernelIdeal.Gen Cert.KernelIdeal.HostIn Cert.FlashLogprob
open Idealize.ShloMosaic.Pipeline (Dat)

variable (m : (ℓ : Loc nD τ sig) → Buf (Elt Ideal) ℓ)

/-- Row `p` of row tile `b`: its logits as a function of the column, and its target column. -/
abbrev rowG (c : Dev nD) (b : Fin 4) (p : Fin 1024) : ℕ → EReal := col (xarg m c) (warg m c) b p
abbrev rowTg (c : Dev nD) (b : Fin 4) (p : Fin 1024) : ℕ := (targ m c (ix2 b p)).toNat

theorem scan_pos (g : ℕ → EReal) (tg v : ℕ) (hv : v ≠ 0) :
    scan g tg v = (stepM g v (scan g tg (v - 1)).1, stepL g v (scan g tg (v - 1)).1 (scan g tg (v - 1)).2.1,
      stepT g tg v (scan g tg (v - 1)).2.2) := by
  cases v with
  | zero => exact absurd rfl hv
  | succ v => rfl

/-- The tile's scores at row `p` are the row's column function at the tile's columns. -/
theorem scores_col (c : Dev nD) (t : Fin cfg0.N) (b : Fin 4) (hb : b.val = t.val / 99) (p : Fin 1024) (q : Fin 512) :
    k0_pay8 (F := Ideal) (grid0.coords t) (xblk m c t) (wblk m c t) (ix2 p q)
      = rowG m c b p (512 * ((grid0.coords t) 1).val + q.val) := by
  have hN : cfg0.N = 396 := N_0
  have ht : t.val < 396 := hN ▸ t.isLt
  rw [Tile.scores_apply, coords1]
  by_cases hlt : 512 * (t.val % 99) + q.val < 50257
  · rw [if_pos hlt]
    show _ = col (xarg m c) (warg m c) b p (512 * (t.val % 99) + q.val)
    unfold col
    rw [dif_pos hlt]
    unfold logit
    refine Finset.sum_congr rfl fun h _ => ?_
    rw [xblk_apply m c t p h ⟨1024 * (t.val / 99) + p.val, by have := p.isLt; omega⟩ rfl,
      xflat_apply m c b p h ⟨1024 * (t.val / 99) + p.val, by have := p.isLt; omega⟩ (by rw [hb]),
      wblk_apply m c t q h ⟨512 * (t.val % 99) + q.val, by have := q.isLt; omega⟩ rfl,
      wpad_apply, dif_pos hlt]
  · rw [if_neg hlt]
    show _ = col (xarg m c) (warg m c) b p (512 * (t.val % 99) + q.val)
    unfold col
    rw [dif_neg hlt]

/-- The row's target word, as the point's target block holds it. -/
theorem tblk_row (c : Dev nD) (t : Fin cfg0.N) (b : Fin 4) (hb : b.val = t.val / 99) (p : Fin 1024) :
    (tblk m c t (ix2 p (0 : Fin 1))).toNat = rowTg m c b p := by
  have hN : cfg0.N = 396 := N_0
  have ht : t.val < 396 := hN ▸ t.isLt
  rw [tblk_apply m c t p ⟨1024 * (t.val / 99) + p.val, by have := p.isLt; omega⟩ rfl,
    tflat_apply m c b p ⟨1024 * (t.val / 99) + p.val, by have := p.isLt; omega⟩ (by rw [hb])]

/-- One tile's update of the three scratch vectors at row `p`, from scratch contents known at that row. -/
theorem update_row (c : Dev nD) (t : Fin cfg0.N) (b : Fin 4) (hb : b.val = t.val / 99) (p : Fin 1024)
    (xs0 xs1 xs2 : Vec Ideal S1024x1 .f32) (M L T : EReal)
    (e0 : xs0 (ix2 p (0 : Fin 1)) = M) (e1 : xs1 (ix2 p (0 : Fin 1)) = L) (e2 : xs2 (ix2 p (0 : Fin 1)) = T) :
    k0_pay1 (F := Ideal) (k0_pay9 (F := Ideal) (grid0.coords t) (xblk m c t) (wblk m c t) xs0) (ix2 p (0 : Fin 1))
        = stepM (rowG m c b p) (t.val % 99) M
    ∧ k0_pay10 (F := Ideal) (grid0.coords t) (xblk m c t) (wblk m c t) xs0 xs0 xs1 (ix2 p (0 : Fin 1))
        = stepL (rowG m c b p) (t.val % 99) M L
    ∧ k0_pay2 (F := Ideal) (k0_pay7 (grid0.coords t)) (k0_pay8 (F := Ideal) (grid0.coords t) (xblk m c t) (wblk m c t))
          (tblk m c t) xs2 (ix2 p (0 : Fin 1))
        = stepT (rowG m c b p) (rowTg m c b p) (t.val % 99) T := by
  refine ⟨?_, ?_, ?_⟩
  · rw [Tile.newMax_apply (grid0.coords t) (xblk m c t) (wblk m c t) xs0 (rowG m c b p) p (scores_col m c t b hb p),
      coords1, e0]
  · rw [Tile.newSum_apply (grid0.coords t) (xblk m c t) (wblk m c t) xs0 xs1 (rowG m c b p) p (scores_col m c t b hb p),
      coords1, e0, e1]
  · rw [Tile.newTgt_apply (grid0.coords t) (xblk m c t) (wblk m c t) (tblk m c t) xs2 (rowG m c b p) p
        (scores_col m c t b hb p) (rowTg m c b p) (tblk_row m c t b hb p), coords1, e2]

/-- THE INVARIANT: after point `n` the three scratch vectors hold, at row `p` of row tile `n / 99`, the streaming
    softmax's triple after vocabulary tiles `0 … n % 99`. -/
theorem scratch_eq (c : Dev nD) : ∀ (n : ℕ) (hn : n < cfg0.N) (b : Fin 4), b.val = n / 99 → ∀ p : Fin 1024,
    (outsAt0 m c n hn).2.1 (ix2 p (0 : Fin 1)) = (scan (rowG m c b p) (rowTg m c b p) (n % 99)).1
    ∧ (outsAt0 m c n hn).2.2.1 (ix2 p (0 : Fin 1)) = (scan (rowG m c b p) (rowTg m c b p) (n % 99)).2.1
    ∧ (outsAt0 m c n hn).2.2.2 (ix2 p (0 : Fin 1)) = (scan (rowG m c b p) (rowTg m c b p) (n % 99)).2.2 := by
  intro n
  induction n using Nat.strong_induction_on with
  | _ n ih =>
    intro hn b hb p
    have hN : cfg0.N = 396 := N_0
    by_cases h0 : n % 99 = 0
    · -- the first vocabulary tile of a row tile: from the reset values
      have h1 : ¬n % 99 = 98 := by omega
      obtain ⟨u0, u1, u2⟩ := update_row m c ⟨n, hn⟩ b hb p (k0_pay4 (F := Ideal)) (k0_pay5 (F := Ideal)) (k0_pay6 (F := Ideal))
        ⊥ 0 0 (Tile.resetM_apply p) (Tile.resetL_apply p) (Tile.resetT_apply p)
      have hs : scan (rowG m c b p) (rowTg m c b p) (n % 99) = scan (rowG m c b p) (rowTg m c b p) 0 := by rw [h0]
      rw [outsAt0_A m c ⟨n, hn⟩ h0 h1, hs]
      dsimp only
      refine ⟨?_, ?_, ?_⟩
      · refine (congrFun (Pieces.sA0 (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) (ms0_3 ⟨n, hn⟩) (hs0_3 ⟨n, hn⟩) scM0_0 (Memref.isWhole_whole _) scM0_1 (Memref.isWhole_whole _)
          scM0_2 (Memref.isWhole_whole _) ((hcond0_0 ⟨n, hn⟩).mpr h0) (fun h => h1 ((hcond0_1 ⟨n, hn⟩).mp h))
          (xblk m c ⟨n, hn⟩) (wblk m c ⟨n, hn⟩) (tblk m c ⟨n, hn⟩)) (ix2 p (0 : Fin 1))).trans ?_
        exact u0.trans (by rw [show (⟨n, hn⟩ : Fin cfg0.N).val % 99 = 0 from h0]; rfl)
      · refine (congrFun (Pieces.sA1 (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) (ms0_3 ⟨n, hn⟩) (hs0_3 ⟨n, hn⟩) scM0_0 (Memref.isWhole_whole _) scM0_1 (Memref.isWhole_whole _)
          scM0_2 (Memref.isWhole_whole _) ((hcond0_0 ⟨n, hn⟩).mpr h0) (fun h => h1 ((hcond0_1 ⟨n, hn⟩).mp h))
          (xblk m c ⟨n, hn⟩) (wblk m c ⟨n, hn⟩) (tblk m c ⟨n, hn⟩)) (ix2 p (0 : Fin 1))).trans ?_
        exact u1.trans (by rw [show (⟨n, hn⟩ : Fin cfg0.N).val % 99 = 0 from h0]; rfl)
      · refine (congrFun (Pieces.sA2 (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) (ms0_3 ⟨n, hn⟩) (hs0_3 ⟨n, hn⟩) scM0_0 (Memref.isWhole_whole _) scM0_1 (Memref.isWhole_whole _)
          scM0_2 (Memref.isWhole_whole _) ((hcond0_0 ⟨n, hn⟩).mpr h0) (fun h => h1 ((hcond0_1 ⟨n, hn⟩).mp h))
          (xblk m c ⟨n, hn⟩) (wblk m c ⟨n, hn⟩) (tblk m c ⟨n, hn⟩)) (ix2 p (0 : Fin 1))).trans ?_
        exact u2.trans (by rw [show (⟨n, hn⟩ : Fin cfg0.N).val % 99 = 0 from h0]; rfl)
    · -- a later tile: from what the point before left
      have hn1 : n - 1 < cfg0.N := Nat.lt_of_le_of_lt (Nat.sub_le _ _) hn
      have hb1 : b.val = (n - 1) / 99 := by omega
      obtain ⟨i0, i1, i2⟩ := ih (n - 1) (by omega) hn1 b hb1 p
      have hv : (n - 1) % 99 = n % 99 - 1 := by omega
      obtain ⟨u0, u1, u2⟩ := update_row m c ⟨n, hn⟩ b hb p (outsAt0 m c (n - 1) hn1).2.1 (outsAt0 m c (n - 1) hn1).2.2.1
        (outsAt0 m c (n - 1) hn1).2.2.2 _ _ _ i0 i1 i2
      rw [scan_pos _ _ _ h0, ← hv]
      dsimp only
      by_cases h1 : n % 99 = 98
      · rw [outsAt0_C m c ⟨n, hn⟩ h0 h1]
        dsimp only
        refine ⟨?_, ?_, ?_⟩
        · refine (congrFun (Pieces.sC0 (F := Ideal) c (grid0.coords ⟨n, hn⟩) (ms0_0 ⟨n, hn⟩) (hs0_0 ⟨n, hn⟩) (ms0_1 ⟨n, hn⟩) (hs0_1 ⟨n, hn⟩)
            (ms0_2 ⟨n, hn⟩) (hs0_2 ⟨n, hn⟩) (ms0_3 ⟨n, hn⟩) (hs0_3 ⟨n, hn⟩) scM0_0 (Memref.isWhole_whole _) scM0_1 (Memref.isWhole_whole _)
            scM0_2 (Memref.isWhole_whole _) (fun h => h0 ((hcond0_0 ⟨n, hn⟩).mp h)) ((hcond0_1 ⟨n, hn⟩).mpr h1)
            (xblk m c ⟨n, hn⟩) (wblk m c ⟨n, hn⟩) (tblk m c ⟨n, hn⟩) (outsAt0 m c (n - 1) hn1).2.1 (outsAt0 m c (n - 1) hn1).2.2.1
            (outsAt0 m c (n - 1) hn1).2.2.2) (ix2 p (0 : Fin 1))).trans ?_
          exact u0
        · refine (congrFun (Pieces.sC1 (F := Ideal) c (grid0.coords ⟨n, hn⟩) (ms0_0 ⟨n, hn⟩) (hs0_0 ⟨n, hn⟩) (ms0_1 ⟨n, hn⟩) (hs0_1 ⟨n, hn⟩)
            (ms0_2 ⟨n, hn⟩) (hs0_2 ⟨n, hn⟩) (ms0_3 ⟨n, hn⟩) (hs0_3 ⟨n, hn⟩) scM0_0 (Memref.isWhole_whole _) scM0_1 (Memref.isWhole_whole _)
            scM0_2 (Memref.isWhole_whole _) (fun h => h0 ((hcond0_0 ⟨n, hn⟩).mp h)) ((hcond0_1 ⟨n, hn⟩).mpr h1)
            (xblk m c ⟨n, hn⟩) (wblk m c ⟨n, hn⟩) (tblk m c ⟨n, hn⟩) (outsAt0 m c (n - 1) hn1).2.1 (outsAt0 m c (n - 1) hn1).2.2.1
            (outsAt0 m c (n - 1) hn1).2.2.2) (ix2 p (0 : Fin 1))).trans ?_
          exact u1
        · refine (congrFun (Pieces.sC2 (F := Ideal) c (grid0.coords ⟨n, hn⟩) (ms0_0 ⟨n, hn⟩) (hs0_0 ⟨n, hn⟩) (ms0_1 ⟨n, hn⟩) (hs0_1 ⟨n, hn⟩)
            (ms0_2 ⟨n, hn⟩) (hs0_2 ⟨n, hn⟩) (ms0_3 ⟨n, hn⟩) (hs0_3 ⟨n, hn⟩) scM0_0 (Memref.isWhole_whole _) scM0_1 (Memref.isWhole_whole _)
            scM0_2 (Memref.isWhole_whole _) (fun h => h0 ((hcond0_0 ⟨n, hn⟩).mp h)) ((hcond0_1 ⟨n, hn⟩).mpr h1)
            (xblk m c ⟨n, hn⟩) (wblk m c ⟨n, hn⟩) (tblk m c ⟨n, hn⟩) (outsAt0 m c (n - 1) hn1).2.1 (outsAt0 m c (n - 1) hn1).2.2.1
            (outsAt0 m c (n - 1) hn1).2.2.2) (ix2 p (0 : Fin 1))).trans ?_
          exact u2
      · rw [outsAt0_B m c ⟨n, hn⟩ h0 h1]
        dsimp only
        refine ⟨?_, ?_, ?_⟩
        · refine (congrFun (Pieces.sB0 (F := Ideal) c (grid0.coords ⟨n, hn⟩) (ms0_0 ⟨n, hn⟩) (hs0_0 ⟨n, hn⟩) (ms0_1 ⟨n, hn⟩) (hs0_1 ⟨n, hn⟩)
            (ms0_2 ⟨n, hn⟩) (hs0_2 ⟨n, hn⟩) (ms0_3 ⟨n, hn⟩) (hs0_3 ⟨n, hn⟩) scM0_0 (Memref.isWhole_whole _) scM0_1 (Memref.isWhole_whole _)
            scM0_2 (Memref.isWhole_whole _) (fun h => h0 ((hcond0_0 ⟨n, hn⟩).mp h)) (fun h => h1 ((hcond0_1 ⟨n, hn⟩).mp h))
            (xblk m c ⟨n, hn⟩) (wblk m c ⟨n, hn⟩) (tblk m c ⟨n, hn⟩) (outsAt0 m c (n - 1) hn1).2.1 (outsAt0 m c (n - 1) hn1).2.2.1
            (outsAt0 m c (n - 1) hn1).2.2.2) (ix2 p (0 : Fin 1))).trans ?_
          exact u0
        · refine (congrFun (Pieces.sB1 (F := Ideal) c (grid0.coords ⟨n, hn⟩) (ms0_0 ⟨n, hn⟩) (hs0_0 ⟨n, hn⟩) (ms0_1 ⟨n, hn⟩) (hs0_1 ⟨n, hn⟩)
            (ms0_2 ⟨n, hn⟩) (hs0_2 ⟨n, hn⟩) (ms0_3 ⟨n, hn⟩) (hs0_3 ⟨n, hn⟩) scM0_0 (Memref.isWhole_whole _) scM0_1 (Memref.isWhole_whole _)
            scM0_2 (Memref.isWhole_whole _) (fun h => h0 ((hcond0_0 ⟨n, hn⟩).mp h)) (fun h => h1 ((hcond0_1 ⟨n, hn⟩).mp h))
            (xblk m c ⟨n, hn⟩) (wblk m c ⟨n, hn⟩) (tblk m c ⟨n, hn⟩) (outsAt0 m c (n - 1) hn1).2.1 (outsAt0 m c (n - 1) hn1).2.2.1
            (outsAt0 m c (n - 1) hn1).2.2.2) (ix2 p (0 : Fin 1))).trans ?_
          exact u1
        · refine (congrFun (Pieces.sB2 (F := Ideal) c (grid0.coords ⟨n, hn⟩) (ms0_0 ⟨n, hn⟩) (hs0_0 ⟨n, hn⟩) (ms0_1 ⟨n, hn⟩) (hs0_1 ⟨n, hn⟩)
            (ms0_2 ⟨n, hn⟩) (hs0_2 ⟨n, hn⟩) (ms0_3 ⟨n, hn⟩) (hs0_3 ⟨n, hn⟩) scM0_0 (Memref.isWhole_whole _) scM0_1 (Memref.isWhole_whole _)
            scM0_2 (Memref.isWhole_whole _) (fun h => h0 ((hcond0_0 ⟨n, hn⟩).mp h)) (fun h => h1 ((hcond0_1 ⟨n, hn⟩).mp h))
            (xblk m c ⟨n, hn⟩) (wblk m c ⟨n, hn⟩) (tblk m c ⟨n, hn⟩) (outsAt0 m c (n - 1) hn1).2.1 (outsAt0 m c (n - 1) hn1).2.2.1
            (outsAt0 m c (n - 1) hn1).2.2.2) (ix2 p (0 : Fin 1))).trans ?_
          exact u2

/-- What the last vocabulary tile of a row tile stores into the output block, at row `p`: the streaming result. -/
theorem out_last (c : Dev nD) (t : Fin cfg0.N) (h1 : t.val % 99 = 98) (b : Fin 4) (hb : b.val = t.val / 99) (p : Fin 1024) :
    (outsAt0 m c t.val t.isLt).1 (ix2 p (0 : Fin 1)) = flashOut (rowG m c b p) (rowTg m c b p) := by
  have hN : cfg0.N = 396 := N_0
  have h0 : ¬t.val % 99 = 0 := by omega
  have hn1 : t.val - 1 < cfg0.N := Nat.lt_of_le_of_lt (Nat.sub_le _ _) t.isLt
  have hb1 : b.val = (t.val - 1) / 99 := by omega
  obtain ⟨i0, i1, i2⟩ := scratch_eq m c (t.val - 1) hn1 b hb1 p
  have hv : (t.val - 1) % 99 = 97 := by omega
  rw [hv] at i0 i1 i2
  obtain ⟨u0, u1, u2⟩ := update_row m c t b hb p (outsAt0 m c (t.val - 1) hn1).2.1 (outsAt0 m c (t.val - 1) hn1).2.2.1
    (outsAt0 m c (t.val - 1) hn1).2.2.2 _ _ _ i0 i1 i2
  rw [h1] at u0 u1 u2
  rw [outsAt0_C m c t h0 h1]
  dsimp only
  refine (congrFun (Pieces.oC3 (F := Ideal) c (grid0.coords t) (ms0_0 t) (hs0_0 t) (ms0_1 t) (hs0_1 t)
    (ms0_2 t) (hs0_2 t) (ms0_3 t) (hs0_3 t) scM0_0 (Memref.isWhole_whole _) scM0_1 (Memref.isWhole_whole _)
    scM0_2 (Memref.isWhole_whole _) (fun h => h0 ((hcond0_0 t).mp h)) ((hcond0_1 t).mpr h1)
    (xblk m c t) (wblk m c t) (tblk m c t) (outsAt0 m c (t.val - 1) hn1).2.1 (outsAt0 m c (t.val - 1) hn1).2.2.1
    (outsAt0 m c (t.val - 1) hn1).2.2.2) (ix2 p (0 : Fin 1))).trans ?_
  rw [Tile.out_apply, u0, u1, u2]
  rfl

end Cert.KernelIdeal.Scan

end
-- ==== Proof.KernelFinal.lean ====
/-
  The kernel's result array.

  The output window's block at grid point `t` is rows `1024·(t / 99) …` of the `[4096, 1]` array. It is written back
  only after the last vocabulary tile of a row tile (`t % 99 = 98`), and then holds, at row `p`, the streaming result
  for token row `1024·(t / 99) + p` — which, for real inputs and a target inside the vocabulary, is that token's
  log-softmax at its target. The four written-back blocks tile the array, so the array ends holding every token's
  log-probability.
-/
import proofs.«418200_j4621384810879_1_alg».proof.Proof.KernelScan

noncomputable section

namespace Cert.KernelIdeal.Final

open Idealize.ShloMosaic Idealize.ShloMosaic.TcCoe Idealize.ShloMosaic.ValueIdx Idealize.SL.Sem
open Cert.KernelIdeal Cert.KernelIdeal.Gen Cert.KernelIdeal.HostIn Cert.KernelIdeal.Scan Cert.FlashLogprob
open Idealize.ShloMosaic.Pipeline (Dat)

variable (m : (ℓ : Loc nD τ sig) → Buf (Elt Ideal) ℓ)

/-- The flattened array of per-token log-probabilities: row `n` is token `(n / 1024, n % 1024)`. -/
def perTokFlat (c : Dev nD) : S4096x1.Idx → EReal := fun i =>
  perTok (xarg m c) (warg m c) (targ m c)
    ⟨(i 0).val / 1024, by have h : (i 0).val < 4096 := (i 0).isLt; omega⟩
    ⟨(i 0).val % 1024, Nat.mod_lt _ (by norm_num)⟩

theorem perTokFlat_at (c : Dev nD) (i : S4096x1.Idx) (b : Fin 4) (r : Fin 1024) (h : (i 0).val = 1024 * b.val + r.val) :
    perTokFlat m c i = perTok (xarg m c) (warg m c) (targ m c) b r := by
  have hr := r.isLt
  unfold perTokFlat
  congr 1
  · exact Fin.ext (by show (i 0).val / 1024 = b.val; omega)
  · exact Fin.ext (by show (i 0).val % 1024 = r.val; omega)

/-- The output window's block index at point `t`: row tile `t / 99`, the one column tile. -/
theorem out_index : ∀ t : Fin cfg0.N, win0_3.index t (0 : Fin 2) = t.val / 99 ∧ win0_3.index t (1 : Fin 2) = 0 :=
  (by decide +kernel : ∀ t : Fin grid0.N, win0_3.index t (0 : Fin 2) = t.val / 99 ∧ win0_3.index t (1 : Fin 2) = 0)

/-- An index of the array is in point `t`'s block iff each coordinate is in the block's range on its axis. -/
theorem mem_blk (t : Fin cfg0.N) (i : S4096x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v3).slice (win0_3.rect t)).set ↔ _
  rw [View.set_slice_whole, Rect.mem_set_unit]
  exact Iff.rfl

section
variable (c : Dev nD)
  (hx : ∀ i, ∃ a : ℝ, xarg m c i = (a : EReal)) (hw : ∀ i, ∃ a : ℝ, warg m c i = (a : EReal))
  (ht : ∀ i, (targ m c i).toNat < 50257)
include hx hw ht

/-- What a writing-back point writes back is its block of the per-token array. -/
theorem flushed_eq (t : Fin cfg0.N) (hf : (cfg0.win 3).flush t = true) :
    (dats m 0 c).flushed 3 t = ((cfg0.win 3).blk t).view.read (Elt Ideal) (perTokFlat m c) := by
  have h1 : t.val % 99 = 98 := (flush0_3 t).mp hf
  have hN : cfg0.N = 396 := N_0
  have htl : t.val < 396 := hN ▸ t.isLt
  show (cfg0.win 3).cut (grid0.coords t) ((dats m 0 c).after 3 t) = _
  rw [after0_3]
  funext j
  obtain ⟨p, u, rfl⟩ : ∃ (p : Fin 1024) (u : Fin 1), j = ix2 p u := ⟨j 0, j 1, eq_ix2 j⟩
  obtain rfl : u = 0 := Subsingleton.elim _ _
  show (outsAt0 m c t.val t.isLt).1 (ix2 p (0 : Fin 1)) = perTokFlat m c (((cfg0.win 3).blk t).view.emb (ix2 p (0 : Fin 1)))
  rw [out_last m c t h1 ⟨t.val / 99, by omega⟩ rfl p,
    perTokFlat_at m c _ ⟨t.val / 99, by omega⟩ p (by
      show win0_3.index t (0 : Fin 2) * 1024 + 1 * p.val = 1024 * (t.val / 99) + p.val
      rw [(out_index t).1]; omega)]
  exact flashOut_eq _ (col_real _ _ hx hw _ p) (col_pad _ _ _ p) _ (ht _)

/-- The array after the run: every token's log-probability. -/
theorem final : (dats m 0 c).arrAt 3 cfg0.N = perTokFlat m c :=
  (dats m 0 c).arrAt_eq_of_cover 3 (perTokFlat m c) (flushed_eq m c hx hw ht) fun i => by
    have hN : cfg0.N = 396 := N_0
    have hi0 : (i 0).val < 4096 := (i 0).isLt
    have hi1 : (i 1).val < 1 := (i 1).isLt
    have htl : 99 * ((i 0).val / 1024) + 98 < cfg0.N := by rw [hN]; omega
    refine ⟨⟨99 * ((i 0).val / 1024) + 98, htl⟩, (flush0_3 _).mpr (by show (99 * ((i 0).val / 1024) + 98) % 99 = 98; omega), ?_⟩
    rw [mem_blk]
    obtain ⟨e0, e1⟩ := out_index ⟨99 * ((i 0).val / 1024) + 98, htl⟩
    have e0' : win0_3.index ⟨99 * ((i 0).val / 1024) + 98, htl⟩ (0 : Fin 2) = (i 0).val / 1024 := by
      rw [e0]; show (99 * ((i 0).val / 1024) + 98) / 99 = (i 0).val / 1024; omega
    intro a
    match a with
    | ⟨0, _⟩ =>
      show win0_3.index _ (0 : Fin 2) * 1024 ≤ (i 0).val ∧ (i 0).val < win0_3.index _ (0 : Fin 2) * 1024 + 1024
      rw [e0']; omega
    | ⟨1, _⟩ =>
      show win0_3.index _ (1 : Fin 2) * 1 ≤ (i 1).val ∧ (i 1).val < win0_3.index _ (1 : Fin 2) * 1 + 1
      rw [e1]; omega

end

end Cert.KernelIdeal.Final

end
-- ==== Proof.RefTailOps.lean ====
/-
  The closing stretch of the reference program: the sixty host operations that turn the per-token
  log-probabilities (a [4,1024] array) and the targets into the five results — the mask of the
  targets that differ from -100 as a float, the masked mean of each of the four rows, its two
  halves, the log-odds `log1p(-exp ·)` of each half and their difference, the logarithm of the
  sigmoid of the difference of log-odds (spelt through the softplus, its lines in place), and the
  five reductions and scalings. Listed in the program's order so that the program is the chain of
  its earlier operations followed by this list, and so that the fold of this list over any
  contents of the buffers can be read once for all.
-/
import proofs.«418200_j4621384810879_1_alg».proof.Proof.Gen.ReferenceIdeal
import Idealize.ShloMosaic.Lib.StableHlo.Run

noncomputable section

namespace Cert.ReferenceIdeal.RefRun

open Cert.ReferenceIdeal Cert.ReferenceIdeal.Gen
open Idealize.ShloMosaic Idealize.ShloMosaic.TcCoe Idealize.SL.Sem Idealize.ShloMosaic.StableHlo

variable {F : FTy → Type} [FloatOps F]

/-- The last sixty operations of the reference, in order: the mask and the masked means (24), the
    logarithm of the sigmoid through the softplus (16), the five results (20). -/
abbrev opsTail : List (HloOp τ sig (Elt F)) :=
  [ StableHlo.nullary main_c (constantI S_ 32 4294967196#32),
    StableHlo.unary main_c main_v5 (broadcastInDim S4x1024 ![] bcast_S_S4x1024 : (⟨S_, .i32⟩ : BufTy).Contents (Elt F) → (⟨S4x1024, .i32⟩ : BufTy).Contents (Elt F)),
    StableHlo.binary main_arg2 main_v5 main_v6 (cmpi .ne : (⟨S4x1024, .i32⟩ : BufTy).Contents (Elt F) → (⟨S4x1024, .i32⟩ : BufTy).Contents (Elt F) → (⟨S4x1024, .i1⟩ : BufTy).Contents (Elt F)),
    StableHlo.unary main_v6 main_v7 (uitofp .f32 : (⟨S4x1024, .i1⟩ : BufTy).Contents (Elt F) → (⟨S4x1024, .f32⟩ : BufTy).Contents (Elt F)),
    StableHlo.binary main_v4 main_v7 main_v8 (mulf : (⟨S4x1024, .f32⟩ : BufTy).Contents (Elt F) → (⟨S4x1024, .f32⟩ : BufTy).Contents (Elt F) → (⟨S4x1024, .f32⟩ : BufTy).Contents (Elt F)),
    StableHlo.nullary main_cst (constant S_ .f32 0x00000000#32),
    StableHlo.binary main_v8 main_cst main_v9 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    StableHlo.nullary main_cst_0 (constant S_ .f32 0x00000000#32),
    StableHlo.binary main_v7 main_cst_0 main_v10 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    StableHlo.nullary main_cst_1 (constant S_ .f32 0x3F800000#32),
    StableHlo.unary main_cst_1 main_v11 (broadcastInDim S4 ![] bcast_S_S4 : (⟨S_, .f32⟩ : BufTy).Contents (Elt F) → (⟨S4, .f32⟩ : BufTy).Contents (Elt F)),
    StableHlo.binary main_v10 main_v11 main_v12 (maximumf : (⟨S4, .f32⟩ : BufTy).Contents (Elt F) → (⟨S4, .f32⟩ : BufTy).Contents (Elt F) → (⟨S4, .f32⟩ : BufTy).Contents (Elt F)),
    StableHlo.binary main_v9 main_v12 main_v13 (Host.divf : (⟨S4, .f32⟩ : BufTy).Contents (Elt F) → (⟨S4, .f32⟩ : BufTy).Contents (Elt F) → (⟨S4, .f32⟩ : BufTy).Contents (Elt F)),
    StableHlo.unary main_v13 main_v14 ((extractStridedSlice S2 ![0] · slices_S4_S2_0) : (⟨S4, .f32⟩ : BufTy).Contents (Elt F) → (⟨S2, .f32⟩ : BufTy).Contents (Elt F)),
    StableHlo.unary main_v13 main_v15 ((extractStridedSlice S2 ![2] · slices_S4_S2_2) : (⟨S4, .f32⟩ : BufTy).Contents (Elt F) → (⟨S2, .f32⟩ : BufTy).Contents (Elt F)),
    StableHlo.binary main_v14 main_v15 main_v16 (subf : (⟨S2, .f32⟩ : BufTy).Contents (Elt F) → (⟨S2, .f32⟩ : BufTy).Contents (Elt F) → (⟨S2, .f32⟩ : BufTy).Contents (Elt F)),
    StableHlo.unary main_v14 main_v17 (Host.exp : (⟨S2, .f32⟩ : BufTy).Contents (Elt F) → (⟨S2, .f32⟩ : BufTy).Contents (Elt F)),
    StableHlo.unary main_v17 main_v18 (Host.negf : (⟨S2, .f32⟩ : BufTy).Contents (Elt F) → (⟨S2, .f32⟩ : BufTy).Contents (Elt F)),
    StableHlo.unary main_v18 main_v19 (Host.log1p : (⟨S2, .f32⟩ : BufTy).Contents (Elt F) → (⟨S2, .f32⟩ : BufTy).Contents (Elt F)),
    StableHlo.unary main_v15 main_v20 (Host.exp : (⟨S2, .f32⟩ : BufTy).Contents (Elt F) → (⟨S2, .f32⟩ : BufTy).Contents (Elt F)),
    StableHlo.unary main_v20 main_v21 (Host.negf : (⟨S2, .f32⟩ : BufTy).Contents (Elt F) → (⟨S2, .f32⟩ : BufTy).Contents (Elt F)),
    StableHlo.unary main_v21 main_v22 (Host.log1p : (⟨S2, .f32⟩ : BufTy).Contents (Elt F) → (⟨S2, .f32⟩ : BufTy).Contents (Elt F)),
    StableHlo.binary main_v19 main_v22 main_v23 (subf : (⟨S2, .f32⟩ : BufTy).Contents (Elt F) → (⟨S2, .f32⟩ : BufTy).Contents (Elt F) → (⟨S2, .f32⟩ : BufTy).Contents (Elt F)),
    StableHlo.binary main_v16 main_v23 main_v24 (subf : (⟨S2, .f32⟩ : BufTy).Contents (Elt F) → (⟨S2, .f32⟩ : BufTy).Contents (Elt F) → (⟨S2, .f32⟩ : BufTy).Contents (Elt F)),
    StableHlo.TRef.unary (.of main_v24 : StableHlo.TRef sig ⟨S2, .f32⟩) (.of main_call2_v0 : StableHlo.TRef sig ⟨S2, .f32⟩) Host.negf,
    StableHlo.TRef.nullary (.of main_call2_call0_cst : StableHlo.TRef sig ⟨S_, .f32⟩) (constant S_ .f32 0x00000000#32),
    StableHlo.TRef.unary (.of main_call2_call0_cst : StableHlo.TRef sig ⟨S_, .f32⟩) (.of main_call2_call0_v0 : StableHlo.TRef sig ⟨S2, .f32⟩) (broadcastInDim S2 ![] bcast_S_S2),
    StableHlo.TRef.binary (.of main_call2_v0 : StableHlo.TRef sig ⟨S2, .f32⟩) (.of main_call2_call0_v0 : StableHlo.TRef sig ⟨S2, .f32⟩) (.of main_call2_call0_v1 : StableHlo.TRef sig ⟨S2, .f32⟩) maximumf,
    StableHlo.TRef.unary (.of main_call2_call0_cst : StableHlo.TRef sig ⟨S_, .f32⟩) (.of main_call2_call0_v2 : StableHlo.TRef sig ⟨S2, .f32⟩) (broadcastInDim S2 ![] bcast_S_S2),
    StableHlo.TRef.binary (.of main_call2_v0 : StableHlo.TRef sig ⟨S2, .f32⟩) (.of main_call2_call0_v2 : StableHlo.TRef sig ⟨S2, .f32⟩) (.of main_call2_call0_v3 : StableHlo.TRef sig ⟨S2, .f32⟩) subf,
    StableHlo.TRef.binary (.of main_call2_call0_v3 : StableHlo.TRef sig ⟨S2, .f32⟩) (.of main_call2_call0_v3 : StableHlo.TRef sig ⟨S2, .f32⟩) (.of main_call2_call0_v4 : StableHlo.TRef sig ⟨S2, .i1⟩) (cmpf .une),
    StableHlo.TRef.unary (.of main_call2_call0_cst : StableHlo.TRef sig ⟨S_, .f32⟩) (.of main_call2_call0_v5 : StableHlo.TRef sig ⟨S2, .f32⟩) (broadcastInDim S2 ![] bcast_S_S2),
    StableHlo.TRef.binary (.of main_call2_v0 : StableHlo.TRef sig ⟨S2, .f32⟩) (.of main_call2_call0_v5 : StableHlo.TRef sig ⟨S2, .f32⟩) (.of main_call2_call0_v6 : StableHlo.TRef sig ⟨S2, .f32⟩) addf,
    StableHlo.TRef.unary (.of main_call2_call0_v3 : StableHlo.TRef sig ⟨S2, .f32⟩) (.of main_call2_call0_v7 : StableHlo.TRef sig ⟨S2, .f32⟩) Host.absf,
    StableHlo.TRef.unary (.of main_call2_call0_v7 : StableHlo.TRef sig ⟨S2, .f32⟩) (.of main_call2_call0_v8 : StableHlo.TRef sig ⟨S2, .f32⟩) Host.negf,
    StableHlo.TRef.unary (.of main_call2_call0_v8 : StableHlo.TRef sig ⟨S2, .f32⟩) (.of main_call2_call0_v9 : StableHlo.TRef sig ⟨S2, .f32⟩) Host.exp,
    StableHlo.TRef.unary (.of main_call2_call0_v9 : StableHlo.TRef sig ⟨S2, .f32⟩) (.of main_call2_call0_v10 : StableHlo.TRef sig ⟨S2, .f32⟩) Host.log1p,
    StableHlo.TRef.binary (.of main_call2_call0_v1 : StableHlo.TRef sig ⟨S2, .f32⟩) (.of main_call2_call0_v10 : StableHlo.TRef sig ⟨S2, .f32⟩) (.of main_call2_call0_v11 : StableHlo.TRef sig ⟨S2, .f32⟩) addf,
    StableHlo.TRef.ternary (.of main_call2_call0_v4 : StableHlo.TRef sig ⟨S2, .i1⟩) (.of main_call2_call0_v6 : StableHlo.TRef sig ⟨S2, .f32⟩) (.of main_call2_call0_v11 : StableHlo.TRef sig ⟨S2, .f32⟩) (.of main_call2_v1 : StableHlo.TRef sig ⟨S2, .f32⟩) select,
    StableHlo.TRef.unary main_call2_call0.v12 (.of main_v25 : StableHlo.TRef sig ⟨S2, .f32⟩) Host.negf,
    StableHlo.nullary main_cst_2 (constant S_ .f32 0x00000000#32),
    StableHlo.binary main_v25 main_cst_2 main_v26 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_3 (constant S_ .f32 0xBDCCCCCD#32),
    StableHlo.binary main_cst_3 main_v26 main_v27 (mulf : (⟨S_, .f32⟩ : BufTy).Contents (Elt F) → (⟨S_, .f32⟩ : BufTy).Contents (Elt F) → (⟨S_, .f32⟩ : BufTy).Contents (Elt F)),
    StableHlo.nullary main_cst_4 (constant S_ .f32 0x40000000#32),
    StableHlo.binary main_v27 main_cst_4 main_v28 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x3DCCCCCD#32),
    StableHlo.unary main_cst_5 main_v29 (broadcastInDim S2 ![] bcast_S_S2 : (⟨S_, .f32⟩ : BufTy).Contents (Elt F) → (⟨S2, .f32⟩ : BufTy).Contents (Elt F)),
    StableHlo.binary main_v29 main_v14 main_v30 (mulf : (⟨S2, .f32⟩ : BufTy).Contents (Elt F) → (⟨S2, .f32⟩ : BufTy).Contents (Elt F) → (⟨S2, .f32⟩ : BufTy).Contents (Elt F)),
    StableHlo.nullary main_cst_6 (constant S_ .f32 0x3DCCCCCD#32),
    StableHlo.unary main_cst_6 main_v31 (broadcastInDim S2 ![] bcast_S_S2 : (⟨S_, .f32⟩ : BufTy).Contents (Elt F) → (⟨S2, .f32⟩ : BufTy).Contents (Elt F)),
    StableHlo.binary main_v31 main_v15 main_v32 (mulf : (⟨S2, .f32⟩ : BufTy).Contents (Elt F) → (⟨S2, .f32⟩ : BufTy).Contents (Elt F) → (⟨S2, .f32⟩ : BufTy).Contents (Elt F)),
    StableHlo.nullary main_cst_7 (constant S_ .f32 0x00000000#32),
    StableHlo.binary main_v25 main_cst_7 main_v33 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_8 (constant S_ .f32 0x40000000#32),
    StableHlo.binary main_v33 main_cst_8 main_v34 (Host.divf : (⟨S_, .f32⟩ : BufTy).Contents (Elt F) → (⟨S_, .f32⟩ : BufTy).Contents (Elt F) → (⟨S_, .f32⟩ : BufTy).Contents (Elt F)),
    StableHlo.nullary main_cst_9 (constant S_ .f32 0x00000000#32),
    StableHlo.binary main_v24 main_cst_9 main_v35 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_10 (constant S_ .f32 0x40000000#32),
    StableHlo.binary main_v35 main_cst_10 main_v36 (Host.divf : (⟨S_, .f32⟩ : BufTy).Contents (Elt F) → (⟨S_, .f32⟩ : BufTy).Contents (Elt F) → (⟨S_, .f32⟩ : BufTy).Contents (Elt F)) ]

/-- Each of them touches TensorCore references only. -/
theorem opsTail_sub : (opsTail : List (HloOp τ sig (Elt F))).Forall fun op => op.bufs ⊆ tcRefs τ sig :=
  ⟨StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub ..⟩

end Cert.ReferenceIdeal.RefRun

end
-- ==== Proof.OrpoTail.lean ====
/-
  The part both programs share after the per-token log-probabilities are known.

  From the array `pt` of per-token log-probabilities (four rows of 1024 tokens) and the targets `tg`:
  the mask `m = [tg ≠ -100]` as a float; each row's masked mean `avg = (∑ pt·m) / max(∑ m, 1)`; the first
  two rows' means ("chosen") and the last two ("rejected"); the log-odds `(c - r) - (log1p(-exp c) - log1p(-exp r))`;
  the logarithm of the sigmoid, `-softplus(-x)` with `softplus x = max(x,0) + log1p(exp(-|x|))` guarded against a
  not-a-number argument; and the five results: the loss `-0.1·∑ logσ / 2`, the two rewards `0.1·c`, `0.1·r`, the
  mean of `logσ` and the mean of the log-odds.

  Each result is ONE function of `(pt, tg)`. Both programs end with the same sixty operations, so what each leaves
  in a result buffer is that function of its own per-token array: the reference's of the array it holds, the
  other program's of its column of 4096 values re-read as four rows (`unflat`). The functions are never opened:
  the equalities are by unfolding the fold of the operations, for any float values, then read at the extended reals.
-/
import proofs.«418200_j4621384810879_1_alg».proof.Proof.RefTailOps
import proofs.«418200_j4621384810879_1_alg».proof.Proof.Gen.KernelIdeal.Launch
import Idealize.ShloMosaic.Lib.ValueIdx
import Idealize.ShloMosaic.Lib.ValueLayout
import Idealize.ShloMosaic.Lib.Pipeline.Value

noncomputable section

namespace Cert.OrpoTail

open Cert.ReferenceIdeal Cert.ReferenceIdeal.Gen
open Idealize.ShloMosaic Idealize.ShloMosaic.TcCoe Idealize.SL.Sem Idealize.ShloMosaic.StableHlo
open Idealize.ShloMosaic.ValueIdx

/-! ## The functions, for any float values -/

namespace Any

variable {F : FTy → Type} [FloatOps F]

/-- The scalar zero. -/
def zero : FVec F S_ .f32 := constant S_ .f32 0x00000000#32
/-- Two. -/
def two : FVec F S_ .f32 := constant S_ .f32 0x40000000#32

/-- The mask of the targets that are not -100, as a float: one where the token counts, zero where it does not. -/
def mask (tg : IVec S4x1024 32) : FVec F S4x1024 .f32 :=
  uitofp .f32 (cmpi .ne tg (broadcastInDim S4x1024 ![] bcast_S_S4x1024 (constantI S_ 32 4294967196#32)))

/-- Each row's masked mean: the sum of the counted log-probabilities over the number counted, at least one. -/
def avg (pt : FVec F S4x1024 .f32) (tg : IVec S4x1024 32) : FVec F S4 .f32 :=
  Host.divf (Host.reduceAdd (mulf pt (mask tg)) zero reducesTo_S4x1024_S4_d1 h_S_)
    (maximumf (Host.reduceAdd (mask tg) zero reducesTo_S4x1024_S4_d1 h_S_)
      (broadcastInDim S4 ![] bcast_S_S4 (constant S_ .f32 0x3F800000#32)))

/-- The first two rows' means. -/
def chosen (pt : FVec F S4x1024 .f32) (tg : IVec S4x1024 32) : FVec F S2 .f32 :=
  extractStridedSlice S2 ![0] (avg pt tg) slices_S4_S2_0
/-- The last two rows' means. -/
def rejected (pt : FVec F S4x1024 .f32) (tg : IVec S4x1024 32) : FVec F S2 .f32 :=
  extractStridedSlice S2 ![2] (avg pt tg) slices_S4_S2_2

/-- `log (1 - exp a)`, spelt `log1p (-(exp a))`. -/
def log1mexp (a : FVec F S2 .f32) : FVec F S2 .f32 := Host.log1p (Host.negf (Host.exp a))

/-- The log-odds of chosen against rejected. -/
def logOdds (pt : FVec F S4x1024 .f32) (tg : IVec S4x1024 32) : FVec F S2 .f32 :=
  subf (subf (chosen pt tg) (rejected pt tg)) (subf (log1mexp (chosen pt tg)) (log1mexp (rejected pt tg)))

/-- The zero vector of length two. -/
def zero2 : FVec F S2 .f32 := broadcastInDim S2 ![] bcast_S_S2 zero

/-- `log (1 + exp x)`: `max(x, 0) + log1p (exp (-|x - 0|))`, and `x + 0` where `x - 0` is not a number. -/
def softplus (x : FVec F S2 .f32) : FVec F S2 .f32 :=
  select (cmpf .une (subf x zero2) (subf x zero2)) (addf x zero2)
    (addf (maximumf x zero2) (Host.log1p (Host.exp (Host.negf (Host.absf (subf x zero2))))))

/-- The logarithm of the sigmoid: `-softplus (-x)`. -/
def logSigmoid (x : FVec F S2 .f32) : FVec F S2 .f32 := Host.negf (softplus (Host.negf x))

/-- The sum of the logarithm of the sigmoid of the log-odds over the two pairs. -/
def sumLogSig (pt : FVec F S4x1024 .f32) (tg : IVec S4x1024 32) : FVec F S_ .f32 :=
  Host.reduceAdd (logSigmoid (logOdds pt tg)) zero reducesTo_S2_S_d0 h_S_

def loss (pt : FVec F S4x1024 .f32) (tg : IVec S4x1024 32) : FVec F S_ .f32 :=
  Host.divf (mulf (constant S_ .f32 0xBDCCCCCD#32) (sumLogSig pt tg)) two

def chosenRewards (pt : FVec F S4x1024 .f32) (tg : IVec S4x1024 32) : FVec F S2 .f32 :=
  mulf (broadcastInDim S2 ![] bcast_S_S2 (constant S_ .f32 0x3DCCCCCD#32)) (chosen pt tg)

def rejectedRewards (pt : FVec F S4x1024 .f32) (tg : IVec S4x1024 32) : FVec F S2 .f32 :=
  mulf (broadcastInDim S2 ![] bcast_S_S2 (constant S_ .f32 0x3DCCCCCD#32)) (rejected pt tg)

def logOddsRatio (pt : FVec F S4x1024 .f32) (tg : IVec S4x1024 32) : FVec F S_ .f32 :=
  Host.divf (sumLogSig pt tg) two

def logOddsChosen (pt : FVec F S4x1024 .f32) (tg : IVec S4x1024 32) : FVec F S_ .f32 :=
  Host.divf (Host.reduceAdd (logOdds pt tg) zero reducesTo_S2_S_d0 h_S_) two

/-- A column of 4096 values re-read as four rows of 1024, in row-major order (through the flat vector). -/
def unflat {α : Type} (o : Cert.KernelIdeal.S4096x1.Idx → α) : S4x1024.Idx → α :=
  shapeCast S4x1024 (shapeCast Cert.KernelIdeal.S4096 o Cert.KernelIdeal.Gen.shapeCasts_S4096x1_S4096) Cert.KernelIdeal.Gen.shapeCasts_S4096_S4x1024

end Any

/-! ## Splitting a fold of operations -/

section AnyFloat
variable {F : FTy → Type} [FloatOps F]
open Cert.ReferenceIdeal.RefRun

/-- The fold over a concatenation is the fold over the second list from the fold over the first. -/
private theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- The reference's sixty in three stretches: up to the log-odds, the logarithm of the sigmoid, the results. -/
private abbrev refA : List (HloOp τ sig (Elt F)) :=
  [ StableHlo.nullary main_c (constantI S_ 32 4294967196#32),
    StableHlo.unary main_c main_v5 (broadcastInDim S4x1024 ![] bcast_S_S4x1024 : (⟨S_, .i32⟩ : BufTy).Contents (Elt F) → (⟨S4x1024, .i32⟩ : BufTy).Contents (Elt F)),
    StableHlo.binary main_arg2 main_v5 main_v6 (cmpi .ne : (⟨S4x1024, .i32⟩ : BufTy).Contents (Elt F) → (⟨S4x1024, .i32⟩ : BufTy).Contents (Elt F) → (⟨S4x1024, .i1⟩ : BufTy).Contents (Elt F)),
    StableHlo.unary main_v6 main_v7 (uitofp .f32 : (⟨S4x1024, .i1⟩ : BufTy).Contents (Elt F) → (⟨S4x1024, .f32⟩ : BufTy).Contents (Elt F)),
    StableHlo.binary main_v4 main_v7 main_v8 (mulf : (⟨S4x1024, .f32⟩ : BufTy).Contents (Elt F) → (⟨S4x1024, .f32⟩ : BufTy).Contents (Elt F) → (⟨S4x1024, .f32⟩ : BufTy).Contents (Elt F)),
    StableHlo.nullary main_cst (constant S_ .f32 0x00000000#32),
    StableHlo.binary main_v8 main_cst main_v9 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    StableHlo.nullary main_cst_0 (constant S_ .f32 0x00000000#32),
    StableHlo.binary main_v7 main_cst_0 main_v10 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    StableHlo.nullary main_cst_1 (constant S_ .f32 0x3F800000#32),
    StableHlo.unary main_cst_1 main_v11 (broadcastInDim S4 ![] bcast_S_S4 : (⟨S_, .f32⟩ : BufTy).Contents (Elt F) → (⟨S4, .f32⟩ : BufTy).Contents (Elt F)),
    StableHlo.binary main_v10 main_v11 main_v12 (maximumf : (⟨S4, .f32⟩ : BufTy).Contents (Elt F) → (⟨S4, .f32⟩ : BufTy).Contents (Elt F) → (⟨S4, .f32⟩ : BufTy).Contents (Elt F)),
    StableHlo.binary main_v9 main_v12 main_v13 (Host.divf : (⟨S4, .f32⟩ : BufTy).Contents (Elt F) → (⟨S4, .f32⟩ : BufTy).Contents (Elt F) → (⟨S4, .f32⟩ : BufTy).Contents (Elt F)),
    StableHlo.unary main_v13 main_v14 ((extractStridedSlice S2 ![0] · slices_S4_S2_0) : (⟨S4, .f32⟩ : BufTy).Contents (Elt F) → (⟨S2, .f32⟩ : BufTy).Contents (Elt F)),
    StableHlo.unary main_v13 main_v15 ((extractStridedSlice S2 ![2] · slices_S4_S2_2) : (⟨S4, .f32⟩ : BufTy).Contents (Elt F) → (⟨S2, .f32⟩ : BufTy).Contents (Elt F)),
    StableHlo.binary main_v14 main_v15 main_v16 (subf : (⟨S2, .f32⟩ : BufTy).Contents (Elt F) → (⟨S2, .f32⟩ : BufTy).Contents (Elt F) → (⟨S2, .f32⟩ : BufTy).Contents (Elt F)),
    StableHlo.unary main_v14 main_v17 (Host.exp : (⟨S2, .f32⟩ : BufTy).Contents (Elt F) → (⟨S2, .f32⟩ : BufTy).Contents (Elt F)),
    StableHlo.unary main_v17 main_v18 (Host.negf : (⟨S2, .f32⟩ : BufTy).Contents (Elt F) → (⟨S2, .f32⟩ : BufTy).Contents (Elt F)),
    StableHlo.unary main_v18 main_v19 (Host.log1p : (⟨S2, .f32⟩ : BufTy).Contents (Elt F) → (⟨S2, .f32⟩ : BufTy).Contents (Elt F)),
    StableHlo.unary main_v15 main_v20 (Host.exp : (⟨S2, .f32⟩ : BufTy).Contents (Elt F) → (⟨S2, .f32⟩ : BufTy).Contents (Elt F)),
    StableHlo.unary main_v20 main_v21 (Host.negf : (⟨S2, .f32⟩ : BufTy).Contents (Elt F) → (⟨S2, .f32⟩ : BufTy).Contents (Elt F)),
    StableHlo.unary main_v21 main_v22 (Host.log1p : (⟨S2, .f32⟩ : BufTy).Contents (Elt F) → (⟨S2, .f32⟩ : BufTy).Contents (Elt F)),
    StableHlo.binary main_v19 main_v22 main_v23 (subf : (⟨S2, .f32⟩ : BufTy).Contents (Elt F) → (⟨S2, .f32⟩ : BufTy).Contents (Elt F) → (⟨S2, .f32⟩ : BufTy).Contents (Elt F)),
    StableHlo.binary main_v16 main_v23 main_v24 (subf : (⟨S2, .f32⟩ : BufTy).Contents (Elt F) → (⟨S2, .f32⟩ : BufTy).Contents (Elt F) → (⟨S2, .f32⟩ : BufTy).Contents (Elt F)) ]
private abbrev refB : List (HloOp τ sig (Elt F)) :=
  [ StableHlo.TRef.unary (.of main_v24 : StableHlo.TRef sig ⟨S2, .f32⟩) (.of main_call2_v0 : StableHlo.TRef sig ⟨S2, .f32⟩) Host.negf,
    StableHlo.TRef.nullary (.of main_call2_call0_cst : StableHlo.TRef sig ⟨S_, .f32⟩) (constant S_ .f32 0x00000000#32),
    StableHlo.TRef.unary (.of main_call2_call0_cst : StableHlo.TRef sig ⟨S_, .f32⟩) (.of main_call2_call0_v0 : StableHlo.TRef sig ⟨S2, .f32⟩) (broadcastInDim S2 ![] bcast_S_S2),
    StableHlo.TRef.binary (.of main_call2_v0 : StableHlo.TRef sig ⟨S2, .f32⟩) (.of main_call2_call0_v0 : StableHlo.TRef sig ⟨S2, .f32⟩) (.of main_call2_call0_v1 : StableHlo.TRef sig ⟨S2, .f32⟩) maximumf,
    StableHlo.TRef.unary (.of main_call2_call0_cst : StableHlo.TRef sig ⟨S_, .f32⟩) (.of main_call2_call0_v2 : StableHlo.TRef sig ⟨S2, .f32⟩) (broadcastInDim S2 ![] bcast_S_S2),
    StableHlo.TRef.binary (.of main_call2_v0 : StableHlo.TRef sig ⟨S2, .f32⟩) (.of main_call2_call0_v2 : StableHlo.TRef sig ⟨S2, .f32⟩) (.of main_call2_call0_v3 : StableHlo.TRef sig ⟨S2, .f32⟩) subf,
    StableHlo.TRef.binary (.of main_call2_call0_v3 : StableHlo.TRef sig ⟨S2, .f32⟩) (.of main_call2_call0_v3 : StableHlo.TRef sig ⟨S2, .f32⟩) (.of main_call2_call0_v4 : StableHlo.TRef sig ⟨S2, .i1⟩) (cmpf .une),
    StableHlo.TRef.unary (.of main_call2_call0_cst : StableHlo.TRef sig ⟨S_, .f32⟩) (.of main_call2_call0_v5 : StableHlo.TRef sig ⟨S2, .f32⟩) (broadcastInDim S2 ![] bcast_S_S2),
    StableHlo.TRef.binary (.of main_call2_v0 : StableHlo.TRef sig ⟨S2, .f32⟩) (.of main_call2_call0_v5 : StableHlo.TRef sig ⟨S2, .f32⟩) (.of main_call2_call0_v6 : StableHlo.TRef sig ⟨S2, .f32⟩) addf,
    StableHlo.TRef.unary (.of main_call2_call0_v3 : StableHlo.TRef sig ⟨S2, .f32⟩) (.of main_call2_call0_v7 : StableHlo.TRef sig ⟨S2, .f32⟩) Host.absf,
    StableHlo.TRef.unary (.of main_call2_call0_v7 : StableHlo.TRef sig ⟨S2, .f32⟩) (.of main_call2_call0_v8 : StableHlo.TRef sig ⟨S2, .f32⟩) Host.negf,
    StableHlo.TRef.unary (.of main_call2_call0_v8 : StableHlo.TRef sig ⟨S2, .f32⟩) (.of main_call2_call0_v9 : StableHlo.TRef sig ⟨S2, .f32⟩) Host.exp,
    StableHlo.TRef.unary (.of main_call2_call0_v9 : StableHlo.TRef sig ⟨S2, .f32⟩) (.of main_call2_call0_v10 : StableHlo.TRef sig ⟨S2, .f32⟩) Host.log1p,
    StableHlo.TRef.binary (.of main_call2_call0_v1 : StableHlo.TRef sig ⟨S2, .f32⟩) (.of main_call2_call0_v10 : StableHlo.TRef sig ⟨S2, .f32⟩) (.of main_call2_call0_v11 : StableHlo.TRef sig ⟨S2, .f32⟩) addf,
    StableHlo.TRef.ternary (.of main_call2_call0_v4 : StableHlo.TRef sig ⟨S2, .i1⟩) (.of main_call2_call0_v6 : StableHlo.TRef sig ⟨S2, .f32⟩) (.of main_call2_call0_v11 : StableHlo.TRef sig ⟨S2, .f32⟩) (.of main_call2_v1 : StableHlo.TRef sig ⟨S2, .f32⟩) select,
    StableHlo.TRef.unary main_call2_call0.v12 (.of main_v25 : StableHlo.TRef sig ⟨S2, .f32⟩) Host.negf ]
private abbrev refC : List (HloOp τ sig (Elt F)) :=
  [ StableHlo.nullary main_cst_2 (constant S_ .f32 0x00000000#32),
    StableHlo.binary main_v25 main_cst_2 main_v26 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_3 (constant S_ .f32 0xBDCCCCCD#32),
    StableHlo.binary main_cst_3 main_v26 main_v27 (mulf : (⟨S_, .f32⟩ : BufTy).Contents (Elt F) → (⟨S_, .f32⟩ : BufTy).Contents (Elt F) → (⟨S_, .f32⟩ : BufTy).Contents (Elt F)),
    StableHlo.nullary main_cst_4 (constant S_ .f32 0x40000000#32),
    StableHlo.binary main_v27 main_cst_4 main_v28 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x3DCCCCCD#32),
    StableHlo.unary main_cst_5 main_v29 (broadcastInDim S2 ![] bcast_S_S2 : (⟨S_, .f32⟩ : BufTy).Contents (Elt F) → (⟨S2, .f32⟩ : BufTy).Contents (Elt F)),
    StableHlo.binary main_v29 main_v14 main_v30 (mulf : (⟨S2, .f32⟩ : BufTy).Contents (Elt F) → (⟨S2, .f32⟩ : BufTy).Contents (Elt F) → (⟨S2, .f32⟩ : BufTy).Contents (Elt F)),
    StableHlo.nullary main_cst_6 (constant S_ .f32 0x3DCCCCCD#32),
    StableHlo.unary main_cst_6 main_v31 (broadcastInDim S2 ![] bcast_S_S2 : (⟨S_, .f32⟩ : BufTy).Contents (Elt F) → (⟨S2, .f32⟩ : BufTy).Contents (Elt F)),
    StableHlo.binary main_v31 main_v15 main_v32 (mulf : (⟨S2, .f32⟩ : BufTy).Contents (Elt F) → (⟨S2, .f32⟩ : BufTy).Contents (Elt F) → (⟨S2, .f32⟩ : BufTy).Contents (Elt F)),
    StableHlo.nullary main_cst_7 (constant S_ .f32 0x00000000#32),
    StableHlo.binary main_v25 main_cst_7 main_v33 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_8 (constant S_ .f32 0x40000000#32),
    StableHlo.binary main_v33 main_cst_8 main_v34 (Host.divf : (⟨S_, .f32⟩ : BufTy).Contents (Elt F) → (⟨S_, .f32⟩ : BufTy).Contents (Elt F) → (⟨S_, .f32⟩ : BufTy).Contents (Elt F)),
    StableHlo.nullary main_cst_9 (constant S_ .f32 0x00000000#32),
    StableHlo.binary main_v24 main_cst_9 main_v35 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_10 (constant S_ .f32 0x40000000#32),
    StableHlo.binary main_v35 main_cst_10 main_v36 (Host.divf : (⟨S_, .f32⟩ : BufTy).Contents (Elt F) → (⟨S_, .f32⟩ : BufTy).Contents (Elt F) → (⟨S_, .f32⟩ : BufTy).Contents (Elt F)) ]
private theorem opsTail_split : (opsTail : List (HloOp τ sig (Elt F))) = refA ++ (refB ++ refC) := rfl

/-! ## The reference's last sixty operations, for any float values -/

attribute [local irreducible] Host.reduceAdd Host.divf Host.exp Host.log1p Host.negf Host.absf in
set_option maxRecDepth 8192 in
set_option maxHeartbeats 800000 in
private theorem refA_odds (V : Valuation τ sig (Elt F)) :
    after refA V (main_v24 : DevRef τ sig) = Any.logOdds (V (main_v4 : DevRef τ sig)) (V (main_arg2 : DevRef τ sig)) := by
  simp only [after_cons, after_nil]
  rfl

attribute [local irreducible] Host.reduceAdd Host.divf Host.exp Host.log1p Host.negf Host.absf in
set_option maxRecDepth 8192 in
set_option maxHeartbeats 800000 in
private theorem refB_sig (V : Valuation τ sig (Elt F)) :
    after refB V (main_v25 : DevRef τ sig) = Any.logSigmoid (V (main_v24 : DevRef τ sig)) := by
  simp only [after_cons, after_nil]
  rfl

attribute [local irreducible] Host.reduceAdd Host.divf Host.exp Host.log1p Host.negf Host.absf in
set_option maxRecDepth 8192 in
set_option maxHeartbeats 800000 in
private theorem refC_loss (V : Valuation τ sig (Elt F)) :
    after refC V (main_v28 : DevRef τ sig)
      = Host.divf (mulf (constant S_ .f32 0xBDCCCCCD#32) (Host.reduceAdd (V (main_v25 : DevRef τ sig)) Any.zero reducesTo_S2_S_d0 h_S_)) Any.two := by
  simp only [after_cons, after_nil]
  rfl

attribute [local irreducible] Host.reduceAdd Host.divf Host.exp Host.log1p Host.negf Host.absf in
set_option maxRecDepth 8192 in
set_option maxHeartbeats 800000 in
private theorem refC_ratio (V : Valuation τ sig (Elt F)) :
    after refC V (main_v34 : DevRef τ sig)
      = Host.divf (Host.reduceAdd (V (main_v25 : DevRef τ sig)) Any.zero reducesTo_S2_S_d0 h_S_) Any.two := by
  simp only [after_cons, after_nil]
  rfl

theorem Any.tailR_loss (W : Valuation τ sig (Elt F)) :
    after opsTail W (main_v28 : DevRef τ sig) = Any.loss (W (main_v4 : DevRef τ sig)) (W (main_arg2 : DevRef τ sig)) := by
  rw [opsTail_split, after_app, after_app, refC_loss, refB_sig, refA_odds]
  rfl

theorem Any.tailR_ratio (W : Valuation τ sig (Elt F)) :
    after opsTail W (main_v34 : DevRef τ sig) = Any.logOddsRatio (W (main_v4 : DevRef τ sig)) (W (main_arg2 : DevRef τ sig)) := by
  rw [opsTail_split, after_app, after_app, refC_ratio, refB_sig, refA_odds]
  rfl

attribute [local irreducible] Host.reduceAdd Host.divf Host.exp Host.log1p Host.negf Host.absf in
set_option maxRecDepth 8192 in
set_option maxHeartbeats 800000 in
theorem Any.tailR_chosen (W : Valuation τ sig (Elt F)) :
    after opsTail W (main_v30 : DevRef τ sig) = Any.chosenRewards (W (main_v4 : DevRef τ sig)) (W (main_arg2 : DevRef τ sig)) := by
  simp only [after_cons, after_nil]
  rfl

attribute [local irreducible] Host.reduceAdd Host.divf Host.exp Host.log1p Host.negf Host.absf in
set_option maxRecDepth 8192 in
set_option maxHeartbeats 800000 in
theorem Any.tailR_rejected (W : Valuation τ sig (Elt F)) :
    after opsTail W (main_v32 : DevRef τ sig) = Any.rejectedRewards (W (main_v4 : DevRef τ sig)) (W (main_arg2 : DevRef τ sig)) := by
  simp only [after_cons, after_nil]
  rfl

attribute [local irreducible] Host.reduceAdd Host.divf Host.exp Host.log1p Host.negf Host.absf in
set_option maxRecDepth 8192 in
set_option maxHeartbeats 800000 in
theorem Any.tailR_oddsChosen (W : Valuation τ sig (Elt F)) :
    after opsTail W (main_v36 : DevRef τ sig) = Any.logOddsChosen (W (main_v4 : DevRef τ sig)) (W (main_arg2 : DevRef τ sig)) := by
  simp only [after_cons, after_nil]
  rfl

/-! ## The other program's last sixty-two operations, for any float values -/

attribute [local irreducible] Host.reduceAdd Host.divf Host.exp Host.log1p Host.negf Host.absf in
set_option maxRecDepth 8192 in
set_option maxHeartbeats 800000 in
private theorem kerA_odds (V : Valuation Cert.KernelIdeal.τ Cert.KernelIdeal.sig (Elt F)) :
    after Cert.KernelIdeal.Gen.hostOps1 V (Cert.KernelIdeal.main_v25 : DevRef Cert.KernelIdeal.τ Cert.KernelIdeal.sig) = Any.logOdds (Any.unflat (V (Cert.KernelIdeal.main_v3 : DevRef Cert.KernelIdeal.τ Cert.KernelIdeal.sig))) (V (Cert.KernelIdeal.main_arg2 : DevRef Cert.KernelIdeal.τ Cert.KernelIdeal.sig)) := by
  simp only [after_cons, after_nil]
  rfl

attribute [local irreducible] Host.reduceAdd Host.divf Host.exp Host.log1p Host.negf Host.absf in
set_option maxRecDepth 8192 in
set_option maxHeartbeats 800000 in
private theorem kerB_sig (V : Valuation Cert.KernelIdeal.τ Cert.KernelIdeal.sig (Elt F)) :
    after Cert.KernelIdeal.Gen.hostOps1_1 V (Cert.KernelIdeal.main_v26 : DevRef Cert.KernelIdeal.τ Cert.KernelIdeal.sig) = Any.logSigmoid (V (Cert.KernelIdeal.main_v25 : DevRef Cert.KernelIdeal.τ Cert.KernelIdeal.sig)) := by
  simp only [after_cons, after_nil]
  rfl

attribute [local irreducible] Host.reduceAdd Host.divf Host.exp Host.log1p Host.negf Host.absf in
set_option maxRecDepth 8192 in
set_option maxHeartbeats 800000 in
private theorem kerC_loss (V : Valuation Cert.KernelIdeal.τ Cert.KernelIdeal.sig (Elt F)) :
    after Cert.KernelIdeal.Gen.hostOps1_2 V (Cert.KernelIdeal.main_v29 : DevRef Cert.KernelIdeal.τ Cert.KernelIdeal.sig)
      = Host.divf (mulf (constant S_ .f32 0xBDCCCCCD#32) (Host.reduceAdd (V (Cert.KernelIdeal.main_v26 : DevRef Cert.KernelIdeal.τ Cert.KernelIdeal.sig)) Any.zero reducesTo_S2_S_d0 h_S_)) Any.two := by
  simp only [after_cons, after_nil]
  rfl

attribute [local irreducible] Host.reduceAdd Host.divf Host.exp Host.log1p Host.negf Host.absf in
set_option maxRecDepth 8192 in
set_option maxHeartbeats 800000 in
private theorem kerC_ratio (V : Valuation Cert.KernelIdeal.τ Cert.KernelIdeal.sig (Elt F)) :
    after Cert.KernelIdeal.Gen.hostOps1_2 V (Cert.KernelIdeal.main_v35 : DevRef Cert.KernelIdeal.τ Cert.KernelIdeal.sig)
      = Host.divf (Host.reduceAdd (V (Cert.KernelIdeal.main_v26 : DevRef Cert.KernelIdeal.τ Cert.KernelIdeal.sig)) Any.zero reducesTo_S2_S_d0 h_S_) Any.two := by
  simp only [after_cons, after_nil]
  rfl

private theorem flatten3 {α : Type} (a b c : List α) : List.flatten [a, b, c] = a ++ (b ++ c) := by
  simp only [List.flatten_cons, List.flatten_nil, List.append_nil]

theorem Any.tailK_loss (W : Valuation Cert.KernelIdeal.τ Cert.KernelIdeal.sig (Elt F)) :
    after (List.flatten [Cert.KernelIdeal.Gen.hostOps1, Cert.KernelIdeal.Gen.hostOps1_1, Cert.KernelIdeal.Gen.hostOps1_2]) W (Cert.KernelIdeal.main_v29 : DevRef Cert.KernelIdeal.τ Cert.KernelIdeal.sig)
      = Any.loss (Any.unflat (W (Cert.KernelIdeal.main_v3 : DevRef Cert.KernelIdeal.τ Cert.KernelIdeal.sig))) (W (Cert.KernelIdeal.main_arg2 : DevRef Cert.KernelIdeal.τ Cert.KernelIdeal.sig)) := by
  rw [flatten3, after_app, after_app, kerC_loss, kerB_sig, kerA_odds]
  rfl

theorem Any.tailK_ratio (W : Valuation Cert.KernelIdeal.τ Cert.KernelIdeal.sig (Elt F)) :
    after (List.flatten [Cert.KernelIdeal.Gen.hostOps1, Cert.KernelIdeal.Gen.hostOps1_1, Cert.KernelIdeal.Gen.hostOps1_2]) W (Cert.KernelIdeal.main_v35 : DevRef Cert.KernelIdeal.τ Cert.KernelIdeal.sig)
      = Any.logOddsRatio (Any.unflat (W (Cert.KernelIdeal.main_v3 : DevRef Cert.KernelIdeal.τ Cert.KernelIdeal.sig))) (W (Cert.KernelIdeal.main_arg2 : DevRef Cert.KernelIdeal.τ Cert.KernelIdeal.sig)) := by
  rw [flatten3, after_app, after_app, kerC_ratio, kerB_sig, kerA_odds]
  rfl

attribute [local irreducible] Host.reduceAdd Host.divf Host.exp Host.log1p Host.negf Host.absf in
set_option maxRecDepth 8192 in
set_option maxHeartbeats 800000 in
theorem Any.tailK_chosen (W : Valuation Cert.KernelIdeal.τ Cert.KernelIdeal.sig (Elt F)) :
    after (List.flatten [Cert.KernelIdeal.Gen.hostOps1, Cert.KernelIdeal.Gen.hostOps1_1, Cert.KernelIdeal.Gen.hostOps1_2]) W (Cert.KernelIdeal.main_v31 : DevRef Cert.KernelIdeal.τ Cert.KernelIdeal.sig)
      = Any.chosenRewards (Any.unflat (W (Cert.KernelIdeal.main_v3 : DevRef Cert.KernelIdeal.τ Cert.KernelIdeal.sig))) (W (Cert.KernelIdeal.main_arg2 : DevRef Cert.KernelIdeal.τ Cert.KernelIdeal.sig)) := by
  simp only [Cert.KernelIdeal.Gen.hostOps1, Cert.KernelIdeal.Gen.hostOps1_1, Cert.KernelIdeal.Gen.hostOps1_2, List.flatten_cons, List.flatten_nil, List.append_nil, List.cons_append, List.nil_append]
  simp only [after_cons, after_nil]
  rfl

attribute [local irreducible] Host.reduceAdd Host.divf Host.exp Host.log1p Host.negf Host.absf in
set_option maxRecDepth 8192 in
set_option maxHeartbeats 800000 in
theorem Any.tailK_rejected (W : Valuation Cert.KernelIdeal.τ Cert.KernelIdeal.sig (Elt F)) :
    after (List.flatten [Cert.KernelIdeal.Gen.hostOps1, Cert.KernelIdeal.Gen.hostOps1_1, Cert.KernelIdeal.Gen.hostOps1_2]) W (Cert.KernelIdeal.main_v33 : DevRef Cert.KernelIdeal.τ Cert.KernelIdeal.sig)
      = Any.rejectedRewards (Any.unflat (W (Cert.KernelIdeal.main_v3 : DevRef Cert.KernelIdeal.τ Cert.KernelIdeal.sig))) (W (Cert.KernelIdeal.main_arg2 : DevRef Cert.KernelIdeal.τ Cert.KernelIdeal.sig)) := by
  simp only [Cert.KernelIdeal.Gen.hostOps1, Cert.KernelIdeal.Gen.hostOps1_1, Cert.KernelIdeal.Gen.hostOps1_2, List.flatten_cons, List.flatten_nil, List.append_nil, List.cons_append, List.nil_append]
  simp only [after_cons, after_nil]
  rfl

attribute [local irreducible] Host.reduceAdd Host.divf Host.exp Host.log1p Host.negf Host.absf in
set_option maxRecDepth 8192 in
set_option maxHeartbeats 800000 in
theorem Any.tailK_oddsChosen (W : Valuation Cert.KernelIdeal.τ Cert.KernelIdeal.sig (Elt F)) :
    after (List.flatten [Cert.KernelIdeal.Gen.hostOps1, Cert.KernelIdeal.Gen.hostOps1_1, Cert.KernelIdeal.Gen.hostOps1_2]) W (Cert.KernelIdeal.main_v37 : DevRef Cert.KernelIdeal.τ Cert.KernelIdeal.sig)
      = Any.logOddsChosen (Any.unflat (W (Cert.KernelIdeal.main_v3 : DevRef Cert.KernelIdeal.τ Cert.KernelIdeal.sig))) (W (Cert.KernelIdeal.main_arg2 : DevRef Cert.KernelIdeal.τ Cert.KernelIdeal.sig)) := by
  simp only [Cert.KernelIdeal.Gen.hostOps1, Cert.KernelIdeal.Gen.hostOps1_1, Cert.KernelIdeal.Gen.hostOps1_2, List.flatten_cons, List.flatten_nil, List.append_nil, List.cons_append, List.nil_append]
  simp only [after_cons, after_nil]
  rfl

end AnyFloat

/-! ## At the extended reals -/

/-- Each row's masked mean. -/
def avg (pt : FVec Ideal S4x1024 .f32) (tg : IVec S4x1024 32) : FVec Ideal S4 .f32 := Any.avg pt tg
/-- The first two rows' means. -/
def chosen (pt : FVec Ideal S4x1024 .f32) (tg : IVec S4x1024 32) : FVec Ideal S2 .f32 := Any.chosen pt tg
/-- The last two rows' means. -/
def rejected (pt : FVec Ideal S4x1024 .f32) (tg : IVec S4x1024 32) : FVec Ideal S2 .f32 := Any.rejected pt tg
/-- The log-odds of chosen against rejected. -/
def logOdds (pt : FVec Ideal S4x1024 .f32) (tg : IVec S4x1024 32) : FVec Ideal S2 .f32 := Any.logOdds pt tg
/-- The logarithm of the sigmoid. -/
def logSigmoid (x : FVec Ideal S2 .f32) : FVec Ideal S2 .f32 := Any.logSigmoid x
/-- The loss: minus a tenth of the sum of the logarithm of the sigmoid of the log-odds, halved. -/
def loss (pt : FVec Ideal S4x1024 .f32) (tg : IVec S4x1024 32) : FVec Ideal S_ .f32 := Any.loss pt tg
/-- A tenth of the chosen rows' means. -/
def chosenRewards (pt : FVec Ideal S4x1024 .f32) (tg : IVec S4x1024 32) : FVec Ideal S2 .f32 := Any.chosenRewards pt tg
/-- A tenth of the rejected rows' means. -/
def rejectedRewards (pt : FVec Ideal S4x1024 .f32) (tg : IVec S4x1024 32) : FVec Ideal S2 .f32 := Any.rejectedRewards pt tg
/-- The mean over the two pairs of the logarithm of the sigmoid of the log-odds. -/
def logOddsRatio (pt : FVec Ideal S4x1024 .f32) (tg : IVec S4x1024 32) : FVec Ideal S_ .f32 := Any.logOddsRatio pt tg
/-- The mean over the two pairs of the log-odds. -/
def logOddsChosen (pt : FVec Ideal S4x1024 .f32) (tg : IVec S4x1024 32) : FVec Ideal S_ .f32 := Any.logOddsChosen pt tg

/-- A column of 4096 values re-read as four rows of 1024 in row-major order. -/
def unflat (o : FVec Ideal Cert.KernelIdeal.S4096x1 .f32) : FVec Ideal S4x1024 .f32 := Any.unflat o

/-- Row `b`, place `r` of the four rows is entry `1024·b + r` of the column. -/
theorem unflat_apply (o : FVec Ideal Cert.KernelIdeal.S4096x1 .f32) (b : Fin 4) (r : Fin 1024) (n : Fin 4096)
    (hn : n.val = 1024 * b.val + r.val) : unflat o (ValueIdx.ix2 b r) = o (ValueIdx.ix2 n (0 : Fin 1)) := by
  unfold unflat Any.unflat
  rw [shapeCast_apply _ _ (ix2 b r) (ix1 n) (by
    rw [Shape.rowMajor_val_one, Shape.rowMajor_val_two]
    show n.val = b.val * 1024 + r.val
    omega)]
  exact shapeCast_apply o _ (ix1 n) (ix2 n (0 : Fin 1)) (by
    rw [Shape.rowMajor_val_two, Shape.rowMajor_val_one]
    show n.val * 1 + 0 = n.val
    omega)

/-! ### The reference -/

theorem tailR_loss (W : Valuation Cert.ReferenceIdeal.τ Cert.ReferenceIdeal.sig (Elt Ideal)) :
    after Cert.ReferenceIdeal.RefRun.opsTail W (Cert.ReferenceIdeal.main_v28 : DevRef Cert.ReferenceIdeal.τ Cert.ReferenceIdeal.sig) = loss (W (Cert.ReferenceIdeal.main_v4 : DevRef Cert.ReferenceIdeal.τ Cert.ReferenceIdeal.sig)) (W (Cert.ReferenceIdeal.main_arg2 : DevRef Cert.ReferenceIdeal.τ Cert.ReferenceIdeal.sig)) :=
  Any.tailR_loss W
theorem tailR_chosen (W : Valuation Cert.ReferenceIdeal.τ Cert.ReferenceIdeal.sig (Elt Ideal)) :
    after Cert.ReferenceIdeal.RefRun.opsTail W (Cert.ReferenceIdeal.main_v30 : DevRef Cert.ReferenceIdeal.τ Cert.ReferenceIdeal.sig) = chosenRewards (W (Cert.ReferenceIdeal.main_v4 : DevRef Cert.ReferenceIdeal.τ Cert.ReferenceIdeal.sig)) (W (Cert.ReferenceIdeal.main_arg2 : DevRef Cert.ReferenceIdeal.τ Cert.ReferenceIdeal.sig)) :=
  Any.tailR_chosen W
theorem tailR_rejected (W : Valuation Cert.ReferenceIdeal.τ Cert.ReferenceIdeal.sig (Elt Ideal)) :
    after Cert.ReferenceIdeal.RefRun.opsTail W (Cert.ReferenceIdeal.main_v32 : DevRef Cert.ReferenceIdeal.τ Cert.ReferenceIdeal.sig) = rejectedRewards (W (Cert.ReferenceIdeal.main_v4 : DevRef Cert.ReferenceIdeal.τ Cert.ReferenceIdeal.sig)) (W (Cert.ReferenceIdeal.main_arg2 : DevRef Cert.ReferenceIdeal.τ Cert.ReferenceIdeal.sig)) :=
  Any.tailR_rejected W
theorem tailR_ratio (W : Valuation Cert.ReferenceIdeal.τ Cert.ReferenceIdeal.sig (Elt Ideal)) :
    after Cert.ReferenceIdeal.RefRun.opsTail W (Cert.ReferenceIdeal.main_v34 : DevRef Cert.ReferenceIdeal.τ Cert.ReferenceIdeal.sig) = logOddsRatio (W (Cert.ReferenceIdeal.main_v4 : DevRef Cert.ReferenceIdeal.τ Cert.ReferenceIdeal.sig)) (W (Cert.ReferenceIdeal.main_arg2 : DevRef Cert.ReferenceIdeal.τ Cert.ReferenceIdeal.sig)) :=
  Any.tailR_ratio W
theorem tailR_oddsChosen (W : Valuation Cert.ReferenceIdeal.τ Cert.ReferenceIdeal.sig (Elt Ideal)) :
    after Cert.ReferenceIdeal.RefRun.opsTail W (Cert.ReferenceIdeal.main_v36 : DevRef Cert.ReferenceIdeal.τ Cert.ReferenceIdeal.sig) = logOddsChosen (W (Cert.ReferenceIdeal.main_v4 : DevRef Cert.ReferenceIdeal.τ Cert.ReferenceIdeal.sig)) (W (Cert.ReferenceIdeal.main_arg2 : DevRef Cert.ReferenceIdeal.τ Cert.ReferenceIdeal.sig)) :=
  Any.tailR_oddsChosen W

theorem tailR_arg0 (W : Valuation Cert.ReferenceIdeal.τ Cert.ReferenceIdeal.sig (Elt Ideal)) :
    after Cert.ReferenceIdeal.RefRun.opsTail W (Cert.ReferenceIdeal.main_arg0 : DevRef Cert.ReferenceIdeal.τ Cert.ReferenceIdeal.sig) = W (Cert.ReferenceIdeal.main_arg0 : DevRef Cert.ReferenceIdeal.τ Cert.ReferenceIdeal.sig) := by
  simp only [after_cons, after_nil]
  rfl
theorem tailR_arg1 (W : Valuation Cert.ReferenceIdeal.τ Cert.ReferenceIdeal.sig (Elt Ideal)) :
    after Cert.ReferenceIdeal.RefRun.opsTail W (Cert.ReferenceIdeal.main_arg1 : DevRef Cert.ReferenceIdeal.τ Cert.ReferenceIdeal.sig) = W (Cert.ReferenceIdeal.main_arg1 : DevRef Cert.ReferenceIdeal.τ Cert.ReferenceIdeal.sig) := by
  simp only [after_cons, after_nil]
  rfl
theorem tailR_arg2 (W : Valuation Cert.ReferenceIdeal.τ Cert.ReferenceIdeal.sig (Elt Ideal)) :
    after Cert.ReferenceIdeal.RefRun.opsTail W (Cert.ReferenceIdeal.main_arg2 : DevRef Cert.ReferenceIdeal.τ Cert.ReferenceIdeal.sig) = W (Cert.ReferenceIdeal.main_arg2 : DevRef Cert.ReferenceIdeal.τ Cert.ReferenceIdeal.sig) := by
  simp only [after_cons, after_nil]
  rfl

/-! ### The other program -/

theorem tailK_loss (W : Valuation Cert.KernelIdeal.τ Cert.KernelIdeal.sig (Elt Ideal)) :
    after (List.flatten [Cert.KernelIdeal.Gen.hostOps1, Cert.KernelIdeal.Gen.hostOps1_1, Cert.KernelIdeal.Gen.hostOps1_2]) W (Cert.KernelIdeal.main_v29 : DevRef Cert.KernelIdeal.τ Cert.KernelIdeal.sig) = loss (unflat (W (Cert.KernelIdeal.main_v3 : DevRef Cert.KernelIdeal.τ Cert.KernelIdeal.sig))) (W (Cert.KernelIdeal.main_arg2 : DevRef Cert.KernelIdeal.τ Cert.KernelIdeal.sig)) :=
  Any.tailK_loss W
theorem tailK_chosen (W : Valuation Cert.KernelIdeal.τ Cert.KernelIdeal.sig (Elt Ideal)) :
    after (List.flatten [Cert.KernelIdeal.Gen.hostOps1, Cert.KernelIdeal.Gen.hostOps1_1, Cert.KernelIdeal.Gen.hostOps1_2]) W (Cert.KernelIdeal.main_v31 : DevRef Cert.KernelIdeal.τ Cert.KernelIdeal.sig) = chosenRewards (unflat (W (Cert.KernelIdeal.main_v3 : DevRef Cert.KernelIdeal.τ Cert.KernelIdeal.sig))) (W (Cert.KernelIdeal.main_arg2 : DevRef Cert.KernelIdeal.τ Cert.KernelIdeal.sig)) :=
  Any.tailK_chosen W
theorem tailK_rejected (W : Valuation Cert.KernelIdeal.τ Cert.KernelIdeal.sig (Elt Ideal)) :
    after (List.flatten [Cert.KernelIdeal.Gen.hostOps1, Cert.KernelIdeal.Gen.hostOps1_1, Cert.KernelIdeal.Gen.hostOps1_2]) W (Cert.KernelIdeal.main_v33 : DevRef Cert.KernelIdeal.τ Cert.KernelIdeal.sig) = rejectedRewards (unflat (W (Cert.KernelIdeal.main_v3 : DevRef Cert.KernelIdeal.τ Cert.KernelIdeal.sig))) (W (Cert.KernelIdeal.main_arg2 : DevRef Cert.KernelIdeal.τ Cert.KernelIdeal.sig)) :=
  Any.tailK_rejected W
theorem tailK_ratio (W : Valuation Cert.KernelIdeal.τ Cert.KernelIdeal.sig (Elt Ideal)) :
    after (List.flatten [Cert.KernelIdeal.Gen.hostOps1, Cert.KernelIdeal.Gen.hostOps1_1, Cert.KernelIdeal.Gen.hostOps1_2]) W (Cert.KernelIdeal.main_v35 : DevRef Cert.KernelIdeal.τ Cert.KernelIdeal.sig) = logOddsRatio (unflat (W (Cert.KernelIdeal.main_v3 : DevRef Cert.KernelIdeal.τ Cert.KernelIdeal.sig))) (W (Cert.KernelIdeal.main_arg2 : DevRef Cert.KernelIdeal.τ Cert.KernelIdeal.sig)) :=
  Any.tailK_ratio W
theorem tailK_oddsChosen (W : Valuation Cert.KernelIdeal.τ Cert.KernelIdeal.sig (Elt Ideal)) :
    after (List.flatten [Cert.KernelIdeal.Gen.hostOps1, Cert.KernelIdeal.Gen.hostOps1_1, Cert.KernelIdeal.Gen.hostOps1_2]) W (Cert.KernelIdeal.main_v37 : DevRef Cert.KernelIdeal.τ Cert.KernelIdeal.sig) = logOddsChosen (unflat (W (Cert.KernelIdeal.main_v3 : DevRef Cert.KernelIdeal.τ Cert.KernelIdeal.sig))) (W (Cert.KernelIdeal.main_arg2 : DevRef Cert.KernelIdeal.τ Cert.KernelIdeal.sig)) :=
  Any.tailK_oddsChosen W

theorem tailK_arg0 (W : Valuation Cert.KernelIdeal.τ Cert.KernelIdeal.sig (Elt Ideal)) :
    after (List.flatten [Cert.KernelIdeal.Gen.hostOps1, Cert.KernelIdeal.Gen.hostOps1_1, Cert.KernelIdeal.Gen.hostOps1_2]) W (Cert.KernelIdeal.main_arg0 : DevRef Cert.KernelIdeal.τ Cert.KernelIdeal.sig) = W (Cert.KernelIdeal.main_arg0 : DevRef Cert.KernelIdeal.τ Cert.KernelIdeal.sig) := by
  simp only [Cert.KernelIdeal.Gen.hostOps1, Cert.KernelIdeal.Gen.hostOps1_1, Cert.KernelIdeal.Gen.hostOps1_2, List.flatten_cons, List.flatten_nil, List.append_nil, List.cons_append, List.nil_append]
  simp only [after_cons, after_nil]
  rfl
theorem tailK_arg1 (W : Valuation Cert.KernelIdeal.τ Cert.KernelIdeal.sig (Elt Ideal)) :
    after (List.flatten [Cert.KernelIdeal.Gen.hostOps1, Cert.KernelIdeal.Gen.hostOps1_1, Cert.KernelIdeal.Gen.hostOps1_2]) W (Cert.KernelIdeal.main_arg1 : DevRef Cert.KernelIdeal.τ Cert.KernelIdeal.sig) = W (Cert.KernelIdeal.main_arg1 : DevRef Cert.KernelIdeal.τ Cert.KernelIdeal.sig) := by
  simp only [Cert.KernelIdeal.Gen.hostOps1, Cert.KernelIdeal.Gen.hostOps1_1, Cert.KernelIdeal.Gen.hostOps1_2, List.flatten_cons, List.flatten_nil, List.append_nil, List.cons_append, List.nil_append]
  simp only [after_cons, after_nil]
  rfl
theorem tailK_arg2 (W : Valuation Cert.KernelIdeal.τ Cert.KernelIdeal.sig (Elt Ideal)) :
    after (List.flatten [Cert.KernelIdeal.Gen.hostOps1, Cert.KernelIdeal.Gen.hostOps1_1, Cert.KernelIdeal.Gen.hostOps1_2]) W (Cert.KernelIdeal.main_arg2 : DevRef Cert.KernelIdeal.τ Cert.KernelIdeal.sig) = W (Cert.KernelIdeal.main_arg2 : DevRef Cert.KernelIdeal.τ Cert.KernelIdeal.sig) := by
  simp only [Cert.KernelIdeal.Gen.hostOps1, Cert.KernelIdeal.Gen.hostOps1_1, Cert.KernelIdeal.Gen.hostOps1_2, List.flatten_cons, List.flatten_nil, List.append_nil, List.cons_append, List.nil_append]
  simp only [after_cons, after_nil]
  rfl

end Cert.OrpoTail

end
-- ==== Proof.KernelRun.lean ====
/-
  The kernel's five results.

  After the region the program recasts the `[4096, 1]` array of per-token log-probabilities to `[4, 1024]` and applies
  the loss's trailing host operations to it and to the targets. The region leaves that array holding every token's
  log-softmax at its target (for real inputs and targets inside the vocabulary), so each result is the trailing
  operations' function of the `[4, 1024]` array of per-token log-probabilities.
-/
import proofs.«418200_j4621384810879_1_alg».proof.Proof.KernelFinal
import proofs.«418200_j4621384810879_1_alg».proof.Proof.OrpoTail

noncomputable section

namespace Cert.KernelIdeal.Run

open Idealize.ShloMosaic Idealize.ShloMosaic.TcCoe Idealize.ShloMosaic.ValueIdx Idealize.SL.Sem Idealize.ShloMosaic.StableHlo
open Cert.KernelIdeal Cert.KernelIdeal.Gen Cert.KernelIdeal.HostIn Cert.KernelIdeal.Final Cert.FlashLogprob

variable (m : (ℓ : Loc nD τ sig) → Buf (Elt Ideal) ℓ) (ρ : Dev nD → PrngReg)

/-- What the trailing host operations start from: the region-entry contents, with the staged arrays at what the
    region left in them. -/
abbrev Wend (c : Dev nD) : Valuation τ sig (Elt Ideal) :=
  Pipeline.withArrays (cfgs 0).spec c (V0 m c) fun w => (dats m 0 c).arrAt w (cfgs 0).N

/-- The recast `[4096, 1] → [4, 1024]` of the flattened per-token array is the per-token array. -/
theorem unflat_perTok (c : Dev nD) :
    Cert.OrpoTail.unflat (perTokFlat m c) = perTokArr (xarg m c) (warg m c) (targ m c) := by
  funext i
  obtain ⟨b, r, rfl⟩ : ∃ (b : Fin 4) (r : Fin 1024), i = ix2 b r := ⟨i 0, i 1, eq_ix2 i⟩
  have hr := r.isLt
  have hb := b.isLt
  rw [Cert.OrpoTail.unflat_apply _ b r ⟨1024 * b.val + r.val, by omega⟩ rfl, perTokFlat_at m c _ b r rfl]
  rfl

section
variable (c : Dev nD)
  (hx : ∀ i, ∃ a : ℝ, xarg m c i = (a : EReal)) (hw : ∀ i, ∃ a : ℝ, warg m c i = (a : EReal))
  (ht : ∀ i, (targ m c i).toNat < 50257)
include hx hw ht

/-- The output array, as the trailing operations find it. -/
theorem Wend_out : Wend m c (main_v3 : DevRef τ sig) = perTokFlat m c :=
  (Pipeline.withArrays_arr spec0 launch0.win.arr_inj c _ _ 3).trans (final m c hx hw ht)

omit hx hw ht in
/-- The targets, as the trailing operations find them. -/
theorem Wend_tgt : Wend m c (main_arg2 : DevRef τ sig) = targ m c :=
  (Pipeline.withArrays_of_ne spec0 c _ _ main_arg2 (by decide)).trans (V_main_arg2 m c)

theorem res_loss : Pipeline.afterTail₀ cfgs (dats m) 0 (V0 m) [hostOps1, hostOps1_1, hostOps1_2] c main_v29
    = Cert.OrpoTail.loss (perTokArr (xarg m c) (warg m c) (targ m c)) (targ m c) := by
  show after (List.flatten [hostOps1, hostOps1_1, hostOps1_2]) (Wend m c) (main_v29 : DevRef τ sig) = _
  rw [Cert.OrpoTail.tailK_loss, Wend_out m c hx hw ht, Wend_tgt m c, unflat_perTok]

theorem res_chosen : Pipeline.afterTail₀ cfgs (dats m) 0 (V0 m) [hostOps1, hostOps1_1, hostOps1_2] c main_v31
    = Cert.OrpoTail.chosenRewards (perTokArr (xarg m c) (warg m c) (targ m c)) (targ m c) := by
  show after (List.flatten [hostOps1, hostOps1_1, hostOps1_2]) (Wend m c) (main_v31 : DevRef τ sig) = _
  rw [Cert.OrpoTail.tailK_chosen, Wend_out m c hx hw ht, Wend_tgt m c, unflat_perTok]

theorem res_rejected : Pipeline.afterTail₀ cfgs (dats m) 0 (V0 m) [hostOps1, hostOps1_1, hostOps1_2] c main_v33
    = Cert.OrpoTail.rejectedRewards (perTokArr (xarg m c) (warg m c) (targ m c)) (targ m c) := by
  show after (List.flatten [hostOps1, hostOps1_1, hostOps1_2]) (Wend m c) (main_v33 : DevRef τ sig) = _
  rw [Cert.OrpoTail.tailK_rejected, Wend_out m c hx hw ht, Wend_tgt m c, unflat_perTok]

theorem res_ratio : Pipeline.afterTail₀ cfgs (dats m) 0 (V0 m) [hostOps1, hostOps1_1, hostOps1_2] c main_v35
    = Cert.OrpoTail.logOddsRatio (perTokArr (xarg m c) (warg m c) (targ m c)) (targ m c) := by
  show after (List.flatten [hostOps1, hostOps1_1, hostOps1_2]) (Wend m c) (main_v35 : DevRef τ sig) = _
  rw [Cert.OrpoTail.tailK_ratio, Wend_out m c hx hw ht, Wend_tgt m c, unflat_perTok]

theorem res_oddsChosen : Pipeline.afterTail₀ cfgs (dats m) 0 (V0 m) [hostOps1, hostOps1_1, hostOps1_2] c main_v37
    = Cert.OrpoTail.logOddsChosen (perTokArr (xarg m c) (warg m c) (targ m c)) (targ m c) := by
  show after (List.flatten [hostOps1, hostOps1_1, hostOps1_2]) (Wend m c) (main_v37 : DevRef τ sig) = _
  rw [Cert.OrpoTail.tailK_oddsChosen, Wend_out m c hx hw ht, Wend_tgt m c, unflat_perTok]

end

/-- The run, read: the five results at the trailing operations' functions of the per-token array, the arguments
    unchanged. -/
theorem run (hx : ∀ c i, ∃ a : ℝ, xarg m c i = (a : EReal)) (hw : ∀ c i, ∃ a : ℝ, warg m c i = (a : EReal))
    (ht : ∀ c i, (targ m c i).toNat < 50257) :
    θ_run defs (onTc (τ := τ) (main (F := Ideal))) ⟨m, fun _ => 0, ρ⟩ fun r => ∀ c : Dev nD,
      r.2.mem ((c.tc : Thread nD τ).loc main_v29) = Cert.OrpoTail.loss (perTokArr (xarg m c) (warg m c) (targ m c)) (targ m c)
      ∧ r.2.mem ((c.tc : Thread nD τ).loc main_v31) = Cert.OrpoTail.chosenRewards (perTokArr (xarg m c) (warg m c) (targ m c)) (targ m c)
      ∧ r.2.mem ((c.tc : Thread nD τ).loc main_v33) = Cert.OrpoTail.rejectedRewards (perTokArr (xarg m c) (warg m c) (targ m c)) (targ m c)
      ∧ r.2.mem ((c.tc : Thread nD τ).loc main_v35) = Cert.OrpoTail.logOddsRatio (perTokArr (xarg m c) (warg m c) (targ m c)) (targ m c)
      ∧ r.2.mem ((c.tc : Thread nD τ).loc main_v37) = Cert.OrpoTail.logOddsChosen (perTokArr (xarg m c) (warg m c) (targ m c)) (targ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v29 (Pipeline.mem_restRefs_of main_v29 (by decide) (by decide))).trans (res_loss m c (hx c) (hw c) (ht c)),
      ((h c).2 main_v31 (Pipeline.mem_restRefs_of main_v31 (by decide) (by decide))).trans (res_chosen m c (hx c) (hw c) (ht c)),
      ((h c).2 main_v33 (Pipeline.mem_restRefs_of main_v33 (by decide) (by decide))).trans (res_rejected m c (hx c) (hw c) (ht c)),
      ((h c).2 main_v35 (Pipeline.mem_restRefs_of main_v35 (by decide) (by decide))).trans (res_ratio m c (hx c) (hw c) (ht c)),
      ((h c).2 main_v37 (Pipeline.mem_restRefs_of main_v37 (by decide) (by decide))).trans (res_oddsChosen m c (hx c) (hw c) (ht c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefHeadOps.lean ====
import proofs.«418200_j4621384810879_1_alg».proof.Proof.Gen.ReferenceIdeal
import Idealize.ShloMosaic.Lib.StableHlo.Run

/-! The first 40 operations of the reference's @main: the contraction,
the row-wise log-softmax (15 operations), the index broadcast, the gather along the last axis with its
bounds test (22 operations), the reshape. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsHead : List (HloOp τ sig (Elt F)) :=
  [ binary main_arg0 main_arg1 main_v0 ((fun l r => Host.dotGeneral dot_S4x1024x2048_S50257x2048_S4x1024x50257_2_1_01_0_n_n none l r) : (⟨S4x1024x2048, .f32⟩ : BufTy).Contents (Elt F) → (⟨S50257x2048, .f32⟩ : BufTy).Contents (Elt F) → (⟨S4x1024x50257, .f32⟩ : BufTy).Contents (Elt F)),
    TRef.nullary main_call0.cst (constant S_ .f32 0xFF800000#32),
    TRef.binary (.of main_v0 : TRef sig ⟨S4x1024x50257, .f32⟩) main_call0.cst main_call0.v0 (fun x v => Host.reduce FloatOps.maximumf x v reducesTo_S4x1024x50257_S4x1024_d2 h_S_),
    TRef.nullary main_call0.cst_0 (constant S_ .f32 0xFF800000#32),
    TRef.unary main_call0.cst_0 main_call0.v1 (broadcastInDim S4x1024 ![] bcast_S_S4x1024),
    TRef.binary main_call0.v1 main_call0.v0 main_call0.v2 maximumf,
    TRef.unary main_call0.v2 main_call0.v3 (broadcastInDim S4x1024x1 ![0, 1] bcast_S4x1024_S4x1024x1_0_1),
    TRef.unary main_call0.v3 main_call0.v4 (broadcastInDim S4x1024x50257 ![0, 1, 2] bcast_S4x1024x1_S4x1024x50257_0_1_2),
    TRef.binary (.of main_v0 : TRef sig ⟨S4x1024x50257, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S4x1024x50257_S4x1024_d2 h_S_),
    TRef.unary main_call0.v7 main_call0.v8 (broadcastInDim S4x1024x1 ![0, 1] bcast_S4x1024_S4x1024x1_0_1),
    TRef.unary main_call0.v8 main_call0.v9 Host.log,
    TRef.unary main_call0.v9 main_call0.v10 (broadcastInDim S4x1024x50257 ![0, 1, 2] bcast_S4x1024x1_S4x1024x50257_0_1_2),
    TRef.binary main_call0.v5 main_call0.v10 main_call0.v11 subf,
    unary main_arg2 main_v2 (broadcastInDim S4x1024x1 ![0, 1] bcast_S4x1024_S4x1024x1_0_1 : (⟨S4x1024, .i32⟩ : BufTy).Contents (Elt F) → (⟨S4x1024x1, .i32⟩ : BufTy).Contents (Elt F)),
    TRef.nullary main_call1.c (constantI S_ 32 0#32),
    TRef.unary main_call1.c main_call1.v0 (broadcastInDim S4x1024x1 ![] bcast_S_S4x1024x1),
    TRef.binary (.of main_v2 : TRef sig ⟨S4x1024x1, .i32⟩) main_call1.v0 main_call1.v1 (cmpi .slt),
    TRef.nullary main_call1.c_0 (constantI S_ 32 50257#32),
    TRef.unary main_call1.c_0 main_call1.v2 (broadcastInDim S4x1024x1 ![] bcast_S_S4x1024x1),
    TRef.binary (.of main_v2 : TRef sig ⟨S4x1024x1, .i32⟩) main_call1.v2 main_call1.v3 addi,
    TRef.ternary main_call1.v1 main_call1.v3 (.of main_v2 : TRef sig ⟨S4x1024x1, .i32⟩) main_call1.v4 select,
    TRef.reshape main_call1.v4 main_call1.v5 rfl shapeCasts_S4x1024x1_S4x1024x1x1,
    TRef.nullary main_call1.c_1 (constantI S1 32 50256#32),
    TRef.nullary main_call1.c_2 (constantI S_ 32 0#32),
    TRef.unary main_call1.c_2 main_call1.v6 (broadcastInDim S4x1024x1x1 ![] bcast_S_S4x1024x1x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S4x1024x1x1 ![0, 1, 2, 3] bcast_S1x1x1x1_S4x1024x1x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x1024x1x1_S4x1024x1_d3 h_S_),
    TRef.binary (.of main_v1 : TRef sig ⟨S4x1024x50257, .f32⟩) main_call1.v5 main_call1.v13 (fun x i => Host.gather gather_S4x1024x50257_S4x1024x1x1_S4x1024x1_n_2_01_01_2_3_111 x i),
    TRef.nullary main_call1.cst (constant S_ .f32 0x7FC00000#32),
    TRef.unary main_call1.cst main_call1.v14 (broadcastInDim S4x1024x1 ![] bcast_S_S4x1024x1),
    TRef.ternary main_call1.v12 main_call1.v13 main_call1.v14 main_call1.v15 select,
    reshape main_v3 main_v4 rfl shapeCasts_S4x1024x1_S4x1024 ]

theorem opsHead_sub : (opsHead : List (HloOp τ sig (Elt F))).Forall fun op => op.bufs ⊆ tcRefs τ sig :=
  ⟨binary_bufs_sub ..,
    nullary_bufs_sub .., binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub .., unary_bufs_sub .., binary_bufs_sub ..,
    unary_bufs_sub ..,
    nullary_bufs_sub .., unary_bufs_sub .., binary_bufs_sub .., nullary_bufs_sub .., unary_bufs_sub .., binary_bufs_sub .., ternary_bufs_sub .., reshape_bufs_sub ..,
    nullary_bufs_sub .., nullary_bufs_sub .., unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub ..⟩

end Cert.ReferenceIdeal.RefRun

end
-- ==== Proof.RefRun.lean ====
import proofs.«418200_j4621384810879_1_alg».proof.Proof.RefHeadOps
import proofs.«418200_j4621384810879_1_alg».proof.Proof.RefTailOps

/-! The reference's @main read as a straight line of one hundred host operations — the first stretch of
forty (contraction, row-wise log-softmax, gather along the last axis) followed by the closing stretch of
sixty — and its run: every weakly fair execution ends with each buffer at the fold of the second stretch
over the fold of the first over the launch contents. The three arguments are written by no operation of
the first stretch, and at launch each holds the memory's contents at its location. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Concatenated lines fold one after the other. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 16384 in
set_option maxHeartbeats 1000000 in
/-- @main is the two stretches in a row: the callees' bodies are lines of operations ending in the
    return, sequencing grafts the continuation on the leaf, so both sides are one chain by computation. -/
theorem main_eq (c : Dev nD) : main (F := F) c = seq (opsHead ++ opsTail) := rfl

theorem scopedRefs_eq : (Finset.univ.filter fun b : Ref sig .tc => b.isScoped) = ∅ := by decide
theorem scopedSems_eq : (Finset.univ.filter fun sm : SemLoc sig => sm.isScoped .tc) = ∅ := by decide

/-- Every operation of the first stretch determines all it writes. -/
private theorem head_fresh : (opsHead : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the second stretch determines all it writes. -/
private theorem tail_fresh : (opsTail : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsTail (after opsHead (launchContents m c)) (b : DevRef τ sig) := by
  have h := run_seq scopedRefs_eq scopedSems_eq defs (main (F := F)) (fun _ => opsHead ++ opsTail) main_eq
    (fun _ => List.forall_append.mpr ⟨opsHead_sub, opsTail_sub⟩) m ρ
    (fun _ op hop => (List.mem_append.mp hop).elim
      (List.forall_iff_forall_mem.mp head_fresh op) (List.forall_iff_forall_mem.mp tail_fresh op))
  simpa only [after_app] using h

theorem head_arg0 (V : Valuation τ sig (Elt F)) :
    after opsHead V (main_arg0 : DevRef τ sig) = V (main_arg0 : DevRef τ sig) := by after_results
theorem head_arg1 (V : Valuation τ sig (Elt F)) :
    after opsHead V (main_arg1 : DevRef τ sig) = V (main_arg1 : DevRef τ sig) := by after_results
theorem head_arg2 (V : Valuation τ sig (Elt F)) :
    after opsHead V (main_arg2 : DevRef τ sig) = V (main_arg2 : DevRef τ sig) := by after_results

theorem launch_arg0 (m : (ℓ : Loc nD τ sig) → Buf (Elt F) ℓ) (c : Dev nD) :
    launchContents m c (main_arg0 : DevRef τ sig) = m ((c.tc : Thread nD τ).loc main_arg0) := rfl
theorem launch_arg1 (m : (ℓ : Loc nD τ sig) → Buf (Elt F) ℓ) (c : Dev nD) :
    launchContents m c (main_arg1 : DevRef τ sig) = m ((c.tc : Thread nD τ).loc main_arg1) := rfl
theorem launch_arg2 (m : (ℓ : Loc nD τ sig) → Buf (Elt F) ℓ) (c : Dev nD) :
    launchContents m c (main_arg2 : DevRef τ sig) = m ((c.tc : Thread nD τ).loc main_arg2) := rfl

end Cert.ReferenceIdeal.RefRun

end
-- ==== Proof.RefValue.lean ====
import proofs.«418200_j4621384810879_1_alg».proof.Proof.Gen.ReferenceIdeal
import proofs.«418200_j4621384810879_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

/-!
  The reference's per-token log-probability as one pure term, and its value.

  The reference computes, for every token `(b, r)`, the logits against the 50257 vocabulary rows (one contraction over the 2048
  hidden features), the row-wise log-softmax `(g - max g) - log (∑ exp (g - max g))`, and then picks the target's column with
  `take_along_axis`: negative indices wrapped by the vocabulary size, an in-range test, the entry gather, and a select that would
  put a not-a-number where the index is out of range. `refPerTok` is that chain of array operations; `refPerTok_eq` reads it at a
  token, for targets inside the vocabulary: it is `Cert.FlashLogprob.perTok`, literally the same formula over the row of logits.
-/

noncomputable section

namespace Cert.ReferenceIdeal.RefValue

open Cert.ReferenceIdeal Idealize.ShloMosaic Idealize.ShloMosaic.ValueIdx

/-! ## The chain of array operations -/

/-- The logits: every token's hidden vector against every vocabulary row. -/
def logits (x : FVec Ideal S4x1024x2048 .f32) (w : FVec Ideal S50257x2048 .f32) : FVec Ideal S4x1024x50257 .f32 :=
  Host.dotGeneral dot_S4x1024x2048_S50257x2048_S4x1024x50257_2_1_01_0_n_n none x w

/-- Each row's maximum: the maximum-reduce along the vocabulary axis from `-∞`, then the maximum with a `-∞` splat. -/
def rowMaxArr (L : FVec Ideal S4x1024x50257 .f32) : FVec Ideal S4x1024 .f32 :=
  maximumf (broadcastInDim S4x1024 ![] Facts₀.bcast_S_S4x1024 (constant (F := Ideal) S_ .f32 0xFF800000#32))
    (Host.reduce FloatOps.maximumf L (constant (F := Ideal) S_ .f32 0xFF800000#32)
      Facts₀.reducesTo_S4x1024x50257_S4x1024_d2 Facts₀.h_S_)

/-- The logits shifted by their row's maximum. -/
def shifted (L : FVec Ideal S4x1024x50257 .f32) : FVec Ideal S4x1024x50257 .f32 :=
  subf L (broadcastInDim S4x1024x50257 ![0, 1, 2] Facts₀.bcast_S4x1024x1_S4x1024x50257_0_1_2
    (broadcastInDim S4x1024x1 ![0, 1] Facts₀.bcast_S4x1024_S4x1024x1_0_1 (rowMaxArr L)))

/-- Each row's sum of the exponentials of the shifted logits, from `0`. -/
def sumExp (L : FVec Ideal S4x1024x50257 .f32) : FVec Ideal S4x1024 .f32 :=
  Host.reduceAdd (Host.exp (shifted L)) (constant (F := Ideal) S_ .f32 0x00000000#32)
    Facts₀.reducesTo_S4x1024x50257_S4x1024_d2 Facts₀.h_S_

/-- The log-softmax array: the shifted logits minus the logarithm of their row's sum of exponentials. -/
def logSoftmax (L : FVec Ideal S4x1024x50257 .f32) : FVec Ideal S4x1024x50257 .f32 :=
  subf (shifted L) (broadcastInDim S4x1024x50257 ![0, 1, 2] Facts₀.bcast_S4x1024x1_S4x1024x50257_0_1_2
    (Host.log (broadcastInDim S4x1024x1 ![0, 1] Facts₀.bcast_S4x1024_S4x1024x1_0_1 (sumExp L))))

/-- The targets with a unit axis appended. -/
def tgt3 (t : IVec S4x1024 32) : IVec S4x1024x1 32 :=
  broadcastInDim S4x1024x1 ![0, 1] Facts₀.bcast_S4x1024_S4x1024x1_0_1 t

/-- The wrapped index: a negative index has the vocabulary size added. -/
def wrapped (a : IVec S4x1024x1 32) : IVec S4x1024x1 32 :=
  select (cmpi .slt a (broadcastInDim S4x1024x1 ![] Facts₀.bcast_S_S4x1024x1 (constantI S_ 32 0#32)))
    (addi a (broadcastInDim S4x1024x1 ![] Facts₀.bcast_S_S4x1024x1 (constantI S_ 32 50257#32))) a

/-- The wrapped index as the gather's start indices `[4, 1024, 1, 1]`. -/
def idx4 (a : IVec S4x1024x1 32) : IVec S4x1024x1x1 32 :=
  shapeCast S4x1024x1x1 (wrapped a) Facts₀.shapeCasts_S4x1024x1_S4x1024x1x1

/-- The in-range mask: `0 ≤ index ≤ 50256`, and-reduced over the index vector's unit axis. -/
def inRange (i4 : IVec S4x1024x1x1 32) : IVec S4x1024x1 1 :=
  Host.reduce IntOp.andi
    (andi (cmpi .sge i4 (broadcastInDim S4x1024x1x1 ![] Facts₀.bcast_S_S4x1024x1x1 (constantI S_ 32 0#32)))
      (cmpi .sle i4 (broadcastInDim S4x1024x1x1 ![0, 1, 2, 3] Facts₀.bcast_S1x1x1x1_S4x1024x1x1_0_1_2_3
        (broadcastInDim S1x1x1x1 ![3] Facts₀.bcast_S1_S1x1x1x1_3 (constantI S1 32 50256#32)))))
    (constantI S_ 1 1#1) Facts₀.reducesTo_S4x1024x1x1_S4x1024x1_d3 Facts₀.h_S_

/-- The gathered column: per token, the entry of its row at the start index. -/
def gathered (LS : FVec Ideal S4x1024x50257 .f32) (i4 : IVec S4x1024x1x1 32) : FVec Ideal S4x1024x1 .f32 :=
  Host.gather gather_S4x1024x50257_S4x1024x1x1_S4x1024x1_n_2_01_01_2_3_111 LS i4

/-- `take_along_axis`: the gathered entry where the index is in range, a not-a-number splat elsewhere. -/
def taken (LS : FVec Ideal S4x1024x50257 .f32) (a : IVec S4x1024x1 32) : FVec Ideal S4x1024x1 .f32 :=
  select (inRange (idx4 a)) (gathered LS (idx4 a))
    (broadcastInDim S4x1024x1 ![] Facts₀.bcast_S_S4x1024x1 (constant (F := Ideal) S_ .f32 0x7FC00000#32))

/-- The reference's per-token log-probability of the target, as the program computes it. -/
def refPerTok (x : FVec Ideal S4x1024x2048 .f32) (w : FVec Ideal S50257x2048 .f32) (t : IVec S4x1024 32) :
    FVec Ideal S4x1024 .f32 :=
  shapeCast S4x1024 (taken (logSoftmax (logits x w)) (tgt3 t)) Facts₀.shapeCasts_S4x1024x1_S4x1024

/-! ## The stages, over variables -/

section Stages
variable {α : Type}

/-- The product of a stack of row vectors with the transpose of a matrix: contraction of the last axis of the left operand with the
    last axis of the right one, no batch axis. -/
theorem dot_rows_apply {B R K V : Nat} {φ₁ φ₂ : FTy}
    (wf : DotDims.WF ⟨3, ![B, R, K]⟩ ⟨2, ![V, K]⟩ ⟨3, ![B, R, V]⟩ [2] [1] [0, 1] [0] [] [])
    (prec : Option ContractPrecision) (A : FVec Ideal ⟨3, ![B, R, K]⟩ φ₁) (W : FVec Ideal ⟨2, ![V, K]⟩ φ₂)
    (b : Fin B) (r : Fin R) (j : Fin V) :
    Host.dotGeneral (⟨[2], [1], [0, 1], [0], [], [], wf⟩ : DotDims _ _ _) prec A W (ix3 b r j)
      = ∑ h : Fin K, A (ix3 b r h) * W (ix2 j h) := by
  show FloatOps.dotGeneral _ prec _ A W (ix3 b r j) = _
  rw [Ideal.dotGeneral_apply,
    ← Equiv.sum_comp (contrEquiv1 (⟨[2], [1], [0, 1], [0], [], [], wf⟩ : DotDims _ _ _) K rfl rfl).symm]
  refine Finset.sum_congr rfl fun c _ => ?_
  have c3 := contrEquiv1_symm_val
    (⟨[2], [1], [0, 1], [0], [], [], wf⟩ : DotDims ⟨3, ![B, R, K]⟩ ⟨2, ![V, K]⟩ ⟨3, ![B, R, V]⟩) K rfl rfl c
  have l3 : (⟨[2], [1], [0, 1], [0], [], [], wf⟩ : DotDims ⟨3, ![B, R, K]⟩ ⟨2, ![V, K]⟩ ⟨3, ![B, R, V]⟩).lhsIdx (ix3 b r j)
      ((contrEquiv1 _ K rfl rfl).symm c) = ix3 b r c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], wf⟩ : DotDims ⟨3, ![B, R, K]⟩ ⟨2, ![V, K]⟩ ⟨3, ![B, R, V]⟩).rhsIdx (ix3 b r j)
      ((contrEquiv1 _ K rfl rfl).symm c) = ix2 j c := by
    funext ax; apply Fin.ext
    match ax with
    | ⟨0, _⟩ => simp [DotDims.rhsIdx]; rfl
    | ⟨1, _⟩ => simp [DotDims.rhsIdx]; exact c3
  rw [l3, r3]

/-- The index that reduces to `(b, r)` along the last of three axes, with coordinate `k` inserted, is `(b, r, k)`. -/
theorem lift3_axis2 {n0 n1 n2 : Nat} (h : (⟨3, ![n0, n1, n2]⟩ : Shape).Reduces [2] ⟨2, ![n0, n1]⟩)
    (b : Fin n0) (r : Fin n1) (k : Fin n2) : h.lift (ix2 b r) k = ix3 b r k := by
  funext c; apply Fin.ext
  match c with
  | ⟨0, _⟩ => rfl
  | ⟨1, _⟩ => rfl
  | ⟨2, _⟩ => rfl

theorem reduces3_axis2 {n0 n1 n2 : Nat} (h' : (⟨3, ![n0, n1, n2]⟩ : Shape).ReducesTo [2] ⟨2, ![n0, n1]⟩) :
    (⟨3, ![n0, n1, n2]⟩ : Shape).Reduces [2] ⟨2, ![n0, n1]⟩ := by
  obtain ⟨e, hs⟩ := h'
  exact ⟨e, Nat.zero_lt_two, hs⟩

/-- A maximum-reduce along the last of three axes, read at `(b, r)`: the fold of `max` from the initial value over the row. -/
theorem reduceMax_row_apply {n0 n1 n2 : Nat} (L : FVec Ideal ⟨3, ![n0, n1, n2]⟩ .f32) (init : FVec Ideal ⟨0, ![]⟩ .f32)
    (h' : (⟨3, ![n0, n1, n2]⟩ : Shape).ReducesTo [2] ⟨2, ![n0, n1]⟩) (hu : 0 < (⟨0, ![]⟩ : Shape).numel)
    (b : Fin n0) (r : Fin n1) :
    Host.reduce FloatOps.maximumf L init h' hu (ix2 b r)
      = (Finset.univ : Finset (Fin n2)).fold max (init (Shape.Idx.first hu)) (fun k => L (ix3 b r k)) := by
  rw [Host.reduce_eq_fold_single FloatOps.maximumf L init h' (reduces3_axis2 h') hu]
  show (Finset.univ : Finset (Fin n2)).fold max (init (Shape.Idx.first hu)) (fun k => L ((reduces3_axis2 h').lift (ix2 b r) k)) = _
  exact congrArg (fun f => (Finset.univ : Finset (Fin n2)).fold max (init (Shape.Idx.first hu)) f)
    (funext fun k => congrArg L (lift3_axis2 _ b r k))

/-- A sum-reduce along the last of three axes, read at `(b, r)`: the initial value plus the row's sum. -/
theorem reduceAdd_row_apply {n0 n1 n2 : Nat} (E : FVec Ideal ⟨3, ![n0, n1, n2]⟩ .f32) (init : FVec Ideal ⟨0, ![]⟩ .f32)
    (h' : (⟨3, ![n0, n1, n2]⟩ : Shape).ReducesTo [2] ⟨2, ![n0, n1]⟩) (hu : 0 < (⟨0, ![]⟩ : Shape).numel)
    (b : Fin n0) (r : Fin n1) :
    Host.reduceAdd E init h' hu (ix2 b r) = init (Shape.Idx.first hu) + ∑ k : Fin n2, E (ix3 b r k) := by
  show Ideal.hostReduceAdd h' E (init (Shape.Idx.first hu)) (ix2 b r) = _
  rw [Ideal.hostReduceAdd_single h' (reduces3_axis2 h')]
  show _ + ∑ k : Fin n2, E ((reduces3_axis2 h').lift (ix2 b r) k) = _
  exact congrArg (init (Shape.Idx.first hu) + ·) (Finset.sum_congr rfl fun k _ => congrArg E (lift3_axis2 _ b r k))

/-- Appending a unit axis: `[n0, n1] → [n0, n1, 1]` read at `(b, r, c)` is the operand at `(b, r)`. -/
theorem bcast_unit_apply {n0 n1 : Nat} (h : (⟨2, ![n0, n1]⟩ : Shape).BroadcastsInDim ⟨3, ![n0, n1, 1]⟩ ![0, 1])
    (x : (⟨2, ![n0, n1]⟩ : Shape).Idx → α) (b : Fin n0) (r : Fin n1) (c : Fin 1) :
    broadcastInDim ⟨3, ![n0, n1, 1]⟩ ![0, 1] h x (ix3 b r c) = x (ix2 b r) := by
  refine broadcastInDim_apply _ h x _ _ (fun a => ?_)
  match a with
  | ⟨0, _⟩ =>
    show (b : ℕ) = if n0 = 1 then 0 else (b : ℕ)
    have := b.isLt; split <;> omega
  | ⟨1, _⟩ =>
    show (r : ℕ) = if n1 = 1 then 0 else (r : ℕ)
    have := r.isLt; split <;> omega

/-- Stretching a unit last axis: `[n0, n1, 1] → [n0, n1, n2]` read at `(b, r, j)` is the operand at `(b, r, 0)`. -/
theorem bcast_last_apply {n0 n1 n2 : Nat} (h : (⟨3, ![n0, n1, 1]⟩ : Shape).BroadcastsInDim ⟨3, ![n0, n1, n2]⟩ ![0, 1, 2])
    (x : (⟨3, ![n0, n1, 1]⟩ : Shape).Idx → α) (b : Fin n0) (r : Fin n1) (j : Fin n2) :
    broadcastInDim ⟨3, ![n0, n1, n2]⟩ ![0, 1, 2] h x (ix3 b r j) = x (ix3 b r 0) := by
  refine broadcastInDim_apply _ h x _ _ (fun a => ?_)
  match a with
  | ⟨0, _⟩ =>
    show (b : ℕ) = if n0 = 1 then 0 else (b : ℕ)
    have := b.isLt; split <;> omega
  | ⟨1, _⟩ =>
    show (r : ℕ) = if n1 = 1 then 0 else (r : ℕ)
    have := r.isLt; split <;> omega
  | ⟨2, _⟩ =>
    show (0 : ℕ) = if 1 = 1 then 0 else (j : ℕ)
    rfl

/-- `[n0, n1, 1] → [n0, n1, 1, 1]`, read at `(b, r, c, d)`: the operand at `(b, r, c)`. -/
theorem cast_addUnit_apply {n0 n1 : Nat} (h : (⟨3, ![n0, n1, 1]⟩ : Shape).ShapeCasts ⟨4, ![n0, n1, 1, 1]⟩)
    (x : (⟨3, ![n0, n1, 1]⟩ : Shape).Idx → α) (b : Fin n0) (r : Fin n1) (c d : Fin 1) :
    shapeCast ⟨4, ![n0, n1, 1, 1]⟩ x h (ix4 b r c d) = x (ix3 b r c) := by
  refine shapeCast_apply x h _ _ ?_
  rw [Shape.rowMajor_val_three, Shape.rowMajor_val_four]
  show ((b : ℕ) * n1 + r) * 1 + c = (((b : ℕ) * n1 + r) * 1 + c) * 1 + d
  have := d.isLt; omega

/-- `[n0, n1, 1] → [n0, n1]`, read at `(b, r)`: the operand at `(b, r, 0)`. -/
theorem cast_dropUnit_apply {n0 n1 : Nat} (h : (⟨3, ![n0, n1, 1]⟩ : Shape).ShapeCasts ⟨2, ![n0, n1]⟩)
    (x : (⟨3, ![n0, n1, 1]⟩ : Shape).Idx → α) (b : Fin n0) (r : Fin n1) :
    shapeCast ⟨2, ![n0, n1]⟩ x h (ix2 b r) = x (ix3 b r 0) := by
  refine shapeCast_apply x h _ _ ?_
  rw [Shape.rowMajor_val_three, Shape.rowMajor_val_two]
  show ((b : ℕ) * n1 + r) * 1 + 0 = (b : ℕ) * n1 + r
  omega

/-- The index that reduces to `(b, r, c)` along a last unit axis is `(b, r, c, k)`. -/
theorem lift4_axis3 {n0 n1 n2 : Nat} (h : (⟨4, ![n0, n1, n2, 1]⟩ : Shape).Reduces [3] ⟨3, ![n0, n1, n2]⟩)
    (b : Fin n0) (r : Fin n1) (c : Fin n2) (k : Fin 1) : h.lift (ix3 b r c) k = ix4 b r c k := by
  funext a; apply Fin.ext
  match a with
  | ⟨0, _⟩ => rfl
  | ⟨1, _⟩ => rfl
  | ⟨2, _⟩ => rfl
  | ⟨3, _⟩ => rfl

theorem reduces4_axis3 {n0 n1 n2 : Nat} (h' : (⟨4, ![n0, n1, n2, 1]⟩ : Shape).ReducesTo [3] ⟨3, ![n0, n1, n2]⟩) :
    (⟨4, ![n0, n1, n2, 1]⟩ : Shape).Reduces [3] ⟨3, ![n0, n1, n2]⟩ := by
  obtain ⟨e, hs⟩ := h'
  exact ⟨e, Nat.succ_pos 2, hs⟩

theorem andi_one (b : BitVec 1) : IntOp.andi b 1#1 = b := by revert b; decide

/-- A fold over the one-element range is one application of the operation. -/
theorem fold_fin_one {β : Type} (op : β → β → β) [Std.Commutative op] [Std.Associative op] (e : β) (f : Fin 1 → β) :
    (Finset.univ : Finset (Fin 1)).fold op e f = op (f 0) e := by
  rw [Finset.univ_unique, Finset.fold_singleton]; rfl

/-- An and-reduce along a last axis of extent one, from the word `1`, is the operand's one entry there. -/
theorem reduceAnd_unit_apply {n0 n1 n2 : Nat} (m : IVec ⟨4, ![n0, n1, n2, 1]⟩ 1) (init : IVec ⟨0, ![]⟩ 1)
    (h' : (⟨4, ![n0, n1, n2, 1]⟩ : Shape).ReducesTo [3] ⟨3, ![n0, n1, n2]⟩) (hu : 0 < (⟨0, ![]⟩ : Shape).numel)
    (hinit : init (Shape.Idx.first hu) = 1#1) (b : Fin n0) (r : Fin n1) (c : Fin n2) :
    Host.reduce IntOp.andi m init h' hu (ix3 b r c) = m (ix4 b r c 0) := by
  rw [Host.reduce_eq_fold_single IntOp.andi m init h' (reduces4_axis3 h') hu]
  refine (fold_fin_one IntOp.andi (init (Shape.Idx.first hu))
    (fun k => m ((reduces4_axis3 h').lift (ix3 b r c) k))).trans ?_
  rw [hinit, andi_one]
  exact congrArg m (lift4_axis3 _ b r c 0)

/-- The entry gather of `take_along_axis` on the last axis: operand `[B, R, V]`, start indices `[B, R, 1, 1]`, the first two axes
    batching, the last collapsed; the result at `(b, r, c)` is the operand at `(b, r, ·)` with the start index read signed and
    clamped into `[0, V - 1]`. -/
theorem gather_entry_apply {B R V w : Nat} (hV : 0 < V)
    (wf : GatherDims.WF ⟨3, ![B, R, V]⟩ ⟨4, ![B, R, 1, 1]⟩ ⟨3, ![B, R, 1]⟩ [] [2] [0, 1] [2] [0, 1] 3 ![1, 1, 1])
    (x : (⟨3, ![B, R, V]⟩ : Shape).Idx → α) (idx : IVec ⟨4, ![B, R, 1, 1]⟩ w) (b : Fin B) (r : Fin R) (c : Fin 1) :
    Host.gather (⟨[], [2], [0, 1], [0, 1], [2], 3, ![1, 1, 1], wf⟩ : GatherDims ⟨3, ![B, R, V]⟩ ⟨4, ![B, R, 1, 1]⟩ ⟨3, ![B, R, 1]⟩) x idx (ix3 b r c)
      = x (ix3 b r ⟨min (idx (ix4 b r c 0)).toInt.toNat (V - 1), by omega⟩) := by
  unfold Host.gather
  congr 1
  funext a
  refine Fin.ext ?_
  show (⟨[], [2], [0, 1], [0, 1], [2], 3, ![1, 1, 1], wf⟩ : GatherDims ⟨3, ![B, R, V]⟩ ⟨4, ![B, R, 1, 1]⟩ ⟨3, ![B, R, 1]⟩).start (ix3 b r c) idx a
    + (⟨[], [2], [0, 1], [0, 1], [2], 3, ![1, 1, 1], wf⟩ : GatherDims ⟨3, ![B, R, V]⟩ ⟨4, ![B, R, 1, 1]⟩ ⟨3, ![B, R, 1]⟩).batchCoord (ix3 b r c) a
    + (⟨[], [2], [0, 1], [0, 1], [2], 3, ![1, 1, 1], wf⟩ : GatherDims ⟨3, ![B, R, V]⟩ ⟨4, ![B, R, 1, 1]⟩ ⟨3, ![B, R, 1]⟩).offCoord (ix3 b r c) a = _
  match a with
  | ⟨0, h0⟩ =>
    have hs : (⟨[], [2], [0, 1], [0, 1], [2], 3, ![1, 1, 1], wf⟩ : GatherDims ⟨3, ![B, R, V]⟩ ⟨4, ![B, R, 1, 1]⟩ ⟨3, ![B, R, 1]⟩).start (ix3 b r c) idx ⟨0, h0⟩ = 0 := rfl
    have hb : (⟨[], [2], [0, 1], [0, 1], [2], 3, ![1, 1, 1], wf⟩ : GatherDims ⟨3, ![B, R, V]⟩ ⟨4, ![B, R, 1, 1]⟩ ⟨3, ![B, R, 1]⟩).batchCoord (ix3 b r c) ⟨0, h0⟩ = b.val := rfl
    have ho : (⟨[], [2], [0, 1], [0, 1], [2], 3, ![1, 1, 1], wf⟩ : GatherDims ⟨3, ![B, R, V]⟩ ⟨4, ![B, R, 1, 1]⟩ ⟨3, ![B, R, 1]⟩).offCoord (ix3 b r c) ⟨0, h0⟩ = 0 := rfl
    rw [hs, hb, ho]
    show 0 + (b : ℕ) + 0 = b
    omega
  | ⟨1, h1⟩ =>
    have hs : (⟨[], [2], [0, 1], [0, 1], [2], 3, ![1, 1, 1], wf⟩ : GatherDims ⟨3, ![B, R, V]⟩ ⟨4, ![B, R, 1, 1]⟩ ⟨3, ![B, R, 1]⟩).start (ix3 b r c) idx ⟨1, h1⟩ = 0 := rfl
    have hb : (⟨[], [2], [0, 1], [0, 1], [2], 3, ![1, 1, 1], wf⟩ : GatherDims ⟨3, ![B, R, V]⟩ ⟨4, ![B, R, 1, 1]⟩ ⟨3, ![B, R, 1]⟩).batchCoord (ix3 b r c) ⟨1, h1⟩ = r.val := rfl
    have ho : (⟨[], [2], [0, 1], [0, 1], [2], 3, ![1, 1, 1], wf⟩ : GatherDims ⟨3, ![B, R, V]⟩ ⟨4, ![B, R, 1, 1]⟩ ⟨3, ![B, R, 1]⟩).offCoord (ix3 b r c) ⟨1, h1⟩ = 0 := rfl
    rw [hs, hb, ho]
    show 0 + (r : ℕ) + 0 = r
    omega
  | ⟨2, h2⟩ =>
    have hb : (⟨[], [2], [0, 1], [0, 1], [2], 3, ![1, 1, 1], wf⟩ : GatherDims ⟨3, ![B, R, V]⟩ ⟨4, ![B, R, 1, 1]⟩ ⟨3, ![B, R, 1]⟩).batchCoord (ix3 b r c) ⟨2, h2⟩ = 0 := rfl
    have ho : (⟨[], [2], [0, 1], [0, 1], [2], 3, ![1, 1, 1], wf⟩ : GatherDims ⟨3, ![B, R, V]⟩ ⟨4, ![B, R, 1, 1]⟩ ⟨3, ![B, R, 1]⟩).offCoord (ix3 b r c) ⟨2, h2⟩ = 0 := rfl
    rw [hb, ho]
    simp only [Nat.add_zero]
    unfold GatherDims.start
    rw [dif_pos (show (⟨2, h2⟩ : Fin 3) ∈ [(2 : Fin 3)] from List.mem_singleton.mpr rfl)]
    have hsi : (⟨[], [2], [0, 1], [0, 1], [2], 3, ![1, 1, 1], wf⟩ : GatherDims ⟨3, ![B, R, V]⟩ ⟨4, ![B, R, 1, 1]⟩ ⟨3, ![B, R, 1]⟩).siIdx (ix3 b r c)
        ⟨List.idxOf (⟨2, h2⟩ : Fin 3) [(2 : Fin 3)], List.idxOf_lt_length_iff.2 (List.mem_singleton.mpr rfl)⟩ = ix4 b r c 0 := by
      funext e; refine Fin.ext ?_
      match e with
      | ⟨0, _⟩ => rfl
      | ⟨1, _⟩ => rfl
      | ⟨2, _⟩ => rfl
      | ⟨3, _⟩ => rfl
    rw [hsi]
    rfl

/-! ## Index words -/

open Idealize.ShloMosaic.StableHlo in
/-- A word below 50257 is not negative as a signed word: the wrap-around select keeps it. -/
theorem wrap_keep (a : BitVec 32) (ha : a.toNat < 50257) :
    Scalar.select (IntOp.cmpi .slt a 0#32) (IntOp.addi a 50257#32) a = a := by
  have h0 : IntOp.cmpi .slt a 0#32 = 0#1 := eq_zero_of_ne_one (fun h => by
    have := (Predicate.slt_iff_toNat (a := a) (b := 0#32) (by omega) (by decide)).mp h
    simp at this)
  rw [h0, select_zero]

open Idealize.ShloMosaic.StableHlo in
/-- A word below 50257 passes the range test `0 ≤ · ≤ 50256`. -/
theorem inRange_word (a : BitVec 32) (ha : a.toNat < 50257) :
    IntOp.andi (IntOp.cmpi .sge a 0#32) (IntOp.cmpi .sle a 50256#32) = 1#1 := by
  have h1 : IntOp.cmpi .sge a 0#32 = 1#1 :=
    (Predicate.sge_iff_toNat (a := a) (b := 0#32) (by omega) (by decide)).mpr (by simp)
  have h2 : IntOp.cmpi .sle a 50256#32 = 1#1 :=
    (Predicate.sle_iff_toNat (a := a) (b := 50256#32) (by omega) (by decide)).mpr (by
      show a.toNat ≤ 50256; omega)
  rw [h1, h2]; rfl

open Idealize.ShloMosaic.StableHlo in
/-- A word below 50257, read signed and clamped into `[0, 50256]`, is its value. -/
theorem clamp_word (a : BitVec 32) (ha : a.toNat < 50257) : min a.toInt.toNat (50257 - 1) = a.toNat := by
  rw [Predicate.toInt_eq_toNat_of_lt (a := a) (by omega), Int.toNat_natCast]
  omega

/-- The host's logarithm at an index, at the ideal values. -/
theorem hostLog_apply {s : Shape} {φ : FTy} (x : FVec Ideal s φ) (i : s.Idx) : Host.log x i = Ideal.log (x i) := rfl

/-- The host's exponential at an index, at the ideal values. -/
theorem hostExp_apply {s : Shape} {φ : FTy} (x : FVec Ideal s φ) (i : s.Idx) : Host.exp x i = Ideal.exp (x i) := rfl

end Stages

/-! ## The chain read at a token -/

section Main
attribute [local irreducible] Host.reduce Host.gather

theorem ofBits_negInf : (Ideal.ofBits .f32 0xFF800000#32 : EReal) = ⊥ := by simp [Ideal.ofBits, Ideal.ieee]

theorem logits_apply (x : FVec Ideal S4x1024x2048 .f32) (w : FVec Ideal S50257x2048 .f32)
    (b : Fin 4) (r : Fin 1024) (j : Fin 50257) :
    logits x w (ix3 b r j) = Cert.FlashLogprob.logit x w b r j :=
  dot_rows_apply _ none x w b r j

theorem rowMaxArr_apply (L : FVec Ideal S4x1024x50257 .f32) (b : Fin 4) (r : Fin 1024) :
    rowMaxArr L (ix2 b r) = (Finset.univ : Finset (Fin 50257)).fold max ⊥ (fun k => L (ix3 b r k)) := by
  unfold rowMaxArr
  rw [maximumf_apply, reduceMax_row_apply]
  show max (Ideal.ofBits .f32 0xFF800000#32 : EReal)
    ((Finset.univ : Finset (Fin 50257)).fold max (Ideal.ofBits .f32 0xFF800000#32 : EReal) (fun k => L (ix3 b r k))) = _
  rw [ofBits_negInf, max_bot_left]

theorem shifted_apply (L : FVec Ideal S4x1024x50257 .f32) (b : Fin 4) (r : Fin 1024) (j : Fin 50257) :
    shifted L (ix3 b r j) = L (ix3 b r j) - rowMaxArr L (ix2 b r) := by
  unfold shifted
  rw [subf_apply, bcast_last_apply, bcast_unit_apply]

theorem sumExp_apply (L : FVec Ideal S4x1024x50257 .f32) (b : Fin 4) (r : Fin 1024) :
    sumExp L (ix2 b r) = ∑ k : Fin 50257, Ideal.exp (shifted L (ix3 b r k)) := by
  unfold sumExp
  rw [reduceAdd_row_apply, constant_apply, Ideal.ofBits_zero_f32, zero_add]
  exact Finset.sum_congr rfl fun k _ => hostExp_apply _ _

theorem logSoftmax_apply (L : FVec Ideal S4x1024x50257 .f32) (b : Fin 4) (r : Fin 1024) (j : Fin 50257) :
    logSoftmax L (ix3 b r j) = shifted L (ix3 b r j) - Ideal.log (sumExp L (ix2 b r)) := by
  unfold logSoftmax
  rw [subf_apply, bcast_last_apply, hostLog_apply, bcast_unit_apply]

theorem tgt3_apply (t : IVec S4x1024 32) (b : Fin 4) (r : Fin 1024) (c : Fin 1) : tgt3 t (ix3 b r c) = t (ix2 b r) :=
  bcast_unit_apply _ t b r c

theorem idx4_apply (t : IVec S4x1024 32) (ht : ∀ i, (t i).toNat < 50257) (b : Fin 4) (r : Fin 1024) (c d : Fin 1) :
    idx4 (tgt3 t) (ix4 b r c d) = t (ix2 b r) := by
  unfold idx4
  rw [cast_addUnit_apply]
  unfold wrapped
  rw [select_apply]
  show Scalar.select (IntOp.cmpi .slt (tgt3 t (ix3 b r c)) 0#32) (IntOp.addi (tgt3 t (ix3 b r c)) 50257#32)
    (tgt3 t (ix3 b r c)) = _
  rw [tgt3_apply, wrap_keep _ (ht _)]

theorem inRange_apply (i4 : IVec S4x1024x1x1 32) (b : Fin 4) (r : Fin 1024) (c : Fin 1)
    (h : (i4 (ix4 b r c 0)).toNat < 50257) : inRange i4 (ix3 b r c) = 1#1 := by
  unfold inRange
  rw [reduceAnd_unit_apply _ _ _ _ rfl]
  show IntOp.andi (IntOp.cmpi .sge (i4 (ix4 b r c 0)) 0#32) (IntOp.cmpi .sle (i4 (ix4 b r c 0)) 50256#32) = 1#1
  exact inRange_word _ h

theorem gathered_apply (LS : FVec Ideal S4x1024x50257 .f32) (t : IVec S4x1024 32) (ht : ∀ i, (t i).toNat < 50257)
    (b : Fin 4) (r : Fin 1024) (c : Fin 1) :
    gathered LS (idx4 (tgt3 t)) (ix3 b r c) = LS (ix3 b r ⟨(t (ix2 b r)).toNat, ht _⟩) := by
  refine (gather_entry_apply (by decide) _ LS (idx4 (tgt3 t)) b r c).trans ?_
  refine congrArg (fun q => LS (ix3 b r q)) (Fin.ext ?_)
  show min (idx4 (tgt3 t) (ix4 b r c 0)).toInt.toNat (50257 - 1) = (t (ix2 b r)).toNat
  rw [idx4_apply t ht, clamp_word _ (ht _)]

/-- The row of logits as the specification reads it, at a true column. -/
theorem col_val (x : FVec Ideal S4x1024x2048 .f32) (w : FVec Ideal S50257x2048 .f32) (b : Fin 4) (r : Fin 1024)
    (j : Fin 50257) : Cert.FlashLogprob.col x w b r j.val = logits x w (ix3 b r j) := by
  unfold Cert.FlashLogprob.col
  rw [dif_pos j.isLt, logits_apply]

/-- THE VALUE: for targets inside the vocabulary the reference's chain is the specification's per-token log-probability. -/
theorem refPerTok_eq (x : FVec Ideal S4x1024x2048 .f32) (w : FVec Ideal S50257x2048 .f32) (t : IVec S4x1024 32)
    (ht : ∀ i, (t i).toNat < 50257) : refPerTok x w t = Cert.FlashLogprob.perTokArr x w t := by
  funext i
  obtain ⟨b, r, rfl⟩ : ∃ (b : Fin 4) (r : Fin 1024), i = ix2 b r := ⟨i 0, i 1, eq_ix2 i⟩
  rw [Cert.FlashLogprob.perTokArr_ix2]
  unfold refPerTok
  rw [cast_dropUnit_apply]
  unfold taken
  rw [select_apply, inRange_apply _ b r 0 (by rw [idx4_apply t ht]; exact ht _), select_one, gathered_apply _ t ht]
  have hM : rowMaxArr (logits x w) (ix2 b r) = Cert.FlashLogprob.rowMax (Cert.FlashLogprob.col x w b r) := by
    rw [rowMaxArr_apply]
    unfold Cert.FlashLogprob.rowMax
    exact congrArg (fun f => (Finset.univ : Finset (Fin 50257)).fold max ⊥ f) (funext fun k => (col_val x w b r k).symm)
  have hS : sumExp (logits x w) (ix2 b r) = Cert.FlashLogprob.rowSum (Cert.FlashLogprob.col x w b r) := by
    rw [sumExp_apply]
    unfold Cert.FlashLogprob.rowSum
    refine Finset.sum_congr rfl fun k _ => ?_
    rw [shifted_apply, hM, col_val]
  rw [logSoftmax_apply, shifted_apply, hM, hS]
  unfold Cert.FlashLogprob.perTok Cert.FlashLogprob.logProb
  have hT : logits x w (ix3 b r ⟨(t (ix2 b r)).toNat, ht _⟩)
      = Cert.FlashLogprob.col x w b r (t (ix2 b r)).toNat := (col_val x w b r ⟨(t (ix2 b r)).toNat, ht _⟩).symm
  rw [hT]

end Main

end Cert.ReferenceIdeal.RefValue

end
-- ==== Proof.RefHeadValue.lean ====
import proofs.«418200_j4621384810879_1_alg».proof.Proof.RefValue
import proofs.«418200_j4621384810879_1_alg».proof.Proof.RefHeadOps
import Idealize.ShloMosaic.Lib.StableHlo.Run

/-!
  The reference's first forty operations, run: the buffer of the last of them (the reshape to `[4, 1024]`) holds the chain of
  array operations `Cert.ReferenceIdeal.RefValue.refPerTok` applied to the three arguments' contents.

  The forty operations are cut into five stretches — the contraction; the row-wise log-softmax; the index's broadcast, wrap-around
  and reshape; the range test, the gather and the select; the last reshape — and each stretch is run from an arbitrary valuation:
  what it leaves in its result buffer is a function of the contents of the buffers it reads. The run of the whole line is the runs
  of the stretches one after the other.
-/

noncomputable section

namespace Cert.ReferenceIdeal.RefValue

open Cert.ReferenceIdeal Cert.ReferenceIdeal.Gen Idealize.ShloMosaic Idealize.ShloMosaic.TcCoe Idealize.ShloMosaic.StableHlo Idealize.SL.Sem

section Lists
variable {F : FTy → Type} [FloatOps F]

/-- The contraction. -/
abbrev opsA : List (HloOp τ sig (Elt F)) :=
  [ binary main_arg0 main_arg1 main_v0 ((fun l r => Host.dotGeneral dot_S4x1024x2048_S50257x2048_S4x1024x50257_2_1_01_0_n_n none l r) : (⟨S4x1024x2048, .f32⟩ : BufTy).Contents (Elt F) → (⟨S50257x2048, .f32⟩ : BufTy).Contents (Elt F) → (⟨S4x1024x50257, .f32⟩ : BufTy).Contents (Elt F)) ]

/-- The row-wise log-softmax: fifteen operations. -/
abbrev opsB : List (HloOp τ sig (Elt F)) :=
  [ TRef.nullary main_call0.cst (constant S_ .f32 0xFF800000#32),
    TRef.binary (.of main_v0 : TRef sig ⟨S4x1024x50257, .f32⟩) main_call0.cst main_call0.v0 (fun x v => Host.reduce FloatOps.maximumf x v reducesTo_S4x1024x50257_S4x1024_d2 h_S_),
    TRef.nullary main_call0.cst_0 (constant S_ .f32 0xFF800000#32),
    TRef.unary main_call0.cst_0 main_call0.v1 (broadcastInDim S4x1024 ![] bcast_S_S4x1024),
    TRef.binary main_call0.v1 main_call0.v0 main_call0.v2 maximumf,
    TRef.unary main_call0.v2 main_call0.v3 (broadcastInDim S4x1024x1 ![0, 1] bcast_S4x1024_S4x1024x1_0_1),
    TRef.unary main_call0.v3 main_call0.v4 (broadcastInDim S4x1024x50257 ![0, 1, 2] bcast_S4x1024x1_S4x1024x50257_0_1_2),
    TRef.binary (.of main_v0 : TRef sig ⟨S4x1024x50257, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S4x1024x50257_S4x1024_d2 h_S_),
    TRef.unary main_call0.v7 main_call0.v8 (broadcastInDim S4x1024x1 ![0, 1] bcast_S4x1024_S4x1024x1_0_1),
    TRef.unary main_call0.v8 main_call0.v9 Host.log,
    TRef.unary main_call0.v9 main_call0.v10 (broadcastInDim S4x1024x50257 ![0, 1, 2] bcast_S4x1024x1_S4x1024x50257_0_1_2),
    TRef.binary main_call0.v5 main_call0.v10 main_call0.v11 subf ]

/-- The index: its broadcast, the wrap-around of negative values, the reshape to the gather's start indices. -/
abbrev opsC1 : List (HloOp τ sig (Elt F)) :=
  [ unary main_arg2 main_v2 (broadcastInDim S4x1024x1 ![0, 1] bcast_S4x1024_S4x1024x1_0_1 : (⟨S4x1024, .i32⟩ : BufTy).Contents (Elt F) → (⟨S4x1024x1, .i32⟩ : BufTy).Contents (Elt F)),
    TRef.nullary main_call1.c (constantI S_ 32 0#32),
    TRef.unary main_call1.c main_call1.v0 (broadcastInDim S4x1024x1 ![] bcast_S_S4x1024x1),
    TRef.binary (.of main_v2 : TRef sig ⟨S4x1024x1, .i32⟩) main_call1.v0 main_call1.v1 (cmpi .slt),
    TRef.nullary main_call1.c_0 (constantI S_ 32 50257#32),
    TRef.unary main_call1.c_0 main_call1.v2 (broadcastInDim S4x1024x1 ![] bcast_S_S4x1024x1),
    TRef.binary (.of main_v2 : TRef sig ⟨S4x1024x1, .i32⟩) main_call1.v2 main_call1.v3 addi,
    TRef.ternary main_call1.v1 main_call1.v3 (.of main_v2 : TRef sig ⟨S4x1024x1, .i32⟩) main_call1.v4 select,
    TRef.reshape main_call1.v4 main_call1.v5 rfl shapeCasts_S4x1024x1_S4x1024x1x1 ]

/-- The range test, the gather, the select. -/
abbrev opsC2 : List (HloOp τ sig (Elt F)) :=
  [ TRef.nullary main_call1.c_1 (constantI S1 32 50256#32),
    TRef.nullary main_call1.c_2 (constantI S_ 32 0#32),
    TRef.unary main_call1.c_2 main_call1.v6 (broadcastInDim S4x1024x1x1 ![] bcast_S_S4x1024x1x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S4x1024x1x1 ![0, 1, 2, 3] bcast_S1x1x1x1_S4x1024x1x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x1024x1x1_S4x1024x1_d3 h_S_),
    TRef.binary (.of main_v1 : TRef sig ⟨S4x1024x50257, .f32⟩) main_call1.v5 main_call1.v13 (fun x i => Host.gather gather_S4x1024x50257_S4x1024x1x1_S4x1024x1_n_2_01_01_2_3_111 x i),
    TRef.nullary main_call1.cst (constant S_ .f32 0x7FC00000#32),
    TRef.unary main_call1.cst main_call1.v14 (broadcastInDim S4x1024x1 ![] bcast_S_S4x1024x1),
    TRef.ternary main_call1.v12 main_call1.v13 main_call1.v14 main_call1.v15 select ]

/-- The last reshape. -/
abbrev opsD : List (HloOp τ sig (Elt F)) :=
  [ reshape main_v3 main_v4 rfl shapeCasts_S4x1024x1_S4x1024 ]

/-- The forty operations are the five stretches in order. -/
theorem opsHead_split :
    (RefRun.opsHead : List (HloOp τ sig (Elt F))) = opsA ++ (opsB ++ (opsC1 ++ (opsC2 ++ opsD))) := rfl

/-- Running two lines one after the other is running their concatenation. -/
theorem after_app {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Lists

/-- `take_along_axis` after its index is made: the gathered entry where the start index is in range, a not-a-number splat elsewhere. -/
def takenAt (LS : FVec Ideal S4x1024x50257 .f32) (i4 : IVec S4x1024x1x1 32) : FVec Ideal S4x1024x1 .f32 :=
  select (inRange i4) (gathered LS i4)
    (broadcastInDim S4x1024x1 ![] Facts₀.bcast_S_S4x1024x1 (constant (F := Ideal) S_ .f32 0x7FC00000#32))

theorem taken_eq (LS : FVec Ideal S4x1024x50257 .f32) (a : IVec S4x1024x1 32) : taken LS a = takenAt LS (idx4 a) := rfl

/-! ## The typed references' transports, removed by rewriting

A typed reference moves contents between the value's type and its buffer's type along the equation of the two; written and read
back through the same reference nothing happens. -/

theorem ofBuf_toBuf {Val : EltTy → Type} {T : BufTy} (x : TRef sig T) (v : T.Contents Val) : x.ofBuf (x.toBuf v) = v := by
  rcases x with ⟨r, rfl, hd, hs⟩
  rfl

/-! ## The stretches, each from an arbitrary valuation -/

/-- The contraction leaves the logits. -/
theorem valA (W : Valuation τ sig (Elt Ideal)) :
    after opsA W (main_v0 : DevRef τ sig) = logits (W (main_arg0 : DevRef τ sig)) (W (main_arg1 : DevRef τ sig)) := by
  after_results_simp
  rfl

/-- The contraction does not write the targets. -/
theorem keepA_arg2 (W : Valuation τ sig (Elt Ideal)) :
    after opsA W (main_arg2 : DevRef τ sig) = W (main_arg2 : DevRef τ sig) := by
  after_results_simp

attribute [local irreducible] Host.reduce Host.reduceAdd in
/-- The fifteen operations of the log-softmax leave, from the logits, the log-softmax array. The reductions stay folded. -/
theorem valB (W : Valuation τ sig (Elt Ideal)) :
    after opsB W (main_v1 : DevRef τ sig) = logSoftmax (W (main_v0 : DevRef τ sig)) := by
  after_results_simp
  simp only [ofBuf_toBuf]
  unfold logSoftmax sumExp shifted rowMaxArr
  rfl

/-- The log-softmax does not write the targets. -/
theorem keepB_arg2 (W : Valuation τ sig (Elt Ideal)) :
    after opsB W (main_arg2 : DevRef τ sig) = W (main_arg2 : DevRef τ sig) := by
  after_results_simp

/-- The index's broadcast, wrap-around and reshape leave the gather's start indices. -/
theorem valC1 (W : Valuation τ sig (Elt Ideal)) :
    after opsC1 W (main_call1_v5 : DevRef τ sig) = idx4 (tgt3 (W (main_arg2 : DevRef τ sig))) := by
  after_results_simp
  simp only [ofBuf_toBuf]
  unfold idx4 wrapped tgt3
  rfl

/-- They do not write the log-softmax array. -/
theorem keepC1_v1 (W : Valuation τ sig (Elt Ideal)) :
    after opsC1 W (main_v1 : DevRef τ sig) = W (main_v1 : DevRef τ sig) := by
  after_results_simp

attribute [local irreducible] Host.reduce Host.gather in
/-- The range test, the gather and the select leave `take_along_axis`'s result. The reduction and the gather stay folded. -/
theorem valC2 (W : Valuation τ sig (Elt Ideal)) :
    after opsC2 W (main_v3 : DevRef τ sig) = takenAt (W (main_v1 : DevRef τ sig)) (W (main_call1_v5 : DevRef τ sig)) := by
  after_results_simp
  simp only [ofBuf_toBuf]
  unfold takenAt gathered inRange
  rfl

/-- The last reshape drops the unit axis. -/
theorem valD (W : Valuation τ sig (Elt Ideal)) :
    after opsD W (main_v4 : DevRef τ sig) = shapeCast S4x1024 (W (main_v3 : DevRef τ sig)) Facts₀.shapeCasts_S4x1024x1_S4x1024 := by
  after_results_simp
  rfl

/-- THE RUN OF THE HEAD: the first forty operations leave the reference's chain of array operations, applied to the three arguments'
    contents, in the last reshape's buffer — the stretches one after the other. -/
theorem head_value (V : Valuation τ sig (Elt Ideal)) :
    StableHlo.after Cert.ReferenceIdeal.RefRun.opsHead V (main_v4 : DevRef τ sig)
      = refPerTok (V (main_arg0 : DevRef τ sig)) (V (main_arg1 : DevRef τ sig)) (V (main_arg2 : DevRef τ sig)) := by
  rw [opsHead_split, after_app, after_app, after_app, after_app, valD, valC2, keepC1_v1, valC1, valB, keepB_arg2, keepA_arg2, valA]
  unfold refPerTok
  rw [taken_eq]

end Cert.ReferenceIdeal.RefValue

end
-- ==== Proof.RefResult.lean ====
/-
  The reference's five results.

  The reference computes the logits of every token against the whole vocabulary, their row-wise log-softmax, gathers the
  target's column, and applies the loss's trailing host operations. For targets inside the vocabulary its gathered
  array is the `[4, 1024]` array of per-token log-probabilities, so each result is the trailing operations' function of
  that array — the same function the kernel's results are.
-/
import proofs.«418200_j4621384810879_1_alg».proof.Proof.RefRun
import proofs.«418200_j4621384810879_1_alg».proof.Proof.RefHeadValue
import proofs.«418200_j4621384810879_1_alg».proof.Proof.OrpoTail

noncomputable section

namespace Cert.ReferenceIdeal.RefResult

open Idealize.ShloMosaic Idealize.ShloMosaic.TcCoe Idealize.SL.Sem Idealize.ShloMosaic.StableHlo
open Cert.ReferenceIdeal Cert.ReferenceIdeal.Gen Cert.ReferenceIdeal.RefRun Cert.FlashLogprob

variable (m : (ℓ : Loc nD τ sig) → Buf (Elt Ideal) ℓ) (ρ : Dev nD → PrngReg)

/-- The three argument arrays, at their literal types. -/
abbrev xarg (c : Dev nD) : S4x1024x2048.Idx → EReal := m ((c.tc : Thread nD τ).loc main_arg0)
abbrev warg (c : Dev nD) : S50257x2048.Idx → EReal := m ((c.tc : Thread nD τ).loc main_arg1)
abbrev targ (c : Dev nD) : S4x1024.Idx → BitVec 32 := m ((c.tc : Thread nD τ).loc main_arg2)

/-- The valuation after the reference's first forty operations. -/
abbrev Whead (c : Dev nD) : Valuation τ sig (Elt Ideal) := after opsHead (launchContents m c)

/-- The gathered per-token array, for targets inside the vocabulary. -/
theorem Whead_pt (c : Dev nD) (ht : ∀ i, (targ m c i).toNat < 50257) :
    Whead m c (main_v4 : DevRef τ sig) = perTokArr (xarg m c) (warg m c) (targ m c) := by
  show after opsHead (launchContents m c) (main_v4 : DevRef τ sig) = _
  rw [Cert.ReferenceIdeal.RefValue.head_value, launch_arg0, launch_arg1, launch_arg2]
  exact Cert.ReferenceIdeal.RefValue.refPerTok_eq _ _ _ ht

theorem Whead_tgt (c : Dev nD) : Whead m c (main_arg2 : DevRef τ sig) = targ m c := by
  show after opsHead (launchContents m c) (main_arg2 : DevRef τ sig) = _
  rw [head_arg2, launch_arg2]

/-- The run, read: the five results at the trailing operations' functions of the per-token array, the arguments
    unchanged. -/
theorem run (ht : ∀ c i, (targ m c i).toNat < 50257) :
    θ_run defs (onTc (τ := τ) (main (F := Ideal))) ⟨m, fun _ => 0, ρ⟩ fun r => ∀ c : Dev nD,
      r.2.mem ((c.tc : Thread nD τ).loc main_v28) = Cert.OrpoTail.loss (perTokArr (xarg m c) (warg m c) (targ m c)) (targ m c)
      ∧ r.2.mem ((c.tc : Thread nD τ).loc main_v30) = Cert.OrpoTail.chosenRewards (perTokArr (xarg m c) (warg m c) (targ m c)) (targ m c)
      ∧ r.2.mem ((c.tc : Thread nD τ).loc main_v32) = Cert.OrpoTail.rejectedRewards (perTokArr (xarg m c) (warg m c) (targ m c)) (targ m c)
      ∧ r.2.mem ((c.tc : Thread nD τ).loc main_v34) = Cert.OrpoTail.logOddsRatio (perTokArr (xarg m c) (warg m c) (targ m c)) (targ m c)
      ∧ r.2.mem ((c.tc : Thread nD τ).loc main_v36) = Cert.OrpoTail.logOddsChosen (perTokArr (xarg m c) (warg m c) (targ m c)) (targ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v28).trans (by
        show after opsTail (Whead m c) (main_v28 : DevRef τ sig) = _
        rw [Cert.OrpoTail.tailR_loss, Whead_pt m c (ht c), Whead_tgt m c]),
      (h c main_v30).trans (by
        show after opsTail (Whead m c) (main_v30 : DevRef τ sig) = _
        rw [Cert.OrpoTail.tailR_chosen, Whead_pt m c (ht c), Whead_tgt m c]),
      (h c main_v32).trans (by
        show after opsTail (Whead m c) (main_v32 : DevRef τ sig) = _
        rw [Cert.OrpoTail.tailR_rejected, Whead_pt m c (ht c), Whead_tgt m c]),
      (h c main_v34).trans (by
        show after opsTail (Whead m c) (main_v34 : DevRef τ sig) = _
        rw [Cert.OrpoTail.tailR_ratio, Whead_pt m c (ht c), Whead_tgt m c]),
      (h c main_v36).trans (by
        show after opsTail (Whead m c) (main_v36 : DevRef τ sig) = _
        rw [Cert.OrpoTail.tailR_oddsChosen, Whead_pt m c (ht c), Whead_tgt m c]),
      (h c main_arg0).trans (by rw [Cert.OrpoTail.tailR_arg0, head_arg0, launch_arg0]),
      (h c main_arg1).trans (by rw [Cert.OrpoTail.tailR_arg1, head_arg1, launch_arg1]),
      (h c main_arg2).trans (by rw [Cert.OrpoTail.tailR_arg2, head_arg2, launch_arg2])⟩)
    (run_main (F := Ideal) m ρ)

/-- The reference runs and leaves its arguments unchanged, whatever they hold. -/
theorem frame : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_arg0).trans (by rw [Cert.OrpoTail.tailR_arg0, head_arg0, launch_arg0]),
      (h c main_arg1).trans (by rw [Cert.OrpoTail.tailR_arg1, head_arg1, launch_arg1]),
      (h c main_arg2).trans (by rw [Cert.OrpoTail.tailR_arg2, head_arg2, launch_arg2])⟩)
    (run_main (F := Ideal) m ρ)

end Cert.ReferenceIdeal.RefResult

end
-- ==== Proof.lean ====
/-
  A fused linear + log-softmax + odds-ratio loss: the streaming kernel against the dense reference, over the extended reals.

  Both programs turn 4096 tokens (hidden size 2048) and a vocabulary matrix of 50257 rows into, per token, the
  log-softmax of its logits at its target column, and then apply the same trailing host operations (masked mean per
  sequence, log-odds of the two halves, log-sigmoid, five results) to that `[4, 1024]` array.

  * The reference forms all logits, subtracts the row maximum, takes the logarithm of the sum of exponentials and
    gathers the target's column.
  * The kernel never forms the logits: per row tile of 1024 tokens it walks 99 vocabulary tiles of 512 columns
    (the vocabulary padded with zero rows to 50688, the padded columns' scores replaced by a fill that denotes `-∞`),
    keeping a running maximum, a sum of exponentials rescaled to it, and the target's logit; after the last tile it
    stores `t - (m + log l)`.

  For real inputs every true column's logit is a real number, every tile holds a true column, the padding
  contributes `exp(-∞) = 0` to the sum and `-∞` to the maximum, and the rescaling telescopes
  (`exp(m - m') · exp(x - m) = exp(x - m')` for real `m`, `m'`): the running triple after the last tile is the row's
  maximum, its shifted sum of exponentials and the target's logit, and `t - (m + log l) = (t - m) - log l`.
  A target inside the vocabulary is matched by exactly one true column and gathered by the reference without wrapping.
  So both per-token arrays are one function of the inputs, and the five results are the same functions of it.

  The three frames: the two kernels' are the generated ones; the reference's is its run, read.
  The one rewrite of the idealization names the fill: its ledger entry is the rule's statement.
-/
import proofs.«418200_j4621384810879_1_alg».proof.Defs
import proofs.«418200_j4621384810879_1_alg».proof.Proof.Gen.Kernel
import proofs.«418200_j4621384810879_1_alg».proof.Proof.Gen.Kernel.Frame
import proofs.«418200_j4621384810879_1_alg».proof.Proof.Gen.KernelIdeal
import proofs.«418200_j4621384810879_1_alg».proof.Proof.Gen.KernelIdeal.Frame
import proofs.«418200_j4621384810879_1_alg».proof.Proof.Gen.ReferenceIdeal
import proofs.«418200_j4621384810879_1_alg».proof.Proof.Gen.Pre_finite_inputs
import proofs.«418200_j4621384810879_1_alg».proof.Proof.PreFacts
import proofs.«418200_j4621384810879_1_alg».proof.Proof.KernelRun
import proofs.«418200_j4621384810879_1_alg».proof.Proof.RefResult
import Idealize.ShloMosaic.Adequacy
import Idealize.ShloMosaic.Init

noncomputable section

namespace Cert.Proof

open Idealize.ShloMosaic Idealize.SL.Sem Cert.FlashLogprob

/-- From memories that agree on the arguments and satisfy the precondition, both programs end with each of the five
    results at the trailing operations' function of the per-token log-probabilities of the kernel's arguments. -/
theorem algebraic : Cert.algebraic_KernelIdeal_ReferenceIdeal := by
  intro m ρ m' ρ' hpre hagree
  have hP := fun c => Cert.PreFacts.of_fn _ _ _ (hpre c)
  refine ⟨fun c => Cert.OrpoTail.loss (perTokArr (Cert.KernelIdeal.HostIn.xarg m c) (Cert.KernelIdeal.HostIn.warg m c) (Cert.KernelIdeal.HostIn.targ m c)) (Cert.KernelIdeal.HostIn.targ m c),
    fun c => Cert.OrpoTail.chosenRewards (perTokArr (Cert.KernelIdeal.HostIn.xarg m c) (Cert.KernelIdeal.HostIn.warg m c) (Cert.KernelIdeal.HostIn.targ m c)) (Cert.KernelIdeal.HostIn.targ m c),
    fun c => Cert.OrpoTail.rejectedRewards (perTokArr (Cert.KernelIdeal.HostIn.xarg m c) (Cert.KernelIdeal.HostIn.warg m c) (Cert.KernelIdeal.HostIn.targ m c)) (Cert.KernelIdeal.HostIn.targ m c),
    fun c => Cert.OrpoTail.logOddsRatio (perTokArr (Cert.KernelIdeal.HostIn.xarg m c) (Cert.KernelIdeal.HostIn.warg m c) (Cert.KernelIdeal.HostIn.targ m c)) (Cert.KernelIdeal.HostIn.targ m c),
    fun c => Cert.OrpoTail.logOddsChosen (perTokArr (Cert.KernelIdeal.HostIn.xarg m c) (Cert.KernelIdeal.HostIn.warg m c) (Cert.KernelIdeal.HostIn.targ m c)) (Cert.KernelIdeal.HostIn.targ m c),
    Cert.KernelIdeal.Run.run m ρ (fun c => (hP c).1) (fun c => (hP c).2.1) (fun c => (hP c).2.2), ?_⟩
  have ex : ∀ c, Cert.ReferenceIdeal.RefResult.xarg m' c = Cert.KernelIdeal.HostIn.xarg m c := fun c => (hagree c).1
  have ew : ∀ c, Cert.ReferenceIdeal.RefResult.warg m' c = Cert.KernelIdeal.HostIn.warg m c := fun c => (hagree c).2.1
  have et : ∀ c, Cert.ReferenceIdeal.RefResult.targ m' c = Cert.KernelIdeal.HostIn.targ m c := fun c => (hagree c).2.2
  refine (θ_run Cert.ReferenceIdeal.defs _ _).mono (fun _ h c => ?_)
    (Cert.ReferenceIdeal.RefResult.run m' ρ' (fun c i => by rw [et c]; exact (hP c).2.2 i))
  obtain ⟨h0, h1, h2, h3, h4, a0, a1, a2⟩ := h c
  refine ⟨h0.trans ?_, h1.trans ?_, h2.trans ?_, h3.trans ?_, h4.trans ?_, a0, a1, a2⟩ <;>
    rw [ex c, ew c, et c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.RefResult.frame m ρ,
  IdealRules.named_const.statement Cert.KernelIdeal.κ "neg_big" .f32 0xFF333332#32 ⊥ rfl,
  algebraic⟩

end Cert.Proof

end
